-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S13x64x256x768 : Shape := ⟨4, ![13, 64, 256, 768]⟩
abbrev S12x64x256x256 : Shape := ⟨4, ![12, 64, 256, 256]⟩
abbrev S64x256x256 : Shape := ⟨3, ![64, 256, 256]⟩
abbrev S64x256 : Shape := ⟨2, ![64, 256]⟩
abbrev S4x768x600 : Shape := ⟨3, ![4, 768, 600]⟩
abbrev S4x600 : Shape := ⟨2, ![4, 600]⟩
abbrev S4x600x600 : Shape := ⟨3, ![4, 600, 600]⟩
abbrev S7x600 : Shape := ⟨2, ![7, 600]⟩
abbrev S600 : Shape := ⟨1, ![600]⟩
abbrev S600x3 : Shape := ⟨2, ![600, 3]⟩
abbrev S3 : Shape := ⟨1, ![3]⟩
abbrev S_ : Shape := ⟨0, ![]⟩

class Facts : Prop where
  bcast_S_S13x64x256x768 : S_.BroadcastsInDim S13x64x256x768 (![] : Fin 0 → Fin S13x64x256x768.rank)
  reducesTo_S13x64x256x768_S_d0_1_2_3 : S13x64x256x768.ReducesTo [0, 1, 2, 3] S_
  h_S_ : 0 < S_.numel
  bcast_S_S12x64x256x256 : S_.BroadcastsInDim S12x64x256x256 (![] : Fin 0 → Fin S12x64x256x256.rank)
  reducesTo_S12x64x256x256_S_d0_1_2_3 : S12x64x256x256.ReducesTo [0, 1, 2, 3] S_
  bcast_S_S64x256x256 : S_.BroadcastsInDim S64x256x256 (![] : Fin 0 → Fin S64x256x256.rank)
  reducesTo_S64x256x256_S_d0_1_2 : S64x256x256.ReducesTo [0, 1, 2] S_
  bcast_S_S64x256 : S_.BroadcastsInDim S64x256 (![] : Fin 0 → Fin S64x256.rank)
  reducesTo_S64x256_S_d0_1 : S64x256.ReducesTo [0, 1] S_
  bcast_S_S4x768x600 : S_.BroadcastsInDim S4x768x600 (![] : Fin 0 → Fin S4x768x600.rank)
  reducesTo_S4x768x600_S_d0_1_2 : S4x768x600.ReducesTo [0, 1, 2] S_
  bcast_S_S4x600 : S_.BroadcastsInDim S4x600 (![] : Fin 0 → Fin S4x600.rank)
  reducesTo_S4x600_S_d0_1 : S4x600.ReducesTo [0, 1] S_
  bcast_S_S4x600x600 : S_.BroadcastsInDim S4x600x600 (![] : Fin 0 → Fin S4x600x600.rank)
  reducesTo_S4x600x600_S_d0_1_2 : S4x600x600.ReducesTo [0, 1, 2] S_
  bcast_S_S7x600 : S_.BroadcastsInDim S7x600 (![] : Fin 0 → Fin S7x600.rank)
  reducesTo_S7x600_S_d0_1 : S7x600.ReducesTo [0, 1] S_
  bcast_S_S600 : S_.BroadcastsInDim S600 (![] : Fin 0 → Fin S600.rank)
  reducesTo_S600_S_d0 : S600.ReducesTo [0] S_
  bcast_S_S600x3 : S_.BroadcastsInDim S600x3 (![] : Fin 0 → Fin S600x3.rank)
  reducesTo_S600x3_S_d0_1 : S600x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg3 : IVec S64x256 32) (main_v63 : IVec S_ 1) (main_v67 : IVec S_ 1) : IVec S_ 1 :=
  let main_v68 : IVec S_ 1 := andi main_v63 main_v67
  let main_c_26 : IVec S_ 32 := constantI S_ 32 0#32
  let main_v69 : IVec S64x256 32 := broadcastInDim S64x256 ![] bcast_S_S64x256 main_c_26
  let main_v70 : IVec S64x256 1 := cmpi .sge main_arg3 main_v69
  let main_c_27 : IVec S_ 1 := constantI S_ 1 1#1
  let main_v71 : IVec S_ 1 := (fun x v => Host.reduce IntOp.andi x v reducesTo_S64x256_S_d0_1 h_S_) main_v70 main_c_27
  let main_v72 : IVec S_ 1 := andi main_v68 main_v71
  let main_c_28 : IVec S_ 32 := constantI S_ 32 256#32
  let main_v73 : IVec S64x256 32 := broadcastInDim S64x256 ![] bcast_S_S64x256 main_c_28
  let main_v74 : IVec S64x256 1 := cmpi .slt main_arg3 main_v73
  let main_c_29 : IVec S_ 1 := constantI S_ 1 1#1
  let main_v75 : IVec S_ 1 := (fun x v => Host.reduce IntOp.andi x v reducesTo_S64x256_S_d0_1 h_S_) main_v74 main_c_29
  let main_v76 : IVec S_ 1 := andi main_v72 main_v75
  main_v76

def fn_part3 {F : FTy → Type} [FloatOps F] (main_arg3 : IVec S64x256 32) (main_arg12 : FVec F S600 .f32) (main_arg13 : FVec F S600x3 .f32) (main_arg14 : FVec F S3 .f32) (main_v48 : IVec S_ 1) (main_v49 : FVec F S600 .f32) (main_v50 : FVec F S600 .f32) : IVec S_ 1 :=
  let main_v51 : IVec S600 1 := cmpf .olt main_v49 main_v50
  let main_c_19 : IVec S_ 1 := constantI S_ 1 1#1
  let main_v52 : IVec S_ 1 := (fun x v => Host.reduce IntOp.andi x v reducesTo_S600_S_d0 h_S_) main_v51 main_c_19
  let main_v53 : IVec S_ 1 := andi main_v48 main_v52
  let main_v54 : FVec F S600 .f32 := Host.absf main_arg12
  let main_cst_20 : FVec F S_ .f32 := constant S_ .f32 0x7F800000#32
  let main_v55 : FVec F S600 .f32 := broadcastInDim S600 ![] bcast_S_S600 main_cst_20
  let main_v56 : IVec S600 1 := cmpf .olt main_v54 main_v55
  let main_c_21 : IVec S_ 1 := constantI S_ 1 1#1
  let main_v57 : IVec S_ 1 := (fun x v => Host.reduce IntOp.andi x v reducesTo_S600_S_d0 h_S_) main_v56 main_c_21
  let main_v58 : IVec S_ 1 := andi main_v53 main_v57
  let main_v59 : FVec F S600x3 .f32 := Host.absf main_arg13
  let main_cst_22 : FVec F S_ .f32 := constant S_ .f32 0x7F800000#32
  let main_v60 : FVec F S600x3 .f32 := broadcastInDim S600x3 ![] bcast_S_S600x3 main_cst_22
  let main_v61 : IVec S600x3 1 := cmpf .olt main_v59 main_v60
  let main_c_23 : IVec S_ 1 := constantI S_ 1 1#1
  let main_v62 : IVec S_ 1 := (fun x v => Host.reduce IntOp.andi x v reducesTo_S600x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg3 main_v63 main_v67

def fn_part2 {F : FTy → Type} [FloatOps F] (main_arg3 : IVec S64x256 32) (main_arg8 : FVec F S4x600x600 .f32) (main_arg9 : FVec F S4x600 .f32) (main_arg10 : FVec F S7x600 .f32) (main_arg11 : FVec F S600 .f32) (main_arg12 : FVec F S600 .f32) (main_arg13 : FVec F S600x3 .f32) (main_arg14 : FVec F S3 .f32) (main_v33 : IVec S_ 1) : IVec S_ 1 :=
  let main_v34 : FVec F S4x600x600 .f32 := Host.absf main_arg8
  let main_cst_12 : FVec F S_ .f32 := constant S_ .f32 0x7F800000#32
  let main_v35 : FVec F S4x600x600 .f32 := broadcastInDim S4x600x600 ![] bcast_S_S4x600x600 main_cst_12
  let main_v36 : IVec S4x600x600 1 := cmpf .olt main_v34 main_v35
  let main_c_13 : IVec S_ 1 := constantI S_ 1 1#1
  let main_v37 : IVec S_ 1 := (fun x v => Host.reduce IntOp.andi x v reducesTo_S4x600x600_S_d0_1_2 h_S_) main_v36 main_c_13
  let main_v38 : IVec S_ 1 := andi main_v33 main_v37
  let main_v39 : FVec F S4x600 .f32 := Host.absf main_arg9
  let main_cst_14 : FVec F S_ .f32 := constant S_ .f32 0x7F800000#32
  let main_v40 : FVec F S4x600 .f32 := broadcastInDim S4x600 ![] bcast_S_S4x600 main_cst_14
  let main_v41 : IVec S4x600 1 := cmpf .olt main_v39 main_v40
  let main_c_15 : IVec S_ 1 := constantI S_ 1 1#1
  let main_v42 : IVec S_ 1 := (fun x v => Host.reduce IntOp.andi x v reducesTo_S4x600_S_d0_1 h_S_) main_v41 main_c_15
  let main_v43 : IVec S_ 1 := andi main_v38 main_v42
  let main_v44 : FVec F S7x600 .f32 := Host.absf main_arg10
  let main_cst_16 : FVec F S_ .f32 := constant S_ .f32 0x7F800000#32
  let main_v45 : FVec F S7x600 .f32 := broadcastInDim S7x600 ![] bcast_S_S7x600 main_cst_16
  let main_v46 : IVec S7x600 1 := cmpf .olt main_v44 main_v45
  let main_c_17 : IVec S_ 1 := constantI S_ 1 1#1
  let main_v47 : IVec S_ 1 := (fun x v => Host.reduce IntOp.andi x v reducesTo_S7x600_S_d0_1 h_S_) main_v46 main_c_17
  let main_v48 : IVec S_ 1 := andi main_v43 main_v47
  let main_v49 : FVec F S600 .f32 := Host.absf main_arg11
  let main_cst_18 : FVec F S_ .f32 := constant S_ .f32 0x7F800000#32
  let main_v50 : FVec F S600 .f32 := broadcastInDim S600 ![] bcast_S_S600 main_cst_18
  fn_part3 (F := F) main_arg3 main_arg12 main_arg13 main_arg14 main_v48 main_v49 main_v50

def fn_part1 {F : FTy → Type} [FloatOps F] (main_arg3 : IVec S64x256 32) (main_arg5 : FVec F S64x256 .f32) (main_arg6 : FVec F S4x768x600 .f32) (main_arg7 : FVec F S4x600 .f32) (main_arg8 : FVec F S4x600x600 .f32) (main_arg9 : FVec F S4x600 .f32) (main_arg10 : FVec F S7x600 .f32) (main_arg11 : FVec F S600 .f32) (main_arg12 : FVec F S600 .f32) (main_arg13 : FVec F S600x3 .f32) (main_arg14 : FVec F S3 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S4x768x600 .f32 := Host.absf main_arg6
  let main_cst_8 : FVec F S_ .f32 := constant S_ .f32 0x7F800000#32
  let main_v25 : FVec F S4x768x600 .f32 := broadcastInDim S4x768x600 ![] bcast_S_S4x768x600 main_cst_8
  let main_v26 : IVec S4x768x600 1 := cmpf .olt main_v24 main_v25
  let main_c_9 : IVec S_ 1 := constantI S_ 1 1#1
  let main_v27 : IVec S_ 1 := (fun x v => Host.reduce IntOp.andi x v reducesTo_S4x768x600_S_d0_1_2 h_S_) main_v26 main_c_9
  let main_v28 : IVec S_ 1 := andi main_v23 main_v27
  let main_v29 : FVec F S4x600 .f32 := Host.absf main_arg7
  let main_cst_10 : FVec F S_ .f32 := constant S_ .f32 0x7F800000#32
  let main_v30 : FVec F S4x600 .f32 := broadcastInDim S4x600 ![] bcast_S_S4x600 main_cst_10
  let main_v31 : IVec S4x600 1 := cmpf .olt main_v29 main_v30
  let main_c_11 : IVec S_ 1 := constantI S_ 1 1#1
  let main_v32 : IVec S_ 1 := (fun x v => Host.reduce IntOp.andi x v reducesTo_S4x600_S_d0_1 h_S_) main_v31 main_c_11
  let main_v33 : IVec S_ 1 := andi main_v28 main_v32
  fn_part2 (F := F) main_arg3 main_arg8 main_arg9 main_arg10 main_arg11 main_arg12 main_arg13 main_arg14 main_v33

def fn {F : FTy → Type} [FloatOps F] (main_arg0 : FVec F S13x64x256x768 .f32) (main_arg1 : FVec F S12x64x256x256 .f32) (main_arg2 : FVec F S64x256x256 .f32) (main_arg3 : IVec S64x256 32) (main_arg4 : FVec F S64x256 .f32) (main_arg5 : FVec F S64x256 .f32) (main_arg6 : FVec F S4x768x600 .f32) (main_arg7 : FVec F S4x600 .f32) (main_arg8 : FVec F S4x600x600 .f32) (main_arg9 : FVec F S4x600 .f32) (main_arg10 : FVec F S7x600 .f32) (main_arg11 : FVec F S600 .f32) (main_arg12 : FVec F S600 .f32) (main_arg13 : FVec F S600x3 .f32) (main_arg14 : FVec F S3 .f32) : IVec S_ 1 :=
  let main_v0 : FVec F S13x64x256x768 .f32 := Host.absf main_arg0
  let main_cst : FVec F S_ .f32 := constant S_ .f32 0x7F800000#32
  let main_v1 : FVec F S13x64x256x768 .f32 := broadcastInDim S13x64x256x768 ![] bcast_S_S13x64x256x768 main_cst
  let main_v2 : IVec S13x64x256x768 1 := cmpf .olt main_v0 main_v1
  let main_c : IVec S_ 1 := constantI S_ 1 1#1
  let main_v3 : IVec S_ 1 := (fun x v => Host.reduce IntOp.andi x v reducesTo_S13x64x256x768_S_d0_1_2_3 h_S_) main_v2 main_c
  let main_v4 : FVec F S12x64x256x256 .f32 := Host.absf main_arg1
  let main_cst_0 : FVec F S_ .f32 := constant S_ .f32 0x7F800000#32
  let main_v5 : FVec F S12x64x256x256 .f32 := broadcastInDim S12x64x256x256 ![] bcast_S_S12x64x256x256 main_cst_0
  let main_v6 : IVec S12x64x256x256 1 := cmpf .olt main_v4 main_v5
  let main_c_1 : IVec S_ 1 := constantI S_ 1 1#1
  let main_v7 : IVec S_ 1 := (fun x v => Host.reduce IntOp.andi x v reducesTo_S12x64x256x256_S_d0_1_2_3 h_S_) main_v6 main_c_1
  let main_v8 : IVec S_ 1 := andi main_v3 main_v7
  let main_v9 : FVec F S64x256x256 .f32 := Host.absf main_arg2
  let main_cst_2 : FVec F S_ .f32 := constant S_ .f32 0x7F800000#32
  let main_v10 : FVec F S64x256x256 .f32 := broadcastInDim S64x256x256 ![] bcast_S_S64x256x256 main_cst_2
  let main_v11 : IVec S64x256x256 1 := cmpf .olt main_v9 main_v10
  let main_c_3 : IVec S_ 1 := constantI S_ 1 1#1
  let main_v12 : IVec S_ 1 := (fun x v => Host.reduce IntOp.andi x v reducesTo_S64x256x256_S_d0_1_2 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg3 main_arg5 main_arg6 main_arg7 main_arg8 main_arg9 main_arg10 main_arg11 main_arg12 main_arg13 main_arg14 main_v13 main_v16
-- ==== Kernel.lean ====
abbrev S13x64x256x768 : Shape := ⟨4, ![13, 64, 256, 768]⟩
abbrev S12x64x256x256 : Shape := ⟨4, ![12, 64, 256, 256]⟩
abbrev S64x256x256 : Shape := ⟨3, ![64, 256, 256]⟩
abbrev S64x256 : Shape := ⟨2, ![64, 256]⟩
abbrev S4x768x600 : Shape := ⟨3, ![4, 768, 600]⟩
abbrev S4x600 : Shape := ⟨2, ![4, 600]⟩
abbrev S4x600x600 : Shape := ⟨3, ![4, 600, 600]⟩
abbrev S7x600 : Shape := ⟨2, ![7, 600]⟩
abbrev S600 : Shape := ⟨1, ![600]⟩
abbrev S600x3 : Shape := ⟨2, ![600, 3]⟩
abbrev S3 : Shape := ⟨1, ![3]⟩
abbrev S1x64x256x768 : Shape := ⟨4, ![1, 64, 256, 768]⟩
abbrev S64x256x768 : Shape := ⟨3, ![64, 256, 768]⟩
abbrev S64x256x1 : Shape := ⟨3, ![64, 256, 1]⟩
abbrev S_ : Shape := ⟨0, ![]⟩
abbrev S1 : Shape := ⟨1, ![1]⟩
abbrev S1x1x1 : Shape := ⟨3, ![1, 1, 1]⟩
abbrev S16384x768 : Shape := ⟨2, ![16384, 768]⟩
abbrev S1x768x600 : Shape := ⟨3, ![1, 768, 600]⟩
abbrev S768x600 : Shape := ⟨2, ![768, 600]⟩
abbrev S1x600 : Shape := ⟨2, ![1, 600]⟩
abbrev S16384x600 : Shape := ⟨2, ![16384, 600]⟩
abbrev S1024x768 : Shape := ⟨2, ![1024, 768]⟩
abbrev S1024x600 : Shape := ⟨2, ![1024, 600]⟩
abbrev S1024 : Shape := ⟨1, ![1024]⟩
abbrev S1024x1 : Shape := ⟨2, ![1024, 1]⟩
abbrev S64x256x600 : Shape := ⟨3, ![64, 256, 600]⟩
abbrev S64x3 : Shape := ⟨2, ![64, 3]⟩
abbrev S16x256x600 : Shape := ⟨3, ![16, 256, 600]⟩
abbrev S16x256 : Shape := ⟨2, ![16, 256]⟩
abbrev S16x3 : Shape := ⟨2, ![16, 3]⟩
abbrev S16x256x1 : Shape := ⟨3, ![16, 256, 1]⟩
abbrev S16x600 : Shape := ⟨2, ![16, 600]⟩
abbrev S16 : Shape := ⟨1, ![16]⟩
abbrev S16x1 : Shape := ⟨2, ![16, 1]⟩
abbrev S1x3 : Shape := ⟨2, ![1, 3]⟩

abbrev nBuf : Space → Nat
  | .hbm => 48
  | .vmem => 16
  | .smem => 0
  | _ => 0

abbrev bufTy : (tb : Table) → Fin (tcTables nBuf tb) → BufTy
  | .hbm, ⟨0, _⟩ => ⟨S13x64x256x768, .f32⟩
  | .hbm, ⟨1, _⟩ => ⟨S12x64x256x256, .f32⟩
  | .hbm, ⟨2, _⟩ => ⟨S64x256x256, .f32⟩
  | .hbm, ⟨3, _⟩ => ⟨S64x256, .i32⟩
  | .hbm, ⟨4, _⟩ => ⟨S64x256, .f32⟩
  | .hbm, ⟨5, _⟩ => ⟨S64x256, .f32⟩
  | .hbm, ⟨6, _⟩ => ⟨S4x768x600, .f32⟩
  | .hbm, ⟨7, _⟩ => ⟨S4x600, .f32⟩
  | .hbm, ⟨8, _⟩ => ⟨S4x600x600, .f32⟩
  | .hbm, ⟨9, _⟩ => ⟨S4x600, .f32⟩
  | .hbm, ⟨10, _⟩ => ⟨S7x600, .f32⟩
  | .hbm, ⟨11, _⟩ => ⟨S600, .f32⟩
  | .hbm, ⟨12, _⟩ => ⟨S600, .f32⟩
  | .hbm, ⟨13, _⟩ => ⟨S600x3, .f32⟩
  | .hbm, ⟨14, _⟩ => ⟨S3, .f32⟩
  | .hbm, ⟨15, _⟩ => ⟨S1x64x256x768, .f32⟩
  | .hbm, ⟨16, _⟩ => ⟨S64x256x768, .f32⟩
  | .hbm, ⟨17, _⟩ => ⟨S64x256x1, .i32⟩
  | .hbm, ⟨18, _⟩ => ⟨S_, .i32⟩
  | .hbm, ⟨19, _⟩ => ⟨S64x256x1, .i32⟩
  | .hbm, ⟨20, _⟩ => ⟨S64x256x1, .i1⟩
  | .hbm, ⟨21, _⟩ => ⟨S_, .i32⟩
  | .hbm, ⟨22, _⟩ => ⟨S64x256x1, .i32⟩
  | .hbm, ⟨23, _⟩ => ⟨S64x256x1, .i32⟩
  | .hbm, ⟨24, _⟩ => ⟨S64x256x1, .i32⟩
  | .hbm, ⟨25, _⟩ => ⟨S1, .i32⟩
  | .hbm, ⟨26, _⟩ => ⟨S_, .i32⟩
  | .hbm, ⟨27, _⟩ => ⟨S64x256x1, .i32⟩
  | .hbm, ⟨28, _⟩ => ⟨S64x256x1, .i1⟩
  | .hbm, ⟨29, _⟩ => ⟨S1x1x1, .i32⟩
  | .hbm, ⟨30, _⟩ => ⟨S64x256x1, .i32⟩
  | .hbm, ⟨31, _⟩ => ⟨S64x256x1, .i1⟩
  | .hbm, ⟨32, _⟩ => ⟨S64x256x1, .i1⟩
  | .hbm, ⟨33, _⟩ => ⟨S_, .i1⟩
  | .hbm, ⟨34, _⟩ => ⟨S64x256, .i1⟩
  | .hbm, ⟨35, _⟩ => ⟨S64x256x768, .f32⟩
  | .hbm, ⟨36, _⟩ => ⟨S64x256x768, .i1⟩
  | .hbm, ⟨37, _⟩ => ⟨S_, .f32⟩
  | .hbm, ⟨38, _⟩ => ⟨S64x256x768, .f32⟩
  | .hbm, ⟨39, _⟩ => ⟨S64x256x768, .f32⟩
  | .hbm, ⟨40, _⟩ => ⟨S16384x768, .f32⟩
  | .hbm, ⟨41, _⟩ => ⟨S1x768x600, .f32⟩
  | .hbm, ⟨42, _⟩ => ⟨S768x600, .f32⟩
  | .hbm, ⟨43, _⟩ => ⟨S1x600, .f32⟩
  | .hbm, ⟨44, _⟩ => ⟨S600, .f32⟩
  | .hbm, ⟨45, _⟩ => ⟨S16384x600, .f32⟩
  | .hbm, ⟨46, _⟩ => ⟨S64x256x600, .f32⟩
  | .hbm, ⟨47, _⟩ => ⟨S64x3, .f32⟩
  | .local _ .vmem, ⟨0, _⟩ => ⟨S1024x768, .f32⟩
  | .local _ .vmem, ⟨1, _⟩ => ⟨S1024x768, .f32⟩
  | .local _ .vmem, ⟨2, _⟩ => ⟨S768x600, .f32⟩
  | .local _ .vmem, ⟨3, _⟩ => ⟨S600, .f32⟩
  | .local _ .vmem, ⟨4, _⟩ => ⟨S600, .f32⟩
  | .local _ .vmem, ⟨5, _⟩ => ⟨S600, .f32⟩
  | .local _ .vmem, ⟨6, _⟩ => ⟨S1024x600, .f32⟩
  | .local _ .vmem, ⟨7, _⟩ => ⟨S1024x600, .f32⟩
  | .local _ .vmem, ⟨8, _⟩ => ⟨S16x256x600, .f32⟩
  | .local _ .vmem, ⟨9, _⟩ => ⟨S16x256x600, .f32⟩
  | .local _ .vmem, ⟨10, _⟩ => ⟨S16x256, .f32⟩
  | .local _ .vmem, ⟨11, _⟩ => ⟨S16x256, .f32⟩
  | .local _ .vmem, ⟨12, _⟩ => ⟨S600x3, .f32⟩
  | .local _ .vmem, ⟨13, _⟩ => ⟨S3, .f32⟩
  | .local _ .vmem, ⟨14, _⟩ => ⟨S16x3, .f32⟩
  | .local _ .vmem, ⟨15, _⟩ => ⟨S16x3, .f32⟩
  | _, _ => ⟨S13x64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_c_2 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_c_3 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x256x600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S600x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S13x64x256x768_S1x64x256x768_12_0_0_0 : S13x64x256x768.Slices ![12, 0, 0, 0] S1x64x256x768
  shapeCasts_S1x64x256x768_S64x256x768 : S1x64x256x768.ShapeCasts S64x256x768
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S1_S1x1x1_2 : S1.BroadcastsInDim S1x1x1 (![2] : Fin 1 → Fin S1x1x1.rank)
  bcast_S1x1x1_S64x256x1_0_1_2 : S1x1x1.BroadcastsInDim S64x256x1 (![0, 1, 2] : Fin 3 → Fin S64x256x1.rank)
  reducesTo_S64x256x1_S64x256_d2 : S64x256x1.ReducesTo [2] S64x256
  h_S_ : 0 < S_.numel
  bcast_S64x256_S64x256x768_0_1 : S64x256.BroadcastsInDim S64x256x768 (![0, 1] : Fin 2 → Fin S64x256x768.rank)
  bcast_S_S64x256x768 : S_.BroadcastsInDim S64x256x768 (![] : Fin 0 → Fin S64x256x768.rank)
  shapeCasts_S64x256x768_S16384x768 : S64x256x768.ShapeCasts S16384x768
  slices_S4x768x600_S1x768x600_3_0_0 : S4x768x600.Slices ![3, 0, 0] S1x768x600
  shapeCasts_S1x768x600_S768x600 : S1x768x600.ShapeCasts S768x600
  slices_S4x600_S1x600_3_0 : S4x600.Slices ![3, 0] S1x600
  shapeCasts_S1x600_S600 : S1x600.ShapeCasts S600
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x600_S768x600_0_0 : ∀ a, (![0, 0] : Fin 2 → Nat) a + S768x600.size a ≤ S768x600.size a
  h_S768x600 : 0 < S768x600.numel
  shapeCasts_S768x600_S768x600 : S768x600.ShapeCasts S768x600
  inb_S600_S600_0 : ∀ a, (![0] : Fin 1 → Nat) a + S600.size a ≤ S600.size a
  h_S600 : 0 < S600.numel
  shapeCasts_S600_S600 : S600.ShapeCasts S600
  shapeCasts_S600_S1x600 : S600.ShapeCasts S1x600
  broadcasts_S1x600_S1024x600 : S1x600.Broadcasts S1024x600
  reduces_S1024x600_S1024 : S1024x600.Reduces [1] S1024
  shapeCasts_S1024_S1024x1 : S1024.ShapeCasts S1024x1
  broadcasts_S1024x1_S1024x600 : S1024x1.Broadcasts S1024x600
  inb_S1024x600_S1024x600_0_0 : ∀ a, (![0, 0] : Fin 2 → Nat) a + S1024x600.size a ≤ S1024x600.size a
  h_S1024x600 : 0 < S1024x600.numel
  shapeCasts_S16384x600_S64x256x600 : S16384x600.ShapeCasts S64x256x600
  inb_S16x256x600_S16x256x600_0_0_0 : ∀ a, (![0, 0, 0] : Fin 3 → Nat) a + S16x256x600.size a ≤ S16x256x600.size a
  h_S16x256x600 : 0 < S16x256x600.numel
  shapeCasts_S16x256x600_S16x256x600 : S16x256x600.ShapeCasts S16x256x600
  inb_S16x256_S16x256_0_0 : ∀ a, (![0, 0] : Fin 2 → Nat) a + S16x256.size a ≤ S16x256.size a
  h_S16x256 : 0 < S16x256.numel
  shapeCasts_S16x256_S16x256x1 : S16x256.ShapeCasts S16x256x1
  broadcasts_S16x256x1_S16x256x600 : S16x256x1.Broadcasts S16x256x600
  reduces_S16x256x600_S16x600 : S16x256x600.Reduces [1] S16x600
  reduces_S16x256_S16 : S16x256.Reduces [1] S16
  shapeCasts_S16_S16x1 : S16.ShapeCasts S16x1
  broadcasts_S16x1_S16x600 : S16x1.Broadcasts S16x600
  inb_S600x3_S600x3_0_0 : ∀ a, (![0, 0] : Fin 2 → Nat) a + S600x3.size a ≤ S600x3.size a
  h_S600x3 : 0 < S600x3.numel
  inb_S3_S3_0 : ∀ a, (![0] : Fin 1 → Nat) a + S3.size a ≤ S3.size a
  h_S3 : 0 < S3.numel
  shapeCasts_S3_S1x3 : S3.ShapeCasts S1x3
  broadcasts_S1x3_S16x3 : S1x3.Broadcasts S16x3
  inb_S16x3_S16x3_0_0 : ∀ a, (![0, 0] : Fin 2 → Nat) a + S16x3.size a ≤ S16x3.size a
  h_S16x3 : 0 < S16x3.numel
  gather_S64x256x768_S64x256x1_S64x256x768_2_1_0_0_1_2_11768_wf : GatherDims.WF S64x256x768 S64x256x1 S64x256x768 [2] [1] [0] [1] [0] 2 ![1, 1, 768]
  dot_S1024x768_S768x600_S1024x600_1_0_0_1_n_n_wf : DotDims.WF S1024x768 S768x600 S1024x600 [1] [0] [0] [1] [] []
  dot_S16x600_S600x3_S16x3_1_0_0_1_n_n_wf : DotDims.WF S16x600 S600x3 S16x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x600.size a ≤ S768x600.size a
  hwx0_1 : ∀ i : grid0.Coords, EltTy.bits .f32 = 32 ∨ (Rect.block (s := S768x600) S768x600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S600.size a ≤ S600.size a
  hwx0_2 : ∀ i : grid0.Coords, EltTy.bits .f32 = 32 ∨ (Rect.block (s := S600) S600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600.size a ≤ S600.size a
  hwx0_3 : ∀ i : grid0.Coords, EltTy.bits .f32 = 32 ∨ (Rect.block (s := S600) S600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S600.size a ≤ S600.size a
  hwx0_4 : ∀ i : grid0.Coords, EltTy.bits .f32 = 32 ∨ (Rect.block (s := S600) S600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x600.size a ≤ S16384x600.size a
  hwx0_5 : ∀ i : grid0.Coords, EltTy.bits .f32 = 32 ∨ (Rect.block (s := S16384x600) S1024x600.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x600.size a ≤ S64x256x600.size a
  hwx1_0 : ∀ i : grid1.Coords, EltTy.bits .f32 = 32 ∨ (Rect.block (s := S64x256x600) S16x256x600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256.size a ≤ S64x256.size a
  hwx1_1 : ∀ i : grid1.Coords, EltTy.bits .f32 = 32 ∨ (Rect.block (s := S64x256) S16x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S600x3.size a ≤ S600x3.size a
  hwx1_2 : ∀ i : grid1.Coords, EltTy.bits .f32 = 32 ∨ (Rect.block (s := S600x3) S600x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3.size a ≤ S3.size a
  hwx1_3 : ∀ i : grid1.Coords, EltTy.bits .f32 = 32 ∨ (Rect.block (s := S3) S3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x3.size a ≤ S64x3.size a
  hwx1_4 : ∀ i : grid1.Coords, EltTy.bits .f32 = 32 ∨ (Rect.block (s := S64x3) S16x3.size (cc1_transform_4 i) (hinb1_4 i)).WholeWords (EltTy.packing .f32)

variable [Facts₀]

def gather_S64x256x768_S64x256x1_S64x256x768_2_1_0_0_1_2_11768 : GatherDims S64x256x768 S64x256x1 S64x256x768 where
  offsetDims := [2]
  collapsedSliceDims := [1]
  operandBatchingDims := [0]
  startIndicesBatchingDims := [0]
  startIndexMap := [1]
  indexVectorDim := 2
  sliceSizes := ![1, 1, 768]
  wf := gather_S64x256x768_S64x256x1_S64x256x768_2_1_0_0_1_2_11768_wf
def dot_S1024x768_S768x600_S1024x600_1_0_0_1_n_n : DotDims S1024x768 S768x600 S1024x600 where
  lhsContracting := [1]
  rhsContracting := [0]
  lhsNonContracting := [0]
  rhsNonContracting := [1]
  lhsBatch := []
  rhsBatch := []
  wf := dot_S1024x768_S768x600_S1024x600_1_0_0_1_n_n_wf
def dot_S16x600_S600x3_S16x3_1_0_0_1_n_n : DotDims S16x600 S600x3 S16x3 where
  lhsContracting := [1]
  rhsContracting := [0]
  lhsNonContracting := [0]
  rhsNonContracting := [1]
  lhsBatch := []
  rhsBatch := []
  wf := dot_S16x600_S600x3_S16x3_1_0_0_1_n_n_wf

abbrev win0_0 : Pipeline.Window sig grid0 :=
  Pipeline.Window.ofSpec (Memref.whole main_v4) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S16x256x600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S600x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S16x3.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S13x64x256x768 : Shape := ⟨4, ![13, 64, 256, 768]⟩
abbrev S12x64x256x256 : Shape := ⟨4, ![12, 64, 256, 256]⟩
abbrev S64x256x256 : Shape := ⟨3, ![64, 256, 256]⟩
abbrev S64x256 : Shape := ⟨2, ![64, 256]⟩
abbrev S4x768x600 : Shape := ⟨3, ![4, 768, 600]⟩
abbrev S4x600 : Shape := ⟨2, ![4, 600]⟩
abbrev S4x600x600 : Shape := ⟨3, ![4, 600, 600]⟩
abbrev S7x600 : Shape := ⟨2, ![7, 600]⟩
abbrev S600 : Shape := ⟨1, ![600]⟩
abbrev S600x3 : Shape := ⟨2, ![600, 3]⟩
abbrev S3 : Shape := ⟨1, ![3]⟩
abbrev S_ : Shape := ⟨0, ![]⟩
abbrev S64x256x1 : Shape := ⟨3, ![64, 256, 1]⟩
abbrev S64x13x256x768 : Shape := ⟨4, ![64, 13, 256, 768]⟩
abbrev S64x1x256x1 : Shape := ⟨4, ![64, 1, 256, 1]⟩
abbrev S64x12x256x256 : Shape := ⟨4, ![64, 12, 256, 256]⟩
abbrev S64x1x1x256 : Shape := ⟨4, ![64, 1, 1, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S256x256x1 : Shape := ⟨3, ![256, 256, 1]⟩
abbrev S256x256x600 : Shape := ⟨3, ![256, 256, 600]⟩
abbrev S1x64x256x768 : Shape := ⟨4, ![1, 64, 256, 768]⟩
abbrev S64x256x768 : Shape := ⟨3, ![64, 256, 768]⟩
abbrev S1x768x600 : Shape := ⟨3, ![1, 768, 600]⟩
abbrev S768x600 : Shape := ⟨2, ![768, 600]⟩
abbrev S64x256x600 : Shape := ⟨3, ![64, 256, 600]⟩
abbrev S1x600 : Shape := ⟨2, ![1, 600]⟩
abbrev S1x1x600 : Shape := ⟨3, ![1, 1, 600]⟩
abbrev S1x64x256x256 : Shape := ⟨4, ![1, 64, 256, 256]⟩
abbrev S1x600x600 : Shape := ⟨3, ![1, 600, 600]⟩
abbrev S600x600 : Shape := ⟨2, ![600, 600]⟩
abbrev S256x600x64 : Shape := ⟨3, ![256, 600, 64]⟩
abbrev S64x600 : Shape := ⟨2, ![64, 600]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 375
  | .vmem => 0
  | .smem => 0
  | _ => 0

abbrev hbmTy0_0 (i : Nat) : BufTy := match i % 128 with
  | 0 => ⟨S13x64x256x768, .f32⟩
  | 1 => ⟨S12x64x256x256, .f32⟩
  | 2 => ⟨S64x256x256, .f32⟩
  | 3 => ⟨S64x256, .i32⟩
  | 4 => ⟨S64x256, .f32⟩
  | 5 => ⟨S64x256, .f32⟩
  | 6 => ⟨S4x768x600, .f32⟩
  | 7 => ⟨S4x600, .f32⟩
  | 8 => ⟨S4x600x600, .f32⟩
  | 9 => ⟨S4x600, .f32⟩
  | 10 => ⟨S7x600, .f32⟩
  | 11 => ⟨S600, .f32⟩
  | 12 => ⟨S600, .f32⟩
  | 13 => ⟨S600x3, .f32⟩
  | 14 => ⟨S3, .f32⟩
  | 15 => ⟨S_, .i32⟩
  | 16 => ⟨S64x256, .i32⟩
  | 17 => ⟨S64x256, .i1⟩
  | 18 => ⟨S_, .i32⟩
  | 19 => ⟨S64x256, .i32⟩
  | 20 => ⟨S64x256, .i32⟩
  | 21 => ⟨S64x256, .i32⟩
  | 22 => ⟨S64x256x1, .i32⟩
  | 23 => ⟨S64x13x256x768, .f32⟩
  | 24 => ⟨S64x13x256x768, .f32⟩
  | 25 => ⟨S13x64x256x768, .f32⟩
  | 26 => ⟨S64x1x256x1, .f32⟩
  | 27 => ⟨S64x12x256x256, .f32⟩
  | 28 => ⟨S64x12x256x256, .f32⟩
  | 29 => ⟨S64x12x256x256, .f32⟩
  | 30 => ⟨S64x1x1x256, .f32⟩
  | 31 => ⟨S64x12x256x256, .f32⟩
  | 32 => ⟨S64x12x256x256, .f32⟩
  | 33 => ⟨S_, .i32⟩
  | 34 => ⟨S64x256, .i32⟩
  | 35 => ⟨S64x256, .i1⟩
  | 36 => ⟨S_, .i32⟩
  | 37 => ⟨S64x256, .i32⟩
  | 38 => ⟨S64x256, .i32⟩
  | 39 => ⟨S64x256, .i32⟩
  | 40 => ⟨S64x256x1, .i32⟩
  | 41 => ⟨S64x12x256x256, .f32⟩
  | 42 => ⟨S_, .i32⟩
  | 43 => ⟨S64x256, .i32⟩
  | 44 => ⟨S64x256, .i1⟩
  | 45 => ⟨S_, .i32⟩
  | 46 => ⟨S64x256, .i32⟩
  | 47 => ⟨S64x256, .i32⟩
  | 48 => ⟨S64x256, .i32⟩
  | 49 => ⟨S64x256x1, .i32⟩
  | 50 => ⟨S64x12x256x256, .f32⟩
  | 51 => ⟨S12x64x256x256, .f32⟩
  | 52 => ⟨S256, .i32⟩
  | 53 => ⟨S1x256, .i32⟩
  | 54 => ⟨S256, .i32⟩
  | 55 => ⟨S256x1, .i32⟩
  | 56 => ⟨S256x256, .i32⟩
  | 57 => ⟨S256x256, .i32⟩
  | 58 => ⟨S256x256, .i32⟩
  | 59 => ⟨S_, .i32⟩
  | 60 => ⟨S_, .i32⟩
  | 61 => ⟨S_, .i32⟩
  | 62 => ⟨S256x256, .i32⟩
  | 63 => ⟨S256x256, .i32⟩
  | 64 => ⟨S_, .i32⟩
  | 65 => ⟨S256x256, .i32⟩
  | 66 => ⟨S256x256, .i32⟩
  | 67 => ⟨S_, .i32⟩
  | 68 => ⟨S256x256, .i32⟩
  | 69 => ⟨S256x256, .i32⟩
  | 70 => ⟨S_, .i32⟩
  | 71 => ⟨S256x256, .i32⟩
  | 72 => ⟨S256x256, .i1⟩
  | 73 => ⟨S_, .i32⟩
  | 74 => ⟨S256x256, .i32⟩
  | 75 => ⟨S256x256, .i32⟩
  | 76 => ⟨S256x256, .i32⟩
  | 77 => ⟨S256x256x1, .i32⟩
  | 78 => ⟨S256x256x600, .f32⟩
  | 79 => ⟨S1x64x256x768, .f32⟩
  | 80 => ⟨S64x256x768, .f32⟩
  | 81 => ⟨S1x768x600, .f32⟩
  | 82 => ⟨S768x600, .f32⟩
  | 83 => ⟨S64x256x600, .f32⟩
  | 84 => ⟨S1x600, .f32⟩
  | 85 => ⟨S600, .f32⟩
  | 86 => ⟨S1x1x600, .f32⟩
  | 87 => ⟨S64x256x600, .f32⟩
  | 88 => ⟨S64x256x600, .f32⟩
  | 89 => ⟨S_, .f32⟩
  | 90 => ⟨S64x256x600, .f32⟩
  | 91 => ⟨S64x256x600, .f32⟩
  | 92 => ⟨S_, .f32⟩
  | 93 => ⟨S64x256, .f32⟩
  | 94 => ⟨S64x256x1, .f32⟩
  | 95 => ⟨S_, .f32⟩
  | 96 => ⟨S64x256x1, .f32⟩
  | 97 => ⟨S64x256x1, .f32⟩
  | 98 => ⟨S64x256x600, .f32⟩
  | 99 => ⟨S64x256x600, .f32⟩
  | 100 => ⟨S64x256x600, .f32⟩
  | 101 => ⟨S_, .f32⟩
  | 102 => ⟨S64x256, .f32⟩
  | 103 => ⟨S64x256x1, .f32⟩
  | 104 => ⟨S_, .f32⟩
  | 105 => ⟨S64x256x1, .f32⟩
  | 106 => ⟨S64x256x1, .f32⟩
  | 107 => ⟨S64x256x600, .f32⟩
  | 108 => ⟨S64x256x600, .f32⟩
  | 109 => ⟨S_, .f32⟩
  | 110 => ⟨S64x256x1, .f32⟩
  | 111 => ⟨S64x256x1, .f32⟩
  | 112 => ⟨S64x256x1, .f32⟩
  | 113 => ⟨S64x256x600, .f32⟩
  | 114 => ⟨S64x256x600, .f32⟩
  | 115 => ⟨S1x1x600, .f32⟩
  | 116 => ⟨S64x256x600, .f32⟩
  | 117 => ⟨S64x256x600, .f32⟩
  | 118 => ⟨S1x1x600, .f32⟩
  | 119 => ⟨S64x256x600, .f32⟩
  | 120 => ⟨S64x256x600, .f32⟩
  | 121 => ⟨S1x64x256x256, .f32⟩
  | 122 => ⟨S64x256x256, .f32⟩
  | 123 => ⟨S_, .f32⟩
  | 124 => ⟨S64x256x256, .f32⟩
  | 125 => ⟨S64x256x256, .i1⟩
  | 126 => ⟨S_, .f32⟩
  | 127 => ⟨S64x256x256, .f32⟩
  | _ => ⟨S13x64x256x768, .f32⟩

abbrev hbmTy0_1 (i : Nat) : BufTy := match i % 128 with
  | 0 => ⟨S64x256x256, .i1⟩
  | 1 => ⟨S64x256x256, .i1⟩
  | 2 => ⟨S_, .f32⟩
  | 3 => ⟨S64x256x256, .f32⟩
  | 4 => ⟨S64x256x256, .i1⟩
  | 5 => ⟨S64x256x256, .i1⟩
  | 6 => ⟨S64x256x256, .i1⟩
  | 7 => ⟨S64x256x256, .f32⟩
  | 8 => ⟨S1x600x600, .f32⟩
  | 9 => ⟨S600x600, .f32⟩
  | 10 => ⟨S64x256x600, .f32⟩
  | 11 => ⟨S_, .f32⟩
  | 12 => ⟨S64x256, .f32⟩
  | 13 => ⟨S64x256x1, .f32⟩
  | 14 => ⟨S_, .f32⟩
  | 15 => ⟨S64x256x1, .f32⟩
  | 16 => ⟨S64x256x1, .f32⟩
  | 17 => ⟨S64x256x600, .f32⟩
  | 18 => ⟨S256x600x64, .f32⟩
  | 19 => ⟨S64x256x600, .f32⟩
  | 20 => ⟨S64x256x600, .f32⟩
  | 21 => ⟨S64x256x600, .f32⟩
  | 22 => ⟨S64x256x600, .f32⟩
  | 23 => ⟨S1x600, .f32⟩
  | 24 => ⟨S600, .f32⟩
  | 25 => ⟨S1x1x600, .f32⟩
  | 26 => ⟨S64x256x600, .f32⟩
  | 27 => ⟨S64x256x600, .f32⟩
  | 28 => ⟨S_, .f32⟩
  | 29 => ⟨S64x256x600, .f32⟩
  | 30 => ⟨S64x256x600, .f32⟩
  | 31 => ⟨S1x64x256x768, .f32⟩
  | 32 => ⟨S64x256x768, .f32⟩
  | 33 => ⟨S1x768x600, .f32⟩
  | 34 => ⟨S768x600, .f32⟩
  | 35 => ⟨S64x256x600, .f32⟩
  | 36 => ⟨S1x600, .f32⟩
  | 37 => ⟨S600, .f32⟩
  | 38 => ⟨S1x1x600, .f32⟩
  | 39 => ⟨S64x256x600, .f32⟩
  | 40 => ⟨S64x256x600, .f32⟩
  | 41 => ⟨S_, .f32⟩
  | 42 => ⟨S64x256x600, .f32⟩
  | 43 => ⟨S64x256x600, .f32⟩
  | 44 => ⟨S_, .f32⟩
  | 45 => ⟨S64x256, .f32⟩
  | 46 => ⟨S64x256x1, .f32⟩
  | 47 => ⟨S_, .f32⟩
  | 48 => ⟨S64x256x1, .f32⟩
  | 49 => ⟨S64x256x1, .f32⟩
  | 50 => ⟨S64x256x600, .f32⟩
  | 51 => ⟨S64x256x600, .f32⟩
  | 52 => ⟨S64x256x600, .f32⟩
  | 53 => ⟨S_, .f32⟩
  | 54 => ⟨S64x256, .f32⟩
  | 55 => ⟨S64x256x1, .f32⟩
  | 56 => ⟨S_, .f32⟩
  | 57 => ⟨S64x256x1, .f32⟩
  | 58 => ⟨S64x256x1, .f32⟩
  | 59 => ⟨S64x256x600, .f32⟩
  | 60 => ⟨S64x256x600, .f32⟩
  | 61 => ⟨S_, .f32⟩
  | 62 => ⟨S64x256x1, .f32⟩
  | 63 => ⟨S64x256x1, .f32⟩
  | 64 => ⟨S64x256x1, .f32⟩
  | 65 => ⟨S64x256x600, .f32⟩
  | 66 => ⟨S64x256x600, .f32⟩
  | 67 => ⟨S1x1x600, .f32⟩
  | 68 => ⟨S64x256x600, .f32⟩
  | 69 => ⟨S64x256x600, .f32⟩
  | 70 => ⟨S1x1x600, .f32⟩
  | 71 => ⟨S64x256x600, .f32⟩
  | 72 => ⟨S64x256x600, .f32⟩
  | 73 => ⟨S1x64x256x256, .f32⟩
  | 74 => ⟨S64x256x256, .f32⟩
  | 75 => ⟨S_, .f32⟩
  | 76 => ⟨S64x256x256, .f32⟩
  | 77 => ⟨S64x256x256, .i1⟩
  | 78 => ⟨S_, .f32⟩
  | 79 => ⟨S64x256x256, .f32⟩
  | 80 => ⟨S64x256x256, .i1⟩
  | 81 => ⟨S64x256x256, .i1⟩
  | 82 => ⟨S_, .f32⟩
  | 83 => ⟨S64x256x256, .f32⟩
  | 84 => ⟨S64x256x256, .i1⟩
  | 85 => ⟨S64x256x256, .i1⟩
  | 86 => ⟨S64x256x256, .i1⟩
  | 87 => ⟨S64x256x256, .f32⟩
  | 88 => ⟨S1x600x600, .f32⟩
  | 89 => ⟨S600x600, .f32⟩
  | 90 => ⟨S64x256x600, .f32⟩
  | 91 => ⟨S_, .f32⟩
  | 92 => ⟨S64x256, .f32⟩
  | 93 => ⟨S64x256x1, .f32⟩
  | 94 => ⟨S_, .f32⟩
  | 95 => ⟨S64x256x1, .f32⟩
  | 96 => ⟨S64x256x1, .f32⟩
  | 97 => ⟨S64x256x600, .f32⟩
  | 98 => ⟨S256x600x64, .f32⟩
  | 99 => ⟨S64x256x600, .f32⟩
  | 100 => ⟨S64x256x600, .f32⟩
  | 101 => ⟨S64x256x600, .f32⟩
  | 102 => ⟨S64x256x600, .f32⟩
  | 103 => ⟨S1x600, .f32⟩
  | 104 => ⟨S600, .f32⟩
  | 105 => ⟨S1x1x600, .f32⟩
  | 106 => ⟨S64x256x600, .f32⟩
  | 107 => ⟨S64x256x600, .f32⟩
  | 108 => ⟨S_, .f32⟩
  | 109 => ⟨S64x256x600, .f32⟩
  | 110 => ⟨S64x256x600, .f32⟩
  | 111 => ⟨S1x64x256x768, .f32⟩
  | 112 => ⟨S64x256x768, .f32⟩
  | 113 => ⟨S1x768x600, .f32⟩
  | 114 => ⟨S768x600, .f32⟩
  | 115 => ⟨S64x256x600, .f32⟩
  | 116 => ⟨S1x600, .f32⟩
  | 117 => ⟨S600, .f32⟩
  | 118 => ⟨S1x1x600, .f32⟩
  | 119 => ⟨S64x256x600, .f32⟩
  | 120 => ⟨S64x256x600, .f32⟩
  | 121 => ⟨S_, .f32⟩
  | 122 => ⟨S64x256x600, .f32⟩
  | 123 => ⟨S64x256x600, .f32⟩
  | 124 => ⟨S_, .f32⟩
  | 125 => ⟨S64x256, .f32⟩
  | 126 => ⟨S64x256x1, .f32⟩
  | 127 => ⟨S_, .f32⟩
  | _ => ⟨S13x64x256x768, .f32⟩

abbrev hbmTy0_2 (i : Nat) : BufTy := match i % 128 with
  | 0 => ⟨S64x256x1, .f32⟩
  | 1 => ⟨S64x256x1, .f32⟩
  | 2 => ⟨S64x256x600, .f32⟩
  | 3 => ⟨S64x256x600, .f32⟩
  | 4 => ⟨S64x256x600, .f32⟩
  | 5 => ⟨S_, .f32⟩
  | 6 => ⟨S64x256, .f32⟩
  | 7 => ⟨S64x256x1, .f32⟩
  | 8 => ⟨S_, .f32⟩
  | 9 => ⟨S64x256x1, .f32⟩
  | 10 => ⟨S64x256x1, .f32⟩
  | 11 => ⟨S64x256x600, .f32⟩
  | 12 => ⟨S64x256x600, .f32⟩
  | 13 => ⟨S_, .f32⟩
  | 14 => ⟨S64x256x1, .f32⟩
  | 15 => ⟨S64x256x1, .f32⟩
  | 16 => ⟨S64x256x1, .f32⟩
  | 17 => ⟨S64x256x600, .f32⟩
  | 18 => ⟨S64x256x600, .f32⟩
  | 19 => ⟨S1x1x600, .f32⟩
  | 20 => ⟨S64x256x600, .f32⟩
  | 21 => ⟨S64x256x600, .f32⟩
  | 22 => ⟨S1x1x600, .f32⟩
  | 23 => ⟨S64x256x600, .f32⟩
  | 24 => ⟨S64x256x600, .f32⟩
  | 25 => ⟨S1x64x256x256, .f32⟩
  | 26 => ⟨S64x256x256, .f32⟩
  | 27 => ⟨S_, .f32⟩
  | 28 => ⟨S64x256x256, .f32⟩
  | 29 => ⟨S64x256x256, .i1⟩
  | 30 => ⟨S_, .f32⟩
  | 31 => ⟨S64x256x256, .f32⟩
  | 32 => ⟨S64x256x256, .i1⟩
  | 33 => ⟨S64x256x256, .i1⟩
  | 34 => ⟨S_, .f32⟩
  | 35 => ⟨S64x256x256, .f32⟩
  | 36 => ⟨S64x256x256, .i1⟩
  | 37 => ⟨S64x256x256, .i1⟩
  | 38 => ⟨S64x256x256, .i1⟩
  | 39 => ⟨S64x256x256, .f32⟩
  | 40 => ⟨S1x600x600, .f32⟩
  | 41 => ⟨S600x600, .f32⟩
  | 42 => ⟨S64x256x600, .f32⟩
  | 43 => ⟨S_, .f32⟩
  | 44 => ⟨S64x256, .f32⟩
  | 45 => ⟨S64x256x1, .f32⟩
  | 46 => ⟨S_, .f32⟩
  | 47 => ⟨S64x256x1, .f32⟩
  | 48 => ⟨S64x256x1, .f32⟩
  | 49 => ⟨S64x256x600, .f32⟩
  | 50 => ⟨S256x600x64, .f32⟩
  | 51 => ⟨S64x256x600, .f32⟩
  | 52 => ⟨S64x256x600, .f32⟩
  | 53 => ⟨S64x256x600, .f32⟩
  | 54 => ⟨S64x256x600, .f32⟩
  | 55 => ⟨S1x600, .f32⟩
  | 56 => ⟨S600, .f32⟩
  | 57 => ⟨S1x1x600, .f32⟩
  | 58 => ⟨S64x256x600, .f32⟩
  | 59 => ⟨S64x256x600, .f32⟩
  | 60 => ⟨S_, .f32⟩
  | 61 => ⟨S64x256x600, .f32⟩
  | 62 => ⟨S64x256x600, .f32⟩
  | 63 => ⟨S1x64x256x768, .f32⟩
  | 64 => ⟨S64x256x768, .f32⟩
  | 65 => ⟨S1x768x600, .f32⟩
  | 66 => ⟨S768x600, .f32⟩
  | 67 => ⟨S64x256x600, .f32⟩
  | 68 => ⟨S1x600, .f32⟩
  | 69 => ⟨S600, .f32⟩
  | 70 => ⟨S1x1x600, .f32⟩
  | 71 => ⟨S64x256x600, .f32⟩
  | 72 => ⟨S64x256x600, .f32⟩
  | 73 => ⟨S_, .f32⟩
  | 74 => ⟨S64x256x600, .f32⟩
  | 75 => ⟨S64x256x600, .f32⟩
  | 76 => ⟨S_, .f32⟩
  | 77 => ⟨S64x256, .f32⟩
  | 78 => ⟨S64x256x1, .f32⟩
  | 79 => ⟨S_, .f32⟩
  | 80 => ⟨S64x256x1, .f32⟩
  | 81 => ⟨S64x256x1, .f32⟩
  | 82 => ⟨S64x256x600, .f32⟩
  | 83 => ⟨S64x256x600, .f32⟩
  | 84 => ⟨S64x256x600, .f32⟩
  | 85 => ⟨S_, .f32⟩
  | 86 => ⟨S64x256, .f32⟩
  | 87 => ⟨S64x256x1, .f32⟩
  | 88 => ⟨S_, .f32⟩
  | 89 => ⟨S64x256x1, .f32⟩
  | 90 => ⟨S64x256x1, .f32⟩
  | 91 => ⟨S64x256x600, .f32⟩
  | 92 => ⟨S64x256x600, .f32⟩
  | 93 => ⟨S_, .f32⟩
  | 94 => ⟨S64x256x1, .f32⟩
  | 95 => ⟨S64x256x1, .f32⟩
  | 96 => ⟨S64x256x1, .f32⟩
  | 97 => ⟨S64x256x600, .f32⟩
  | 98 => ⟨S64x256x600, .f32⟩
  | 99 => ⟨S1x1x600, .f32⟩
  | 100 => ⟨S64x256x600, .f32⟩
  | 101 => ⟨S64x256x600, .f32⟩
  | 102 => ⟨S1x1x600, .f32⟩
  | 103 => ⟨S64x256x600, .f32⟩
  | 104 => ⟨S64x256x600, .f32⟩
  | 105 => ⟨S64x256x1, .f32⟩
  | 106 => ⟨S64x256x600, .f32⟩
  | 107 => ⟨S64x256x600, .f32⟩
  | 108 => ⟨S_, .f32⟩
  | 109 => ⟨S64x600, .f32⟩
  | 110 => ⟨S_, .f32⟩
  | 111 => ⟨S64, .f32⟩
  | 112 => ⟨S64x1, .f32⟩
  | 113 => ⟨S64x600, .f32⟩
  | 114 => ⟨S64x600, .f32⟩
  | 115 => ⟨S64x3, .f32⟩
  | 116 => ⟨S1x3, .f32⟩
  | 117 => ⟨S64x3, .f32⟩
  | 118 => ⟨S64x3, .f32⟩
  | _ => ⟨S13x64x256x768, .f32⟩

abbrev hbmTy (i : Nat) : BufTy := match i / 128 with
  | 0 => hbmTy0_0 i
  | 1 => hbmTy0_1 i
  | 2 => hbmTy0_2 i
  | _ => ⟨S13x64x256x768, .f32⟩

abbrev bufTy : (tb : Table) → Fin (tcTables nBuf tb) → BufTy
  | .hbm, ⟨i, _⟩ => hbmTy i
  | _, _ => ⟨S13x64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_c_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_c_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_cst : Ref sig .tc := ⟨.hbm, 89, rfl⟩
abbrev main_call1_v0 : Ref sig .tc := ⟨.hbm, 90, rfl⟩
abbrev main_v58 : Ref sig .tc := ⟨.hbm, 91, rfl⟩
abbrev main_cst : Ref sig .tc := ⟨.hbm, 92, rfl⟩
abbrev main_v59 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_14 : Ref sig .tc := ⟨.hbm, 123, rfl⟩
abbrev main_v85 : Ref sig .tc := ⟨.hbm, 124, rfl⟩
abbrev main_v86 : Ref sig .tc := ⟨.hbm, 125, rfl⟩
abbrev main_cst_15 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_16 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_17 : Ref sig .tc := ⟨.hbm, 139, rfl⟩
abbrev main_v98 : Ref sig .tc := ⟨.hbm, 140, rfl⟩
abbrev main_v99 : Ref sig .tc := ⟨.hbm, 141, rfl⟩
abbrev main_cst_18 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call2_cst : Ref sig .tc := ⟨.hbm, 156, rfl⟩
abbrev main_call2_v0 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_call3_cst : Ref sig .tc := ⟨.hbm, 169, rfl⟩
abbrev main_call3_v0 : Ref sig .tc := ⟨.hbm, 170, rfl⟩
abbrev main_v124 : Ref sig .tc := ⟨.hbm, 171, rfl⟩
abbrev main_cst_19 : Ref sig .tc := ⟨.hbm, 172, rfl⟩
abbrev main_v125 : Ref sig .tc := ⟨.hbm, 173, rfl⟩
abbrev main_v126 : Ref sig .tc := ⟨.hbm, 174, rfl⟩
abbrev main_cst_20 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_21 : Ref sig .tc := ⟨.hbm, 181, rfl⟩
abbrev main_v132 : Ref sig .tc := ⟨.hbm, 182, rfl⟩
abbrev main_v133 : Ref sig .tc := ⟨.hbm, 183, rfl⟩
abbrev main_cst_22 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_23 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_24 : Ref sig .tc := ⟨.hbm, 203, rfl⟩
abbrev main_v151 : Ref sig .tc := ⟨.hbm, 204, rfl⟩
abbrev main_v152 : Ref sig .tc := ⟨.hbm, 205, rfl⟩
abbrev main_cst_25 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_26 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_27 : Ref sig .tc := ⟨.hbm, 219, rfl⟩
abbrev main_v164 : Ref sig .tc := ⟨.hbm, 220, rfl⟩
abbrev main_v165 : Ref sig .tc := ⟨.hbm, 221, rfl⟩
abbrev main_cst_28 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_call4_cst : Ref sig .tc := ⟨.hbm, 236, rfl⟩
abbrev main_call4_v0 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_call5_cst : Ref sig .tc := ⟨.hbm, 249, rfl⟩
abbrev main_call5_v0 : Ref sig .tc := ⟨.hbm, 250, rfl⟩
abbrev main_v190 : Ref sig .tc := ⟨.hbm, 251, rfl⟩
abbrev main_cst_29 : Ref sig .tc := ⟨.hbm, 252, rfl⟩
abbrev main_v191 : Ref sig .tc := ⟨.hbm, 253, rfl⟩
abbrev main_v192 : Ref sig .tc := ⟨.hbm, 254, rfl⟩
abbrev main_cst_30 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_cst_31 : Ref sig .tc := ⟨.hbm, 261, rfl⟩
abbrev main_v198 : Ref sig .tc := ⟨.hbm, 262, rfl⟩
abbrev main_v199 : Ref sig .tc := ⟨.hbm, 263, rfl⟩
abbrev main_cst_32 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_cst_33 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_34 : Ref sig .tc := ⟨.hbm, 283, rfl⟩
abbrev main_v217 : Ref sig .tc := ⟨.hbm, 284, rfl⟩
abbrev main_v218 : Ref sig .tc := ⟨.hbm, 285, rfl⟩
abbrev main_cst_35 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_cst_36 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_cst_37 : Ref sig .tc := ⟨.hbm, 299, rfl⟩
abbrev main_v230 : Ref sig .tc := ⟨.hbm, 300, rfl⟩
abbrev main_v231 : Ref sig .tc := ⟨.hbm, 301, rfl⟩
abbrev main_cst_38 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_call6_cst : Ref sig .tc := ⟨.hbm, 316, rfl⟩
abbrev main_call6_v0 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_call7_cst : Ref sig .tc := ⟨.hbm, 329, rfl⟩
abbrev main_call7_v0 : Ref sig .tc := ⟨.hbm, 330, rfl⟩
abbrev main_v256 : Ref sig .tc := ⟨.hbm, 331, rfl⟩
abbrev main_cst_39 : Ref sig .tc := ⟨.hbm, 332, rfl⟩
abbrev main_v257 : Ref sig .tc := ⟨.hbm, 333, rfl⟩
abbrev main_v258 : Ref sig .tc := ⟨.hbm, 334, rfl⟩
abbrev main_cst_40 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_cst_41 : Ref sig .tc := ⟨.hbm, 341, rfl⟩
abbrev main_v264 : Ref sig .tc := ⟨.hbm, 342, rfl⟩
abbrev main_v265 : Ref sig .tc := ⟨.hbm, 343, rfl⟩
abbrev main_cst_42 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_cst_43 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_cst_44 : Ref sig .tc := ⟨.hbm, 364, rfl⟩
abbrev main_v284 : Ref sig .tc := ⟨.hbm, 365, rfl⟩
abbrev main_cst_45 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  transposes_S13x64x256x768_S64x13x256x768_1_0_2_3 : S13x64x256x768.Transposes [1, 0, 2, 3] S64x13x256x768
  transposes_S64x13x256x768_S13x64x256x768_1_0_2_3 : S64x13x256x768.Transposes [1, 0, 2, 3] S13x64x256x768
  bcast_S64x256_S64x1x256x1_0_2 : S64x256.BroadcastsInDim S64x1x256x1 (![0, 2] : Fin 2 → Fin S64x1x256x1.rank)
  transposes_S12x64x256x256_S64x12x256x256_1_0_2_3 : S12x64x256x256.Transposes [1, 0, 2, 3] S64x12x256x256
  bcast_S64x1x256x1_S64x12x256x256_0_1_2_3 : S64x1x256x1.BroadcastsInDim S64x12x256x256 (![0, 1, 2, 3] : Fin 4 → Fin S64x12x256x256.rank)
  bcast_S64x256_S64x1x1x256_0_3 : S64x256.BroadcastsInDim S64x1x1x256 (![0, 3] : Fin 2 → Fin S64x1x1x256.rank)
  bcast_S64x1x1x256_S64x12x256x256_0_1_2_3 : S64x1x1x256.BroadcastsInDim S64x12x256x256 (![0, 1, 2, 3] : Fin 4 → Fin S64x12x256x256.rank)
  transposes_S64x12x256x256_S12x64x256x256_1_0_2_3 : S64x12x256x256.Transposes [1, 0, 2, 3] S12x64x256x256
  bcast_S256_S1x256_1 : S256.BroadcastsInDim S1x256 (![1] : Fin 1 → Fin S1x256.rank)
  bcast_S256_S256x1_0 : S256.BroadcastsInDim S256x1 (![0] : Fin 1 → Fin S256x1.rank)
  bcast_S1x256_S256x256_0_1 : S1x256.BroadcastsInDim S256x256 (![0, 1] : Fin 2 → Fin S256x256.rank)
  bcast_S256x1_S256x256_0_1 : S256x1.BroadcastsInDim S256x256 (![0, 1] : Fin 2 → Fin S256x256.rank)
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  slices_S13x64x256x768_S1x64x256x768_1_0_0_0 : S13x64x256x768.Slices ![1, 0, 0, 0] S1x64x256x768
  shapeCasts_S1x64x256x768_S64x256x768 : S1x64x256x768.ShapeCasts S64x256x768
  slices_S4x768x600_S1x768x600_0_0_0 : S4x768x600.Slices ![0, 0, 0] S1x768x600
  shapeCasts_S1x768x600_S768x600 : S1x768x600.ShapeCasts S768x600
  slices_S4x600_S1x600_0_0 : S4x600.Slices ![0, 0] S1x600
  shapeCasts_S1x600_S600 : S1x600.ShapeCasts S600
  bcast_S600_S1x1x600_2 : S600.BroadcastsInDim S1x1x600 (![2] : Fin 1 → Fin S1x1x600.rank)
  bcast_S1x1x600_S64x256x600_0_1_2 : S1x1x600.BroadcastsInDim S64x256x600 (![0, 1, 2] : Fin 3 → Fin S64x256x600.rank)
  bcast_S_S64x256x600 : S_.BroadcastsInDim S64x256x600 (![] : Fin 0 → Fin S64x256x600.rank)
  reducesTo_S64x256x600_S64x256_d2 : S64x256x600.ReducesTo [2] S64x256
  h_S_ : 0 < S_.numel
  bcast_S_S64x256x1 : S_.BroadcastsInDim S64x256x1 (![] : Fin 0 → Fin S64x256x1.rank)
  bcast_S64x256x1_S64x256x600_0_1_2 : S64x256x1.BroadcastsInDim S64x256x600 (![0, 1, 2] : Fin 3 → Fin S64x256x600.rank)
  slices_S12x64x256x256_S1x64x256x256_0_0_0_0 : S12x64x256x256.Slices ![0, 0, 0, 0] S1x64x256x256
  shapeCasts_S1x64x256x256_S64x256x256 : S1x64x256x256.ShapeCasts S64x256x256
  bcast_S_S64x256x256 : S_.BroadcastsInDim S64x256x256 (![] : Fin 0 → Fin S64x256x256.rank)
  slices_S4x600x600_S1x600x600_0_0_0 : S4x600x600.Slices ![0, 0, 0] S1x600x600
  shapeCasts_S1x600x600_S600x600 : S1x600x600.ShapeCasts S600x600
  reducesTo_S64x256x256_S64x256_d2 : S64x256x256.ReducesTo [2] S64x256
  transposes_S256x600x64_S64x256x600_2_0_1 : S256x600x64.Transposes [2, 0, 1] S64x256x600
  slices_S13x64x256x768_S1x64x256x768_5_0_0_0 : S13x64x256x768.Slices ![5, 0, 0, 0] S1x64x256x768
  slices_S4x768x600_S1x768x600_1_0_0 : S4x768x600.Slices ![1, 0, 0] S1x768x600
  slices_S4x600_S1x600_1_0 : S4x600.Slices ![1, 0] S1x600
  slices_S12x64x256x256_S1x64x256x256_4_0_0_0 : S12x64x256x256.Slices ![4, 0, 0, 0] S1x64x256x256
  slices_S4x600x600_S1x600x600_1_0_0 : S4x600x600.Slices ![1, 0, 0] S1x600x600
  slices_S13x64x256x768_S1x64x256x768_9_0_0_0 : S13x64x256x768.Slices ![9, 0, 0, 0] S1x64x256x768
  slices_S4x768x600_S1x768x600_2_0_0 : S4x768x600.Slices ![2, 0, 0] S1x768x600
  slices_S4x600_S1x600_2_0 : S4x600.Slices ![2, 0] S1x600
  slices_S12x64x256x256_S1x64x256x256_8_0_0_0 : S12x64x256x256.Slices ![8, 0, 0, 0] S1x64x256x256
  slices_S4x600x600_S1x600x600_2_0_0 : S4x600x600.Slices ![2, 0, 0] S1x600x600
  slices_S13x64x256x768_S1x64x256x768_12_0_0_0 : S13x64x256x768.Slices ![12, 0, 0, 0] S1x64x256x768
  slices_S4x768x600_S1x768x600_3_0_0 : S4x768x600.Slices ![3, 0, 0] S1x768x600
  slices_S4x600_S1x600_3_0 : S4x600.Slices ![3, 0] S1x600
  reducesTo_S64x256x600_S64x600_d1 : S64x256x600.ReducesTo [1] S64x600
  reducesTo_S64x256_S64_d1 : S64x256.ReducesTo [1] S64
  bcast_S64_S64x1_0 : S64.BroadcastsInDim S64x1 (![0] : Fin 1 → Fin S64x1.rank)
  bcast_S64x1_S64x600_0_1 : S64x1.BroadcastsInDim S64x600 (![0, 1] : Fin 2 → Fin S64x600.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  gather_S64x13x256x768_S64x256x1_S64x13x256x768_13_2_0_0_2_2_1131768_wf : GatherDims.WF S64x13x256x768 S64x256x1 S64x13x256x768 [1, 3] [2] [0] [2] [0] 2 ![1, 13, 1, 768]
  gather_S64x12x256x256_S64x256x1_S64x12x256x256_13_2_0_0_2_2_1121256_wf : GatherDims.WF S64x12x256x256 S64x256x1 S64x12x256x256 [1, 3] [2] [0] [2] [0] 2 ![1, 12, 1, 256]
  gather_S64x12x256x256_S64x256x1_S64x12x256x256_12_3_0_0_3_2_1122561_wf : GatherDims.WF S64x12x256x256 S64x256x1 S64x12x256x256 [1, 2] [3] [0] [3] [0] 2 ![1, 12, 256, 1]
  gather_S7x600_S256x256x1_S256x256x600_2_0_n_n_0_2_1600_wf : GatherDims.WF S7x600 S256x256x1 S256x256x600 [2] [0] [] [0] [] 2 ![1, 600]
  dot_S64x256x768_S768x600_S64x256x600_2_0_01_1_n_n_wf : DotDims.WF S64x256x768 S768x600 S64x256x600 [2] [0] [0, 1] [1] [] []
  dot_S64x256x600_S600x600_S64x256x600_2_0_01_1_n_n_wf : DotDims.WF S64x256x600 S600x600 S64x256x600 [2] [0] [0, 1] [1] [] []
  dot_S64x256x256_S64x256x600_S64x256x600_2_1_1_2_0_0_wf : DotDims.WF S64x256x256 S64x256x600 S64x256x600 [2] [1] [1] [2] [0] [0]
  dot_S256x256x600_S64x256x256_S256x600x64_1_2_2_0_0_1_wf : DotDims.WF S256x256x600 S64x256x256 S256x600x64 [1] [2] [2] [0] [0] [1]
  dot_S64x600_S600x3_S64x3_1_0_0_1_n_n_wf : DotDims.WF S64x600 S600x3 S64x3 [1] [0] [0] [1] [] []

variable [Facts₀]

def gather_S64x13x256x768_S64x256x1_S64x13x256x768_13_2_0_0_2_2_1131768 : GatherDims S64x13x256x768 S64x256x1 S64x13x256x768 where
  offsetDims := [1, 3]
  collapsedSliceDims := [2]
  operandBatchingDims := [0]
  startIndicesBatchingDims := [0]
  startIndexMap := [2]
  indexVectorDim := 2
  sliceSizes := ![1, 13, 1, 768]
  wf := gather_S64x13x256x768_S64x256x1_S64x13x256x768_13_2_0_0_2_2_1131768_wf
def gather_S64x12x256x256_S64x256x1_S64x12x256x256_13_2_0_0_2_2_1121256 : GatherDims S64x12x256x256 S64x256x1 S64x12x256x256 where
  offsetDims := [1, 3]
  collapsedSliceDims := [2]
  operandBatchingDims := [0]
  startIndicesBatchingDims := [0]
  startIndexMap := [2]
  indexVectorDim := 2
  sliceSizes := ![1, 12, 1, 256]
  wf := gather_S64x12x256x256_S64x256x1_S64x12x256x256_13_2_0_0_2_2_1121256_wf
def gather_S64x12x256x256_S64x256x1_S64x12x256x256_12_3_0_0_3_2_1122561 : GatherDims S64x12x256x256 S64x256x1 S64x12x256x256 where
  offsetDims := [1, 2]
  collapsedSliceDims := [3]
  operandBatchingDims := [0]
  startIndicesBatchingDims := [0]
  startIndexMap := [3]
  indexVectorDim := 2
  sliceSizes := ![1, 12, 256, 1]
  wf := gather_S64x12x256x256_S64x256x1_S64x12x256x256_12_3_0_0_3_2_1122561_wf
def gather_S7x600_S256x256x1_S256x256x600_2_0_n_n_0_2_1600 : GatherDims S7x600 S256x256x1 S256x256x600 where
  offsetDims := [2]
  collapsedSliceDims := [0]
  operandBatchingDims := []
  startIndicesBatchingDims := []
  startIndexMap := [0]
  indexVectorDim := 2
  sliceSizes := ![1, 600]
  wf := gather_S7x600_S256x256x1_S256x256x600_2_0_n_n_0_2_1600_wf
def dot_S64x256x768_S768x600_S64x256x600_2_0_01_1_n_n : DotDims S64x256x768 S768x600 S64x256x600 where
  lhsContracting := [2]
  rhsContracting := [0]
  lhsNonContracting := [0, 1]
  rhsNonContracting := [1]
  lhsBatch := []
  rhsBatch := []
  wf := dot_S64x256x768_S768x600_S64x256x600_2_0_01_1_n_n_wf
def dot_S64x256x600_S600x600_S64x256x600_2_0_01_1_n_n : DotDims S64x256x600 S600x600 S64x256x600 where
  lhsContracting := [2]
  rhsContracting := [0]
  lhsNonContracting := [0, 1]
  rhsNonContracting := [1]
  lhsBatch := []
  rhsBatch := []
  wf := dot_S64x256x600_S600x600_S64x256x600_2_0_01_1_n_n_wf
def dot_S64x256x256_S64x256x600_S64x256x600_2_1_1_2_0_0 : DotDims S64x256x256 S64x256x600 S64x256x600 where
  lhsContracting := [2]
  rhsContracting := [1]
  lhsNonContracting := [1]
  rhsNonContracting := [2]
  lhsBatch := [0]
  rhsBatch := [0]
  wf := dot_S64x256x256_S64x256x600_S64x256x600_2_1_1_2_0_0_wf
def dot_S256x256x600_S64x256x256_S256x600x64_1_2_2_0_0_1 : DotDims S256x256x600 S64x256x256 S256x600x64 where
  lhsContracting := [1]
  rhsContracting := [2]
  lhsNonContracting := [2]
  rhsNonContracting := [0]
  lhsBatch := [0]
  rhsBatch := [1]
  wf := dot_S256x256x600_S64x256x256_S256x600x64_1_2_2_0_0_1_wf
def dot_S64x600_S600x3_S64x3_1_0_0_1_n_n : DotDims S64x600 S600x3 S64x3 where
  lhsContracting := [1]
  rhsContracting := [0]
  lhsNonContracting := [0]
  rhsNonContracting := [1]
  lhsBatch := []
  rhsBatch := []
  wf := dot_S64x600_S600x3_S64x3_1_0_0_1_n_n_wf

class Facts : Prop extends Facts₀ where

variable [Facts]
-- ==== Proof.Spec.lean ====
/-
  What the program computes, written once over plain index types and extended reals.

  A token row `x` (768 numbers) goes through a linear layer, a rectifier and a layer normalisation over its
  600 outputs (`featRow`); the 256 feature rows of one batch entry are averaged with the weights `mask`
  (`pooled`: the weighted sum divided by the sum of the weights); a second linear layer gives the three
  logits (`logit`). The rows are the rows of layer 12 of the hidden states taken at the token positions
  `tok`. Float literals stay as the words the two programs print; they are never evaluated.
-/
import Idealize.ShloMosaic.PureOps.Ideal
import Idealize.ShloMosaic.Lib.ValueIdx

noncomputable section

namespace Cert.Spec

open Idealize.ShloMosaic Idealize.ShloMosaic.ValueIdx

/-- The rectifier's zero, the row length 600 and the normalisation's epsilon, as printed. -/
abbrev zeroW : EReal := Ideal.ofBits .f32 0x00000000#32
abbrev lenW : EReal := Ideal.ofBits .f32 0x44160000#32
abbrev epsW : EReal := Ideal.ofBits .f32 0x3727C5AC#32

/-- Linear layer, bias, rectifier: output `h` of a row. -/
def act (x : Fin 768 → EReal) (W : Fin 768 → Fin 600 → EReal) (b : Fin 600 → EReal) (h : Fin 600) : EReal :=
  max ((∑ d : Fin 768, x d * W d h) + b h) zeroW

/-- The mean of a row of 600. -/
def mean (y : Fin 600 → EReal) : EReal := Ideal.div (∑ h : Fin 600, y h) lenW

/-- The mean squared deviation of a row of 600. -/
def var (y : Fin 600 → EReal) : EReal := Ideal.div (∑ h : Fin 600, (y h - mean y) * (y h - mean y)) lenW

/-- Layer normalisation of a row with gain `g` and offset `lb`. -/
def norm (y g lb : Fin 600 → EReal) (h : Fin 600) : EReal :=
  (y h - mean y) * Ideal.rsqrt (var y + epsW) * g h + lb h

/-- One token row's 600 features. -/
def featRow (x : Fin 768 → EReal) (W : Fin 768 → Fin 600 → EReal) (b g lb : Fin 600 → EReal) (h : Fin 600) : EReal :=
  norm (act x W b) g lb h

/-- The weighted average of 256 feature rows. -/
def pooled (feat : Fin 256 → Fin 600 → EReal) (mask : Fin 256 → EReal) (h : Fin 600) : EReal :=
  Ideal.div (∑ l : Fin 256, feat l h * mask l) (∑ l : Fin 256, mask l)

/-- The classifier. -/
def logit (p : Fin 600 → EReal) (cW : Fin 600 → Fin 3 → EReal) (cb : Fin 3 → EReal) (k : Fin 3) : EReal :=
  (∑ h : Fin 600, p h * cW h k) + cb k

/-- A token position read off its 32-bit word (the word itself when it is below 256). -/
def tok (ts : (⟨2, ![64, 256]⟩ : Shape).Idx → BitVec 32) (b : Fin 64) (l : Fin 256) : Fin 256 :=
  ⟨(ts (ix2 b l)).toNat % 256, Nat.mod_lt _ (by decide)⟩

/-- Every token position indexes the 256 tokens. -/
def InRange (ts : (⟨2, ![64, 256]⟩ : Shape).Idx → BitVec 32) : Prop := ∀ i, (ts i).toNat < 256

/-- The features of token `l` of batch entry `b`: layer 12's row at the token's position, through slot 3 of the
    linear layer's parameters. -/
def feat (hs : (⟨4, ![13, 64, 256, 768]⟩ : Shape).Idx → EReal) (ts : (⟨2, ![64, 256]⟩ : Shape).Idx → BitVec 32)
    (W : (⟨3, ![4, 768, 600]⟩ : Shape).Idx → EReal) (bias : (⟨2, ![4, 600]⟩ : Shape).Idx → EReal)
    (g lb : (⟨1, ![600]⟩ : Shape).Idx → EReal) (b : Fin 64) (l : Fin 256) (h : Fin 600) : EReal :=
  featRow (fun d => hs (ix4 12 b (tok ts b l) d)) (fun d h => W (ix3 3 d h)) (fun h => bias (ix2 3 h))
    (fun h => g (ix1 h)) (fun h => lb (ix1 h)) h

/-- The whole result: entry `(b, k)`. -/
def logits (hs : (⟨4, ![13, 64, 256, 768]⟩ : Shape).Idx → EReal) (ts : (⟨2, ![64, 256]⟩ : Shape).Idx → BitVec 32)
    (mask : (⟨2, ![64, 256]⟩ : Shape).Idx → EReal)
    (W : (⟨3, ![4, 768, 600]⟩ : Shape).Idx → EReal) (bias : (⟨2, ![4, 600]⟩ : Shape).Idx → EReal)
    (g lb : (⟨1, ![600]⟩ : Shape).Idx → EReal) (cW : (⟨2, ![600, 3]⟩ : Shape).Idx → EReal)
    (cb : (⟨1, ![3]⟩ : Shape).Idx → EReal) : (⟨2, ![64, 3]⟩ : Shape).Idx → EReal :=
  fun i => logit (pooled (fun l h => feat hs ts W bias g lb (i 0) l h) (fun l => mask (ix2 (i 0) l)))
    (fun h k => cW (ix2 h k)) (fun k => cb (ix1 k)) (i 1)

end Cert.Spec

end
-- ==== Proof.KPay0.lean ====
/-
  The first kernel's stored value read at one entry: row `p`, feature `h` of a block of 1024 token rows is the
  row's linear layer, rectifier and layer normalisation (`Spec.featRow`) of the block's row `p`.
-/
import proofs.«401989_j53884659695997_1_alg».proof.Proof.Gen.KernelIdeal.Skeleton
import proofs.«401989_j53884659695997_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

namespace K0

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The product of the block with the weights, read at an entry

The operand indices of the contraction at output index `i` and contraction index `q`, axis by axis: the left operand is
read at `(i 0, q)`, the right one at `(q, i 1)`. -/

theorem lhs_mm_0 (i : S1024x600.Idx) (q : dot_S1024x768_S768x600_S1024x600_1_0_0_1_n_n.contr.Idx) :
    (dot_S1024x768_S768x600_S1024x600_1_0_0_1_n_n.lhsIdx i q 0).val = (i 0).val := by
  unfold DotDims.lhsIdx
  rw [dif_neg (show ¬(0 : Fin S1024x768.rank) ∈ dot_S1024x768_S768x600_S1024x600_1_0_0_1_n_n.lhsBatch by decide), dif_pos (show (0 : Fin S1024x768.rank) ∈ dot_S1024x768_S768x600_S1024x600_1_0_0_1_n_n.lhsNonContracting by decide)]
  rfl
theorem lhs_mm_1 (i : S1024x600.Idx) (q : dot_S1024x768_S768x600_S1024x600_1_0_0_1_n_n.contr.Idx) :
    (dot_S1024x768_S768x600_S1024x600_1_0_0_1_n_n.lhsIdx i q 1).val = (q ⟨0, by decide⟩).val :=
  dot_S1024x768_S768x600_S1024x600_1_0_0_1_n_n.lhsIdx_val_of_single rfl i q
theorem rhs_mm_0 (i : S1024x600.Idx) (q : dot_S1024x768_S768x600_S1024x600_1_0_0_1_n_n.contr.Idx) :
    (dot_S1024x768_S768x600_S1024x600_1_0_0_1_n_n.rhsIdx i q 0).val = (q ⟨0, by decide⟩).val :=
  dot_S1024x768_S768x600_S1024x600_1_0_0_1_n_n.rhsIdx_val_of_single rfl i q
theorem rhs_mm_1 (i : S1024x600.Idx) (q : dot_S1024x768_S768x600_S1024x600_1_0_0_1_n_n.contr.Idx) :
    (dot_S1024x768_S768x600_S1024x600_1_0_0_1_n_n.rhsIdx i q 1).val = (i 1).val := by
  unfold DotDims.rhsIdx
  rw [dif_neg (show ¬(1 : Fin S768x600.rank) ∈ dot_S1024x768_S768x600_S1024x600_1_0_0_1_n_n.rhsBatch by decide), dif_pos (show (1 : Fin S768x600.rank) ∈ dot_S1024x768_S768x600_S1024x600_1_0_0_1_n_n.rhsNonContracting by decide)]
  rfl

/-- The product into the zero accumulator, read at `(p, h)`: the sum over the 768 contracted coordinates. -/
theorem mm_apply (A : FVec Ideal S1024x768 .bf16) (B : FVec Ideal S768x600 .bf16) (p : Fin 1024) (h : Fin 600) :
    matmul dot_S1024x768_S768x600_S1024x600_1_0_0_1_n_n none A B (constant (F := Ideal) S1024x600 .f32 0x00000000#32) (ix2 p h)
      = ∑ d : Fin 768, A (ix2 p d) * B (ix2 d h) := by
  simp only [matmul]
  rw [Ideal.matmul_constant_zero_apply, ← Equiv.sum_comp (ValueIdx.contrEquiv1 dot_S1024x768_S768x600_S1024x600_1_0_0_1_n_n 768 rfl rfl).symm]
  refine Finset.sum_congr rfl fun k _ => ?_
  have hk := ValueIdx.contrEquiv1_symm_val dot_S1024x768_S768x600_S1024x600_1_0_0_1_n_n 768 rfl rfl k
  have el : dot_S1024x768_S768x600_S1024x600_1_0_0_1_n_n.lhsIdx (ix2 p h) ((ValueIdx.contrEquiv1 dot_S1024x768_S768x600_S1024x600_1_0_0_1_n_n 768 rfl rfl).symm k) = ix2 p k := funext fun a => Fin.ext (by
    match a with
    | ⟨0, _⟩ => exact lhs_mm_0 _ _
    | ⟨1, _⟩ => exact (lhs_mm_1 _ _).trans hk)
  have er : dot_S1024x768_S768x600_S1024x600_1_0_0_1_n_n.rhsIdx (ix2 p h) ((ValueIdx.contrEquiv1 dot_S1024x768_S768x600_S1024x600_1_0_0_1_n_n 768 rfl rfl).symm k) = ix2 k h := funext fun a => Fin.ext (by
    match a with
    | ⟨0, _⟩ => exact (rhs_mm_0 _ _).trans hk
    | ⟨1, _⟩ => exact rhs_mm_1 _ _)
  rw [el, er]

/-! ## The sums over the 600 lanes -/

/-- A sum over the 600 lanes of a `[1024, 600]` block, read at row `p`. -/
theorem rowSum_apply (v : FVec Ideal S1024x600 .f32) (p : Fin 1024) :
    multiReduction (F := Ideal) .add [1] S1024 v 0x00000000#32 reduces_S1024x600_S1024 (.inl rfl) rfl (ix1 p)
      = ∑ h : Fin 600, v (ix2 p h) := by
  refine (Ideal.multiReduction_add_single v 0x00000000#32 reduces_S1024x600_S1024 (.inl rfl) rfl (ix1 p)).trans ?_
  show ∑ k : Fin 600, v (reduces_S1024x600_S1024.lift (ix1 p) k) = _
  refine Finset.sum_congr rfl fun k _ => congrArg v (funext fun a => Fin.ext ?_)
  match a with
  | ⟨0, _⟩ => rfl
  | ⟨1, _⟩ => rfl

/-- That sum kept as a column and divided by the splat of the word `c`, read at `(p, u)`. -/
theorem rowSumDiv_apply (v : FVec Ideal S1024x600 .f32) (c : BitVec 32) (p : Fin 1024) (u : Fin 1) :
    divf (shapeCast S1024x1 (multiReduction (F := Ideal) .add [1] S1024 v 0x00000000#32 reduces_S1024x600_S1024 (.inl rfl) rfl) shapeCasts_S1024_S1024x1)
        (broadcast S1024x1 (Scalar.ofBits (F := Ideal) .f32 c)) (ix2 p u)
      = Ideal.div (∑ h : Fin 600, v (ix2 p h)) (Ideal.ofBits .f32 c) := by
  rw [divf_apply, broadcast_apply]
  refine congrArg (fun t => Ideal.div t _) ?_
  exact (shapeCast_a_a1_apply _ shapeCasts_S1024_S1024x1 p u).trans (rowSum_apply v p)

/-! ## The stored value in stages -/

/-- A `[600]` row laid over the 1024 rows of a block. -/
def rowV (x : Vec Ideal S600 .f32) : FVec Ideal S1024x600 .f32 :=
  broadcastTo S1024x600 (shapeCast S1x600 x shapeCasts_S600_S1x600) broadcasts_S1x600_S1024x600

theorem rowV_apply (x : Vec Ideal S600 .f32) (p : Fin 1024) (h : Fin 600) : rowV x (ix2 p h) = x (ix1 h) :=
  (broadcastTo_1b_ab_apply _ broadcasts_S1x600_S1024x600 p h).trans (shapeCast_a_1a_apply x shapeCasts_S600_S1x600 0 h)

/-- The rectified linear layer of the block. -/
def actV (x0 : Vec Ideal S1024x768 .f32) (x1 : Vec Ideal S768x600 .f32) (x2 : Vec Ideal S600 .f32) : FVec Ideal S1024x600 .f32 :=
  maximumf
    (addf
      (matmul dot_S1024x768_S768x600_S1024x600_1_0_0_1_n_n none
        (truncf .bf16 (shapeCast S1024x768 x0 shapeCasts_S1024x768_S1024x768) bitsLt_bf16_f32)
        (truncf .bf16 (shapeCast S768x600 x1 shapeCasts_S768x600_S768x600) bitsLt_bf16_f32)
        (constant (F := Ideal) S1024x600 .f32 0x00000000#32))
      (rowV (shapeCast S600 x2 shapeCasts_S600_S600)))
    (broadcast S1024x600 (Scalar.ofBits (F := Ideal) .f32 0x00000000#32))

/-- Its entry `(p, h)` is output `h` of the linear layer and rectifier on the block's row `p`. -/
theorem actV_apply (x0 : Vec Ideal S1024x768 .f32) (x1 : Vec Ideal S768x600 .f32) (x2 : Vec Ideal S600 .f32)
    (p : Fin 1024) (h : Fin 600) :
    actV x0 x1 x2 (ix2 p h)
      = Cert.Spec.act (fun d => x0 (ix2 p d)) (fun d h => x1 (ix2 d h)) (fun h => x2 (ix1 h)) h := by
  unfold actV Cert.Spec.act
  rw [maximumf_apply, addf_apply, broadcast_apply, mm_apply, rowV_apply, shapeCast_self, shapeCast_self, shapeCast_self]
  rfl

/-- The block's row means, kept as a column. -/
def meanV (y : FVec Ideal S1024x600 .f32) : FVec Ideal S1024x1 .f32 :=
  divf (shapeCast S1024x1 (multiReduction (F := Ideal) .add [1] S1024 y 0x00000000#32 reduces_S1024x600_S1024 (.inl rfl) rfl) shapeCasts_S1024_S1024x1)
    (broadcast S1024x1 (Scalar.ofBits (F := Ideal) .f32 0x44160000#32))

theorem meanV_apply (y : FVec Ideal S1024x600 .f32) (p : Fin 1024) (u : Fin 1) :
    meanV y (ix2 p u) = Cert.Spec.mean (fun h => y (ix2 p h)) :=
  rowSumDiv_apply y _ p u

/-- The block with each row's mean taken off. -/
def cenV (y : FVec Ideal S1024x600 .f32) : FVec Ideal S1024x600 .f32 :=
  subf y (broadcastTo S1024x600 (meanV y) broadcasts_S1024x1_S1024x600)

theorem cenV_apply (y : FVec Ideal S1024x600 .f32) (p : Fin 1024) (h : Fin 600) :
    cenV y (ix2 p h) = y (ix2 p h) - Cert.Spec.mean (fun h => y (ix2 p h)) := by
  unfold cenV
  rw [subf_apply, broadcastTo_a1_ab_apply, meanV_apply]

/-- The block's row mean squared deviations, kept as a column. -/
def varV (y : FVec Ideal S1024x600 .f32) : FVec Ideal S1024x1 .f32 :=
  divf (shapeCast S1024x1 (multiReduction (F := Ideal) .add [1] S1024 (mulf (cenV y) (cenV y)) 0x00000000#32 reduces_S1024x600_S1024 (.inl rfl) rfl) shapeCasts_S1024_S1024x1)
    (broadcast S1024x1 (Scalar.ofBits (F := Ideal) .f32 0x44160000#32))

theorem varV_apply (y : FVec Ideal S1024x600 .f32) (p : Fin 1024) (u : Fin 1) :
    varV y (ix2 p u) = Cert.Spec.var (fun h => y (ix2 p h)) := by
  refine (rowSumDiv_apply (mulf (cenV y) (cenV y)) _ p u).trans ?_
  unfold Cert.Spec.var
  refine congrArg (fun t => Ideal.div t _) (Finset.sum_congr rfl fun h _ => ?_)
  rw [mulf_apply, cenV_apply]

/-- The normalised, scaled and shifted block. -/
def lnV (y : FVec Ideal S1024x600 .f32) (x3 x4 : Vec Ideal S600 .f32) : FVec Ideal S1024x600 .f32 :=
  addf
    (mulf
      (mulf (cenV y)
        (broadcastTo S1024x600 (rsqrt (addf (varV y) (broadcast S1024x1 (Scalar.ofBits (F := Ideal) .f32 0x3727C5AC#32))))
          broadcasts_S1024x1_S1024x600))
      (rowV x3))
    (rowV x4)

/-- Its entry `(p, h)` is the layer normalisation of the block's row `p`, at `h`. -/
theorem lnV_apply (y : FVec Ideal S1024x600 .f32) (x3 x4 : Vec Ideal S600 .f32) (p : Fin 1024) (h : Fin 600) :
    lnV y x3 x4 (ix2 p h)
      = Cert.Spec.norm (fun h => y (ix2 p h)) (fun h => x3 (ix1 h)) (fun h => x4 (ix1 h)) h := by
  unfold lnV Cert.Spec.norm
  rw [addf_apply, mulf_apply, mulf_apply, cenV_apply, rowV_apply, rowV_apply, broadcastTo_a1_ab_apply]
  show _ * Ideal.rsqrt (addf (varV y) _ (ix2 p (0 : Fin 1))) * _ + _ = _
  rw [addf_apply, varV_apply, broadcast_apply]
  rfl

/-- The stored value is those stages composed. -/
theorem k0_pay1_eq (x0 : Vec Ideal S1024x768 .f32) (x1 : Vec Ideal S768x600 .f32) (x2 x3 x4 : Vec Ideal S600 .f32) :
    k0_pay1 (F := Ideal) x0 x1 x2 x3 x4 = lnV (actV x0 x1 x2) x3 x4 := rfl

end K0

theorem pay0_apply (x0 : Vec Ideal S1024x768 .f32) (x1 : Vec Ideal S768x600 .f32) (x2 x3 x4 : Vec Ideal S600 .f32)
    (p : Fin 1024) (h : Fin 600) :
    k0_pay1 (F := Ideal) x0 x1 x2 x3 x4 (ix2 p h)
      = Cert.Spec.featRow (fun d => x0 (ix2 p d)) (fun d h => x1 (ix2 d h)) (fun h => x2 (ix1 h))
          (fun h => x3 (ix1 h)) (fun h => x4 (ix1 h)) h := by
  rw [K0.k0_pay1_eq, K0.lnV_apply]
  unfold Cert.Spec.featRow
  exact congrArg (fun y => Cert.Spec.norm y _ _ h) (funext fun h' => K0.actV_apply x0 x1 x2 p h')

end Cert.KernelIdeal.Pay

end
-- ==== Proof.KReg0.lean ====
/-
  The array the first kernel leaves: the 16 blocks of 1024 rows tile the 16384 token rows, block `t` holds rows
  `1024 t … 1024 t + 1023`, and every row of the result is the layer's function (`Spec.featRow`) of the same row of
  the input array and of the whole parameter arrays.
-/
import proofs.«401989_j53884659695997_1_alg».proof.Proof.Gen.KernelIdeal.Frame
import proofs.«401989_j53884659695997_1_alg».proof.Proof.KPay0
import Idealize.ShloMosaic.Lib.ValueIdx
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole rank-2 buffer, however they are spelt. -/
theorem zero2 : (![0, 0] : Fin 2 → Nat) = fun _ => 0 := funext fun a => by fin_cases a <;> rfl

/-- The zero offset of a whole rank-1 buffer. -/
theorem zero1 : (![0] : Fin 1 → Nat) = fun _ => 0 := funext fun a => by fin_cases a; rfl

/-- The array of features: row `i 0` of the token array through the layer, feature `i 1`. -/
abbrev featArray (a0 : S16384x768.Idx → EReal) (a1 : S768x600.Idx → EReal) (a2 a3 a4 : S600.Idx → EReal) :
    S16384x600.Idx → EReal :=
  fun i => Cert.Spec.featRow (fun d => a0 (ix2 (i 0) d)) (fun d h => a1 (ix2 d h)) (fun h => a2 (ix1 h))
    (fun h => a3 (ix1 h)) (fun h => a4 (ix1 h)) (i 1)

/-- One entry of the stored block: when row `p` of the block of token rows is row `r` of the token array and the
    parameter blocks are the parameter arrays, entry `(p, q)` of what the body stores is entry `(r, q)` of the array
    of features. -/
theorem block_entry (a0 : S16384x768.Idx → EReal) (a1 : S768x600.Idx → EReal) (a2 a3 a4 : S600.Idx → EReal)
    (x0 : Vec Ideal S1024x768 .f32) (x1 : Vec Ideal S768x600 .f32) (x2 x3 x4 : Vec Ideal S600 .f32)
    (r : Fin 16384) (p : Fin 1024) (q : Fin 600)
    (h0 : ∀ d : Fin 768, x0 (ix2 p d) = a0 (ix2 r d))
    (h1 : ∀ (d : Fin 768) (h : Fin 600), x1 (ix2 d h) = a1 (ix2 d h))
    (h2 : ∀ h : Fin 600, x2 (ix1 h) = a2 (ix1 h)) (h3 : ∀ h : Fin 600, x3 (ix1 h) = a3 (ix1 h))
    (h4 : ∀ h : Fin 600, x4 (ix1 h) = a4 (ix1 h)) :
    k0_pay1 (F := Ideal) x0 x1 x2 x3 x4 (ix2 p q) = featArray a0 a1 a2 a3 a4 (ix2 r q) := by
  rw [Pay.pay0_apply]
  show Cert.Spec.featRow _ _ _ _ _ q = Cert.Spec.featRow _ _ _ _ _ q
  simp only [h0, h1, h2, h3, h4]

/-- Where the blocks sit: at point `t` the token rows' and the result's block index is `t` along the rows and `0`
    along the columns; the parameter arrays are one block each, at index `0`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the array of features of the arrays the region finds. -/
theorem flushed_rows (c : Dev nD) (t : Fin cfg0.N) :
    (dat0 (F := Ideal) V c).flushed 5 t = ((cfg0.win 5).blk t).view.read (Elt Ideal)
      (featArray (V c main_v4) (V c main_v6) (V c main_v8) (V c main_arg11) (V c main_arg12)) := by
  show (cfg0.win 5).cut (grid0.coords t) ((dat0 V c).after 5 t) = _
  rw [after0_5]
  unfold out0_5
  rw [View.canon_unit_zero zero2]
  simp only [View.ld_unit_zero (S := S1024x768) zero2, View.ld_unit_zero (S := S768x600) zero2, View.ld_unit_zero (S := S600) zero1]
  obtain ⟨e00, e01, e10, e11, e2, e3, e4, e50, e51⟩ := block_index t
  have hN : cfg0.N = 16 := N_0
  have ht : t.val < 16 := hN ▸ t.isLt
  funext j
  obtain ⟨p, q, rfl⟩ : ∃ (p : Fin 1024) (q : Fin 600), j = ix2 p q := ⟨j 0, j 1, eq_ix2 j⟩
  have hp : p.val < 1024 := p.isLt
  refine (block_entry (V c main_v4) (V c main_v6) (V c main_v8) (V c main_arg11) (V c main_arg12)
    (iblk0 V c 0 t) (iblk0 V c 1 t) (iblk0 V c 2 t) (iblk0 V c 3 t) (iblk0 V c 4 t)
    ⟨t.val * 1024 + p.val, by omega⟩ p q ?_ ?_ ?_ ?_ ?_).trans ?_
  · intro d
    show V c main_v4 (((cfg0.win 0).blk t).view.emb (ix2 p d)) = V c main_v4 _
    refine congrArg (V c main_v4) ?_
    funext a; apply Fin.ext
    match a with
    | ⟨0, _⟩ => show win0_0.index t (0 : Fin 2) * 1024 + 1 * p.val = t.val * 1024 + p.val; omega
    | ⟨1, _⟩ => show win0_0.index t (1 : Fin 2) * 768 + 1 * d.val = d.val; omega
  · intro d h
    show V c main_v6 (((cfg0.win 1).blk t).view.emb (ix2 d h)) = V c main_v6 _
    refine congrArg (V c main_v6) ?_
    funext a; apply Fin.ext
    match a with
    | ⟨0, _⟩ => show win0_1.index t (0 : Fin 2) * 768 + 1 * d.val = d.val; omega
    | ⟨1, _⟩ => show win0_1.index t (1 : Fin 2) * 600 + 1 * h.val = h.val; omega
  · intro h
    show V c main_v8 (((cfg0.win 2).blk t).view.emb (ix1 h)) = V c main_v8 _
    refine congrArg (V c main_v8) ?_
    funext a; apply Fin.ext
    match a with
    | ⟨0, _⟩ => show win0_2.index t (0 : Fin 1) * 600 + 1 * h.val = h.val; omega
  · intro h
    show V c main_arg11 (((cfg0.win 3).blk t).view.emb (ix1 h)) = V c main_arg11 _
    refine congrArg (V c main_arg11) ?_
    funext a; apply Fin.ext
    match a with
    | ⟨0, _⟩ => show win0_3.index t (0 : Fin 1) * 600 + 1 * h.val = h.val; omega
  · intro h
    show V c main_arg12 (((cfg0.win 4).blk t).view.emb (ix1 h)) = V c main_arg12 _
    refine congrArg (V c main_arg12) ?_
    funext a; apply Fin.ext
    match a with
    | ⟨0, _⟩ => show win0_4.index t (0 : Fin 1) * 600 + 1 * h.val = h.val; omega
  · show _ = featArray (V c main_v4) (V c main_v6) (V c main_v8) (V c main_arg11) (V c main_arg12)
        (((cfg0.win 5).blk t).view.emb (ix2 p q))
    refine congrArg (featArray (V c main_v4) (V c main_v6) (V c main_v8) (V c main_arg11) (V c main_arg12)) ?_
    funext a; apply Fin.ext
    match a with
    | ⟨0, _⟩ => show t.val * 1024 + p.val = win0_5.index t (0 : Fin 2) * 1024 + 1 * p.val; omega
    | ⟨1, _⟩ => show q.val = win0_5.index t (1 : Fin 2) * 600 + 1 * q.val; omega

/-- An index of the result array is in point `t`'s block iff each coordinate is in the block's range on its axis. -/
theorem mem_block (t : Fin cfg0.N) (i : S16384x600.Idx) :
    i ∈ ((cfg0.win 5).blk t).view.set ↔ ∀ a : Fin 2, win0_5.index t a * S1024x600.size a ≤ (i a).val
      ∧ (i a).val < win0_5.index t a * S1024x600.size a + S1024x600.size a := by
  show i ∈ ((View.whole main_v9).slice (win0_5.rect t)).set ↔ _
  rw [View.set_slice_whole, Rect.mem_set_unit]
  exact Iff.rfl

/-- Every entry of the result array is written back: row `r` lies in the block of point `r / 1024`. -/
theorem covered (i : S16384x600.Idx) :
    ∃ t : Fin cfg0.N, (cfg0.win 5).flush t = true ∧ i ∈ ((cfg0.win 5).blk t).view.set := by
  have hi0 : (i 0).val < 16384 := (i 0).isLt
  have hi1 : (i 1).val < 600 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, -, -, -, e50, e51⟩ := block_index t
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 600 ≤ (i 1).val ∧ (i 1).val < win0_5.index t (1 : Fin 2) * 600 + 600
    omega

/-- Region 0's output array after its 16 points, from the contents `V` the region is entered with. -/
theorem region0_array (c : Dev nD) :
    (dat0 (F := Ideal) V c).arrAt 5 cfg0.N
      = (fun i : S16384x600.Idx => Cert.Spec.featRow
          (fun d => (V c main_v4 : S16384x768.Idx → EReal) (ix2 (i 0) d))
          (fun d h => (V c main_v6 : S768x600.Idx → EReal) (ix2 d h))
          (fun h => (V c main_v8 : S600.Idx → EReal) (ix1 h))
          (fun h => (V c main_arg11 : S600.Idx → EReal) (ix1 h))
          (fun h => (V c main_arg12 : S600.Idx → EReal) (ix1 h)) (i 1)) := by
  exact (dat0 (F := Ideal) V c).arrAt_eq_of_cover 5
    (featArray (V c main_v4) (V c main_v6) (V c main_v8) (V c main_arg11) (V c main_arg12))
    (fun t _ => flushed_rows V c t) covered

end Cert.KernelIdeal.Reg

end
-- ==== Proof.KPay1.lean ====
/-
  The second kernel's stored value read at one entry: for row `q` of a block of 16 batch entries, logit `k` is the
  classifier (`Spec.logit`) of the weighted average (`Spec.pooled`) of that entry's 256 feature rows.
-/
import proofs.«401989_j53884659695997_1_alg».proof.Proof.Gen.KernelIdeal.Skeleton
import proofs.«401989_j53884659695997_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

namespace PoolClassify

/-- The weights with a unit axis appended read, at `(q, l, u)`, the weight of row `l` of entry `q`. -/
theorem cast_weights_apply {α : Type} (x : S16x256.Idx → α) (h : S16x256.ShapeCasts S16x256x1)
    (q : Fin 16) (l : Fin 256) (u : Fin 1) :
    shapeCast S16x256x1 x h (ix3 q l u) = x (ix2 q l) :=
  shapeCast_apply x h _ _ (by
    have hu : u.val = 0 := by omega
    rw [Shape.rowMajor_val_three, Shape.rowMajor_val_two]
    show q.val * 256 + l.val = (q.val * 256 + l.val) * 1 + u.val
    rw [hu, Nat.mul_one, Nat.add_zero])

/-- A `[16, 256, 1]` array copied along a last axis of 600 reads, at `(q, l, c)`, its one element at `(q, l)`. -/
theorem bcast_weights_apply {α : Type} (v : S16x256x1.Idx → α) (h : S16x256x1.Broadcasts S16x256x600)
    (q : Fin 16) (l : Fin 256) (c : Fin 600) :
    broadcastTo S16x256x600 v h (ix3 q l c) = v (ix3 q l (0 : Fin 1)) := by
  refine broadcastTo_apply v h (ix3 q l c) (ix3 q l (0 : Fin 1)) fun ax => ?_
  match ax with
  | ⟨0, _⟩ => rfl
  | ⟨1, _⟩ => rfl
  | ⟨2, _⟩ => rfl

/-- The sum over the 256 rows of a `[16, 256, 600]` array, at `(q, c)`. -/
theorem sum_rows_apply (src : FVec Ideal S16x256x600 .f32) (h : S16x256x600.Reduces [1] S16x600)
    (hφ : FKind.Formats .f32) (hacc : (0x00000000#32 : BitVec 32) = FKind.add.neutral .f32 hφ)
    (q : Fin 16) (c : Fin 600) :
    multiReduction .add [1] S16x600 src 0x00000000#32 h hφ hacc (ix2 q c) = ∑ l : Fin 256, src (ix3 q l c) := by
  refine (Ideal.multiReduction_add_single src _ h hφ hacc (ix2 q c)).trans ?_
  refine Finset.sum_congr rfl fun l _ => congrArg src ?_
  funext a
  match a with
  | ⟨0, _⟩ => exact Fin.ext rfl
  | ⟨1, _⟩ => exact Fin.ext rfl
  | ⟨2, _⟩ => exact Fin.ext rfl

/-- The sum of the 256 weights of entry `q`. -/
theorem sum_weights_apply (src : FVec Ideal S16x256 .f32) (h : S16x256.Reduces [1] S16)
    (hφ : FKind.Formats .f32) (hacc : (0x00000000#32 : BitVec 32) = FKind.add.neutral .f32 hφ) (q : Fin 16) :
    multiReduction .add [1] S16 src 0x00000000#32 h hφ hacc (ix1 q) = ∑ l : Fin 256, src (ix2 q l) := by
  refine (Ideal.multiReduction_add_single src _ h hφ hacc (ix1 q)).trans ?_
  refine Finset.sum_congr rfl fun l _ => congrArg src ?_
  funext a
  match a with
  | ⟨0, _⟩ => exact Fin.ext rfl
  | ⟨1, _⟩ => exact Fin.ext rfl

/-- A vector of 16 as a column reads, at `(q, u)`, its element `q`. -/
theorem cast_column_apply {α : Type} (x : S16.Idx → α) (h : S16.ShapeCasts S16x1) (q : Fin 16) (u : Fin 1) :
    shapeCast S16x1 x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column of 16 copied along 600 columns reads, at `(q, c)`, the column's element `q`. -/
theorem bcast_column_apply {α : Type} (v : S16x1.Idx → α) (h : S16x1.Broadcasts S16x600) (q : Fin 16) (c : Fin 600) :
    broadcastTo S16x600 v h (ix2 q c) = v (ix2 q (0 : Fin 1)) := by
  refine broadcastTo_apply v h (ix2 q c) (ix2 q (0 : Fin 1)) fun ax => ?_
  match ax with
  | ⟨0, _⟩ => rfl
  | ⟨1, _⟩ => rfl

/-! The classifier's product contracts axis 1 of the `[16, 600]` operand with axis 0 of the `[600, 3]` one: at output
`(q, k)` and contraction position `p` the operands are read at `(q, p)` and `(p, k)`. One fact per operand axis. -/

theorem lhs_classify_0 (i : S16x3.Idx) (p : dot_S16x600_S600x3_S16x3_1_0_0_1_n_n.contr.Idx) :
    (dot_S16x600_S600x3_S16x3_1_0_0_1_n_n.lhsIdx i p 0).val = (i 0).val := by
  unfold DotDims.lhsIdx
  rw [dif_neg (show ¬(0 : Fin S16x600.rank) ∈ dot_S16x600_S600x3_S16x3_1_0_0_1_n_n.lhsBatch by decide), dif_pos (show (0 : Fin S16x600.rank) ∈ dot_S16x600_S600x3_S16x3_1_0_0_1_n_n.lhsNonContracting by decide)]
  rfl
theorem lhs_classify_1 (i : S16x3.Idx) (p : dot_S16x600_S600x3_S16x3_1_0_0_1_n_n.contr.Idx) :
    (dot_S16x600_S600x3_S16x3_1_0_0_1_n_n.lhsIdx i p 1).val = (p ⟨0, by decide⟩).val :=
  dot_S16x600_S600x3_S16x3_1_0_0_1_n_n.lhsIdx_val_of_single rfl i p
theorem rhs_classify_0 (i : S16x3.Idx) (p : dot_S16x600_S600x3_S16x3_1_0_0_1_n_n.contr.Idx) :
    (dot_S16x600_S600x3_S16x3_1_0_0_1_n_n.rhsIdx i p 0).val = (p ⟨0, by decide⟩).val :=
  dot_S16x600_S600x3_S16x3_1_0_0_1_n_n.rhsIdx_val_of_single rfl i p
theorem rhs_classify_1 (i : S16x3.Idx) (p : dot_S16x600_S600x3_S16x3_1_0_0_1_n_n.contr.Idx) :
    (dot_S16x600_S600x3_S16x3_1_0_0_1_n_n.rhsIdx i p 1).val = (i 1).val := by
  unfold DotDims.rhsIdx
  rw [dif_neg (show ¬(1 : Fin S600x3.rank) ∈ dot_S16x600_S600x3_S16x3_1_0_0_1_n_n.rhsBatch by decide), dif_pos (show (1 : Fin S600x3.rank) ∈ dot_S16x600_S600x3_S16x3_1_0_0_1_n_n.rhsNonContracting by decide)]
  rfl

/-- The product into a zero accumulator, at `(q, k)`: the sum over the 600 features of row `q` times column `k`. -/
theorem classify_apply (A : FVec Ideal S16x600 .bf16) (B : FVec Ideal S600x3 .bf16) (q : Fin 16) (k : Fin 3) :
    matmul dot_S16x600_S600x3_S16x3_1_0_0_1_n_n none A B (constant (F := Ideal) S16x3 .f32 0x00000000#32) (ix2 q k)
      = ∑ h : Fin 600, A (ix2 q h) * B (ix2 h k) := by
  simp only [matmul]
  rw [Ideal.matmul_constant_zero_apply, ← Equiv.sum_comp (contrEquiv1 dot_S16x600_S600x3_S16x3_1_0_0_1_n_n 600 rfl rfl).symm]
  refine Finset.sum_congr rfl fun h _ => ?_
  have hk := contrEquiv1_symm_val dot_S16x600_S600x3_S16x3_1_0_0_1_n_n 600 rfl rfl h
  have el : dot_S16x600_S600x3_S16x3_1_0_0_1_n_n.lhsIdx (ix2 q k) ((contrEquiv1 dot_S16x600_S600x3_S16x3_1_0_0_1_n_n 600 rfl rfl).symm h) = ix2 q h := funext fun a => Fin.ext (by
    match a with
    | ⟨0, _⟩ => exact lhs_classify_0 _ _
    | ⟨1, _⟩ => exact (lhs_classify_1 _ _).trans hk)
  have er : dot_S16x600_S600x3_S16x3_1_0_0_1_n_n.rhsIdx (ix2 q k) ((contrEquiv1 dot_S16x600_S600x3_S16x3_1_0_0_1_n_n 600 rfl rfl).symm h) = ix2 h k := funext fun a => Fin.ext (by
    match a with
    | ⟨0, _⟩ => exact (rhs_classify_0 _ _).trans hk
    | ⟨1, _⟩ => exact rhs_classify_1 _ _)
  rw [el, er]

/-- The weighted average's numerator and denominator, then the quotient: the pooled feature `h` of entry `q`. -/
theorem pooled_apply (x0 : Vec Ideal S16x256x600 .f32) (x1 : Vec Ideal S16x256 .f32)
    (hφ : FKind.Formats .f32) (hacc : (0x00000000#32 : BitVec 32) = FKind.add.neutral .f32 hφ) (q : Fin 16) (h : Fin 600) :
    divf
        (multiReduction (F := Ideal) .add [1] S16x600
          (mulf (shapeCast S16x256x600 x0 shapeCasts_S16x256x600_S16x256x600)
            (broadcastTo S16x256x600 (shapeCast S16x256x1 x1 shapeCasts_S16x256_S16x256x1) broadcasts_S16x256x1_S16x256x600))
          0x00000000#32 reduces_S16x256x600_S16x600 hφ hacc)
        (broadcastTo S16x600
          (shapeCast S16x1 (multiReduction (F := Ideal) .add [1] S16 x1 0x00000000#32 reduces_S16x256_S16 hφ hacc) shapeCasts_S16_S16x1)
          broadcasts_S16x1_S16x600)
        (ix2 q h)
      = Cert.Spec.pooled (fun l h => x0 (ix3 q l h)) (fun l => x1 (ix2 q l)) h := by
  refine (divf_apply _ _ _).trans ?_
  unfold Cert.Spec.pooled
  refine congrArg₂ Ideal.div ?_ ?_
  · refine (sum_rows_apply _ _ hφ hacc q h).trans ?_
    refine Finset.sum_congr rfl fun l _ => ?_
    refine (mulf_apply _ _ _).trans ?_
    refine congrArg₂ (· * ·) ?_ ?_
    · exact congrFun (shapeCast_self x0 _) _
    · exact (bcast_weights_apply _ _ q l h).trans (cast_weights_apply x1 _ q l 0)
  · exact (bcast_column_apply _ _ q h).trans ((cast_column_apply _ _ q 0).trans (sum_weights_apply x1 _ hφ hacc q))

end PoolClassify

open PoolClassify

/-- The stored value at `(q, k)`: the classifier's sum over the pooled features of entry `q`, plus the bias `k`. -/
theorem pay1_apply (x0 : Vec Ideal S16x256x600 .f32) (x1 : Vec Ideal S16x256 .f32) (x2 : Vec Ideal S600x3 .f32)
    (x3 : Vec Ideal S3 .f32) (q : Fin 16) (k : Fin 3) :
    k1_pay1 (F := Ideal) x0 x1 x2 x3 (ix2 q k)
      = Cert.Spec.logit (Cert.Spec.pooled (fun l h => x0 (ix3 q l h)) (fun l => x1 (ix2 q l)))
          (fun h k => x2 (ix2 h k)) (fun k => x3 (ix1 k)) k := by
  unfold k1_pay1
  dsimp only
  refine (addf_apply _ _ _).trans ?_
  unfold Cert.Spec.logit
  refine congrArg₂ (· + ·) ?_ ?_
  · refine (classify_apply _ _ q k).trans ?_
    refine Finset.sum_congr rfl fun h _ => ?_
    refine congrArg₂ (· * ·) ?_ rfl
    refine (truncf_apply (φ := .f32) (ψ := .bf16) _ _ _).trans ?_
    exact pooled_apply x0 x1 _ _ q h
  · exact (broadcastTo_1b_ab_apply _ _ q k).trans (shapeCast_a_1a_apply x3 _ 0 k)

end Cert.KernelIdeal.Pay

end
-- ==== Proof.KReg1.lean ====
/-
  The array the second kernel leaves: the 4 blocks of 16 batch entries tile the 64 entries, and every entry's three
  logits are the classifier of the weighted average of its 256 feature rows (`Spec.logit`, `Spec.pooled`).
-/
import proofs.«401989_j53884659695997_1_alg».proof.Proof.Gen.KernelIdeal.Frame
import proofs.«401989_j53884659695997_1_alg».proof.Proof.KPay1
import Idealize.ShloMosaic.Lib.ValueIdx
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Pool

/-- The zero offsets of a rank-1, rank-2 and rank-3 access. -/
theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- Entry `(b, k)` of the result: logit `k` of the classifier at the weighted average of batch entry `b`'s 256 feature
    rows, as a function of the four arrays the kernel reads. -/
abbrev logitsOf (a0 : S64x256x600.Idx → EReal) (a1 : S64x256.Idx → EReal) (a2 : S600x3.Idx → EReal) (a3 : S3.Idx → EReal) :
    S64x3.Idx → EReal := fun i =>
  Cert.Spec.logit (Cert.Spec.pooled (fun l h => a0 (ix3 (i 0) l h)) (fun l => a1 (ix2 (i 0) l)))
    (fun h k => a2 (ix2 h k)) (fun k => a3 (ix1 k)) (i 1)

/-- The block indices, decided over the 4 points: the feature, weight and result windows are at block `t` of the batch
    axis and block 0 of the others; the classifier's matrix and bias are whole. -/
theorem block_index : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- One entry of a block: when the four blocks are the arrays' rows `r` (features, weights) and the whole matrix and
    bias, entry `(q, k)` of the payload is entry `(r, k)` of `logitsOf`. -/
theorem entry_eq (x0 : Vec Ideal S16x256x600 .f32) (x1 : Vec Ideal S16x256 .f32) (x2 : Vec Ideal S600x3 .f32)
    (x3 : Vec Ideal S3 .f32) (a0 : S64x256x600.Idx → EReal) (a1 : S64x256.Idx → EReal) (a2 : S600x3.Idx → EReal)
    (a3 : S3.Idx → EReal) (q : Fin 16) (r : Fin 64) (k : Fin 3)
    (h0 : ∀ (l : Fin 256) (h : Fin 600), x0 (ix3 q l h) = a0 (ix3 r l h))
    (h1 : ∀ l : Fin 256, x1 (ix2 q l) = a1 (ix2 r l))
    (h2 : ∀ (h : Fin 600) (k : Fin 3), x2 (ix2 h k) = a2 (ix2 h k))
    (h3 : ∀ k : Fin 3, x3 (ix1 k) = a3 (ix1 k)) :
    k1_pay1 (F := Ideal) x0 x1 x2 x3 (ix2 q k) = logitsOf a0 a1 a2 a3 (ix2 r k) := by
  rw [Cert.KernelIdeal.Pay.pay1_apply]
  show Cert.Spec.logit (Cert.Spec.pooled (fun l h => x0 (ix3 q l h)) (fun l => x1 (ix2 q l)))
      (fun h k => x2 (ix2 h k)) (fun k => x3 (ix1 k)) k
    = Cert.Spec.logit (Cert.Spec.pooled (fun l h => a0 (ix3 r l h)) (fun l => a1 (ix2 r l)))
      (fun h k => a2 (ix2 h k)) (fun k => a3 (ix1 k)) k
  have e0 : (fun l h => x0 (ix3 q l h)) = fun l h => a0 (ix3 r l h) := funext fun l => funext fun h => h0 l h
  have e1 : (fun l => x1 (ix2 q l)) = fun l => a1 (ix2 r l) := funext h1
  have e2 : (fun h k => x2 (ix2 h k)) = fun h k => a2 (ix2 h k) := funext fun h => funext fun k => h2 h k
  have e3 : (fun k => x3 (ix1 k)) = fun k => a3 (ix1 k) := funext h3
  rw [e0, e1, e2, e3]

/-- The grid has 4 points. -/
theorem point_lt (t : Fin cfg1.N) : t.val < 4 := lt_of_lt_of_eq t.isLt N_1

/-- WHAT POINT `t` WRITES BACK: block `t` (batch entries `16 t … 16 t + 15`) of `logitsOf` of the arrays as the region
    finds them. -/
theorem flushed_eq (c : Dev nD) (t : Fin cfg1.N) :
    (dat1 (F := Ideal) V c).flushed 4 t
      = ((cfg1.win 4).blk t).view.read (Elt Ideal)
          (logitsOf (V c main_v10) (V c main_arg5) (V c main_arg13) (V c main_arg14)) := by
  show (cfg1.win 4).cut (grid1.coords t) ((dat1 V c).after 4 t) = _
  rw [after1_4]
  unfold out1_4
  rw [View.canon_unit_zero zero2]
  simp only [View.ld_unit_zero (S := S16x256x600) zero3, View.ld_unit_zero (S := S16x256) zero2,
    View.ld_unit_zero (S := S600x3) zero2, View.ld_unit_zero (S := S3) zero1]
  obtain ⟨e00, e01, e02, e10, e11, e20, e21, e30, e40, e41⟩ := block_index t
  have ht := point_lt t
  funext j
  obtain ⟨q, k, rfl⟩ : ∃ (q : Fin 16) (k : Fin 3), j = ix2 q k := ⟨j 0, j 1, eq_ix2 j⟩
  have hq : q.val < 16 := q.isLt
  have hr : t.val * 16 + q.val < 64 := by omega
  show k1_pay1 (F := Ideal) (iblk1 V c 0 t) (iblk1 V c 1 t) (iblk1 V c 2 t) (iblk1 V c 3 t) (ix2 q k)
    = logitsOf (V c main_v10) (V c main_arg5) (V c main_arg13) (V c main_arg14) (((cfg1.win 4).blk t).view.emb (ix2 q k))
  have he : ((cfg1.win 4).blk t).view.emb (ix2 q k) = ix2 (⟨t.val * 16 + q.val, hr⟩ : Fin 64) k := by
    funext a; apply Fin.ext
    match a with
    | ⟨0, _⟩ => show win1_4.index t (0 : Fin 2) * 16 + 1 * q.val = t.val * 16 + q.val; omega
    | ⟨1, _⟩ => show win1_4.index t (1 : Fin 2) * 3 + 1 * k.val = k.val; omega
  rw [he]
  refine entry_eq _ _ _ _ _ _ _ _ q ⟨t.val * 16 + q.val, hr⟩ k ?_ ?_ ?_ ?_
  · intro l h
    show V c main_v10 (((cfg1.win 0).blk t).view.emb (ix3 q l h)) = V c main_v10 (ix3 (⟨t.val * 16 + q.val, hr⟩ : Fin 64) l h)
    refine congrArg _ ?_
    funext a; apply Fin.ext
    match a with
    | ⟨0, _⟩ => show win1_0.index t (0 : Fin 3) * 16 + 1 * q.val = t.val * 16 + q.val; omega
    | ⟨1, _⟩ => show win1_0.index t (1 : Fin 3) * 256 + 1 * l.val = l.val; omega
    | ⟨2, _⟩ => show win1_0.index t (2 : Fin 3) * 600 + 1 * h.val = h.val; omega
  · intro l
    show V c main_arg5 (((cfg1.win 1).blk t).view.emb (ix2 q l)) = V c main_arg5 (ix2 (⟨t.val * 16 + q.val, hr⟩ : Fin 64) l)
    refine congrArg _ ?_
    funext a; apply Fin.ext
    match a with
    | ⟨0, _⟩ => show win1_1.index t (0 : Fin 2) * 16 + 1 * q.val = t.val * 16 + q.val; omega
    | ⟨1, _⟩ => show win1_1.index t (1 : Fin 2) * 256 + 1 * l.val = l.val; omega
  · intro h k'
    show V c main_arg13 (((cfg1.win 2).blk t).view.emb (ix2 h k')) = V c main_arg13 (ix2 h k')
    refine congrArg _ ?_
    funext a; apply Fin.ext
    match a with
    | ⟨0, _⟩ => show win1_2.index t (0 : Fin 2) * 600 + 1 * h.val = h.val; omega
    | ⟨1, _⟩ => show win1_2.index t (1 : Fin 2) * 3 + 1 * k'.val = k'.val; omega
  · intro k'
    show V c main_arg14 (((cfg1.win 3).blk t).view.emb (ix1 k')) = V c main_arg14 (ix1 k')
    refine congrArg _ ?_
    funext a; apply Fin.ext
    match a with
    | ⟨0, _⟩ => show win1_3.index t (0 : Fin 1) * 3 + 1 * k'.val = k'.val; omega

/-- An index of the result array is in point `t`'s block iff each coordinate is in the block's range on its axis. -/
theorem mem_blk (t : Fin cfg1.N) (i : S64x3.Idx) :
    i ∈ ((cfg1.win 4).blk t).view.set
      ↔ ∀ a : Fin 2, win1_4.index t a * S16x3.size a ≤ (i a).val ∧ (i a).val < win1_4.index t a * S16x3.size a + S16x3.size a := by
  show i ∈ ((View.whole main_v11).slice (win1_4.rect t)).set ↔ _
  rw [View.set_slice_whole, Rect.mem_set_unit]
  exact Iff.rfl

/-- The 4 blocks of 16 batch entries tile the 64: entry `b` is in the block of point `b / 16`, which writes back. -/
theorem covered (i : S64x3.Idx) :
    ∃ t : Fin cfg1.N, (cfg1.win 4).flush t = true ∧ i ∈ ((cfg1.win 4).blk t).view.set := by
  have hi0 : (i 0).val < 64 := (i 0).isLt
  have hi1 : (i 1).val < 3 := (i 1).isLt
  have hN : (i 0).val / 16 < cfg1.N := lt_of_lt_of_eq (show (i 0).val / 16 < 4 by omega) N_1.symm
  refine ⟨⟨(i 0).val / 16, hN⟩, flush1_4 _, ?_⟩
  rw [mem_blk]
  obtain ⟨-, -, -, -, -, -, -, -, e40, e41⟩ := block_index ⟨(i 0).val / 16, hN⟩
  have e40' : win1_4.index ⟨(i 0).val / 16, hN⟩ (0 : Fin 2) = (i 0).val / 16 := e40
  intro a
  match a with
  | ⟨0, _⟩ =>
    show win1_4.index ⟨(i 0).val / 16, hN⟩ (0 : Fin 2) * 16 ≤ (i 0).val
      ∧ (i 0).val < win1_4.index ⟨(i 0).val / 16, hN⟩ (0 : Fin 2) * 16 + 16
    omega
  | ⟨1, _⟩ =>
    show win1_4.index ⟨(i 0).val / 16, hN⟩ (1 : Fin 2) * 3 ≤ (i 1).val
      ∧ (i 1).val < win1_4.index ⟨(i 0).val / 16, hN⟩ (1 : Fin 2) * 3 + 3
    omega

end Pool

/-- Region 1's output array after its 4 points, from the contents `V` the region is entered with. -/
theorem region1_array (c : Dev nD) :
    (dat1 (F := Ideal) V c).arrAt 4 cfg1.N
      = (fun i : S64x3.Idx => Cert.Spec.logit
          (Cert.Spec.pooled (fun l h => (V c main_v10 : S64x256x600.Idx → EReal) (ix3 (i 0) l h))
            (fun l => (V c main_arg5 : S64x256.Idx → EReal) (ix2 (i 0) l)))
          (fun h k => (V c main_arg13 : S600x3.Idx → EReal) (ix2 h k))
          (fun k => (V c main_arg14 : S3.Idx → EReal) (ix1 k)) (i 1)) :=
  (dat1 (F := Ideal) V c).arrAt_eq_of_cover 4
    (Pool.logitsOf (V c main_v10) (V c main_arg5) (V c main_arg13) (V c main_arg14))
    (fun t _ => Pool.flushed_eq V c t) Pool.covered

end Cert.KernelIdeal.Reg

end
-- ==== Proof.KHost.lean ====
/-
  What the host operations around the two kernels leave in the parameter arrays the kernels read: the linear layer's
  weights and bias are slot 3 of their arrays, read through a slice and a reshape; the arguments are untouched;
  between the kernels the 16384 feature rows are laid out as 64 × 256.
-/
import proofs.«401989_j53884659695997_1_alg».proof.Proof.Gen.KernelIdeal.Frame
import proofs.«401989_j53884659695997_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arguments

No host operation writes an argument's buffer, and the first kernel's arrays are not among the second kernel's other
inputs: at each boundary an argument's buffer holds what the launch put there. -/

/-- A buffer that no operation of a stretch writes holds after the stretch what it held before. -/
local macro "unwritten" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by unwritten hostOps0_1
    _ = W0 m ρ c (Proc.devRef .tc main_arg5) := by unwritten hostOps0
    _ = m ((c : Thread nD τ).loc main_arg5) := rfl
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by unwritten hostOps0_1
    _ = W0 m ρ c (Proc.devRef .tc main_arg6) := by unwritten hostOps0
    _ = m ((c : Thread nD τ).loc main_arg6) := rfl
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by unwritten hostOps0_1
    _ = W0 m ρ c (Proc.devRef .tc main_arg7) := by unwritten hostOps0
    _ = m ((c : Thread nD τ).loc main_arg7) := rfl
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := by unwritten hostOps0_1
    _ = W0 m ρ c (Proc.devRef .tc main_arg11) := by unwritten hostOps0
    _ = m ((c : Thread nD τ).loc main_arg11) := rfl
theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := by unwritten hostOps0_1
    _ = W0 m ρ c (Proc.devRef .tc main_arg12) := by unwritten hostOps0
    _ = m ((c : Thread nD τ).loc main_arg12) := rfl
theorem W2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := by unwritten hostOps0_1
    _ = W0 m ρ c (Proc.devRef .tc main_arg13) := by unwritten hostOps0
    _ = m ((c : Thread nD τ).loc main_arg13) := rfl
theorem W2_arg14 (c : Dev nD) : W2 m ρ c (Proc.devRef .tc main_arg14) = m ((c : Thread nD τ).loc main_arg14) :=
  calc W2 m ρ c (Proc.devRef .tc main_arg14)
    _ = W1 m ρ c (Proc.devRef .tc main_arg14) := by unwritten hostOps0_1
    _ = W0 m ρ c (Proc.devRef .tc main_arg14) := by unwritten hostOps0
    _ = m ((c : Thread nD τ).loc main_arg14) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by unwritten hostOps0_2
    _ = m ((c : Thread nD τ).loc main_arg5) := W2_arg5 m ρ c
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by unwritten hostOps0_2
    _ = m ((c : Thread nD τ).loc main_arg11) := W2_arg11 m ρ c
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by unwritten hostOps0_2
    _ = m ((c : Thread nD τ).loc main_arg12) := W2_arg12 m ρ c
theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := by unwritten hostOps0_2
    _ = m ((c : Thread nD τ).loc main_arg13) := W2_arg13 m ρ c
theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := by unwritten hostOps0_2
    _ = m ((c : Thread nD τ).loc main_arg14) := W2_arg14 m ρ c

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by unwritten hostOps1
    _ = W3 m ρ c (Proc.devRef .tc main_arg5) := W4_of_ne m ρ c main_arg5 (by decide)
    _ = m ((c : Thread nD τ).loc main_arg5) := W3_arg5 m ρ c
theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := by unwritten hostOps1
    _ = W3 m ρ c (Proc.devRef .tc main_arg13) := W4_of_ne m ρ c main_arg13 (by decide)
    _ = m ((c : Thread nD τ).loc main_arg13) := W3_arg13 m ρ c
theorem W5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := by unwritten hostOps1
    _ = W3 m ρ c (Proc.devRef .tc main_arg14) := W4_of_ne m ρ c main_arg14 (by decide)
    _ = m ((c : Thread nD τ).loc main_arg14) := W3_arg14 m ρ c

/-! ## The computed buffers, as terms of what the stretch started from -/

/-- The weights' buffer after the last stretch before the first kernel: slot 3 cut out, its unit axis dropped. -/
theorem v6_of (X : Valuation τ sig (Elt Ideal)) :
    (StableHlo.after hostOps0_2 X (Proc.devRef .tc main_v6) : S768x600.Idx → EReal)
      = shapeCast S768x600 (extractStridedSlice S1x768x600 ![3, 0, 0] (X (Proc.devRef .tc main_arg6) : S4x768x600.Idx → EReal)
          slices_S4x768x600_S1x768x600_3_0_0) shapeCasts_S1x768x600_S768x600 := by
  after_results
  rfl

/-- The bias' buffer after the same stretch: slot 3 cut out, its unit axis dropped. -/
theorem v8_of (X : Valuation τ sig (Elt Ideal)) :
    (StableHlo.after hostOps0_2 X (Proc.devRef .tc main_v8) : S600.Idx → EReal)
      = shapeCast S600 (extractStridedSlice S1x600 ![3, 0] (X (Proc.devRef .tc main_arg7) : S4x600.Idx → EReal)
          slices_S4x600_S1x600_3_0) shapeCasts_S1x600_S600 := by
  after_results
  rfl

/-- The features' buffer after the stretch between the kernels: the first kernel's output with its rows regrouped. -/
theorem v10_of (X : Valuation τ sig (Elt Ideal)) :
    (StableHlo.after hostOps1 X (Proc.devRef .tc main_v10) : S64x256x600.Idx → EReal)
      = shapeCast S64x256x600 (X (Proc.devRef .tc main_v9) : S16384x600.Idx → EReal) shapeCasts_S16384x600_S64x256x600 := by
  after_results
  rfl

/-- A `[16384, 600]` array regrouped as `[64, 256, 600]` reads, at `(b, l, h)`, row `256 b + l` at `h`. -/
theorem regroup_apply {α : Type} (x : S16384x600.Idx → α) (hc : S16384x600.ShapeCasts S64x256x600)
    (b : Fin 64) (l : Fin 256) (h : Fin 600) :
    shapeCast S64x256x600 x hc (ix3 b l h) = x (ix2 ⟨b.val * 256 + l.val, by omega⟩ h) :=
  shapeCast_apply x hc _ _ (by
    rw [Shape.rowMajor_val_two, Shape.rowMajor_val_three]
    rfl)

/-! ## The eight facts -/

/-- The linear layer's weights: slot 3. -/
theorem weights_apply (c : Dev nD) (d : Fin 768) (h : Fin 600) :
    (V3 m ρ c main_v6 : S768x600.Idx → EReal) (ix2 d h)
      = (m ((c : Thread nD τ).loc main_arg6) : S4x768x600.Idx → EReal) (ix3 3 d h) := by
  refine (congrFun (v6_of (W2 m ρ c)) (ix2 d h)).trans ?_
  rw [W2_arg6 m ρ c, shapeCast_1ab_ab_apply]
  refine extractStridedSlice_apply _ _ _ _ _ fun ax => ?_
  match ax with
  | ⟨0, _⟩ => rfl
  | ⟨1, _⟩ => exact (Nat.zero_add _).symm
  | ⟨2, _⟩ => exact (Nat.zero_add _).symm

/-- The linear layer's bias: slot 3. -/
theorem bias_apply (c : Dev nD) (h : Fin 600) :
    (V3 m ρ c main_v8 : S600.Idx → EReal) (ix1 h)
      = (m ((c : Thread nD τ).loc main_arg7) : S4x600.Idx → EReal) (ix2 3 h) := by
  refine (congrFun (v8_of (W2 m ρ c)) (ix1 h)).trans ?_
  rw [W2_arg7 m ρ c, shapeCast_1a_a_apply]
  refine extractStridedSlice_apply _ _ _ _ _ fun ax => ?_
  match ax with
  | ⟨0, _⟩ => rfl
  | ⟨1, _⟩ => exact (Nat.zero_add _).symm

/-- The normalisation's gain and offset are the arguments. -/
theorem gain_eq (c : Dev nD) : V3 m ρ c main_arg11 = m ((c : Thread nD τ).loc main_arg11) := W3_arg11 m ρ c
theorem offset_eq (c : Dev nD) : V3 m ρ c main_arg12 = m ((c : Thread nD τ).loc main_arg12) := W3_arg12 m ρ c

/-- Between the kernels: feature row `256 b + l` becomes entry `(b, l)`. -/
theorem features_apply (c : Dev nD) (b : Fin 64) (l : Fin 256) (h : Fin 600) :
    (V5 m ρ c main_v10 : S64x256x600.Idx → EReal) (ix3 b l h)
      = ((dat0 (F := Ideal) (V3 m ρ) c).arrAt 5 cfg0.N : S16384x600.Idx → EReal) (ix2 ⟨b.val * 256 + l.val, by omega⟩ h) := by
  have e9 : (W4 m ρ c (Proc.devRef .tc main_v9) : S16384x600.Idx → EReal)
      = ((dat0 (F := Ideal) (V3 m ρ) c).arrAt 5 cfg0.N : S16384x600.Idx → EReal) := W4_arr m ρ c 5
  refine (congrFun (v10_of (W4 m ρ c)) (ix3 b l h)).trans ?_
  refine (regroup_apply _ _ b l h).trans ?_
  exact congrFun e9 _

/-- The second kernel's other inputs are the arguments. -/
theorem mask_eq (c : Dev nD) : V5 m ρ c main_arg5 = m ((c : Thread nD τ).loc main_arg5) := W5_arg5 m ρ c
theorem clsW_eq (c : Dev nD) : V5 m ρ c main_arg13 = m ((c : Thread nD τ).loc main_arg13) := W5_arg13 m ρ c
theorem clsb_eq (c : Dev nD) : V5 m ρ c main_arg14 = m ((c : Thread nD τ).loc main_arg14) := W5_arg14 m ρ c

end Cert.KernelIdeal.HostVal

end
-- ==== Proof.KTokens.lean ====
/-
  The token rows the first kernel reads. Row `256 b + l` of its input array is layer 12's row of batch entry `b` at
  the token position `tok b l`: the position word is below 256, so the normalisation of negative positions leaves it
  alone, the range test that guards the gathered row passes (the row is kept, not replaced by the filler), and the
  clamped read of the gather is the plain one.
-/
import proofs.«401989_j53884659695997_1_alg».proof.Proof.Gen.KernelIdeal.Frame
import proofs.«401989_j53884659695997_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

namespace Tokens

/-! ## Words below 256 -/

section Words
open Idealize.ShloMosaic.StableHlo.Predicate

/-- A word below 256 is not negative: the signed test against zero fails. -/
theorem slt_zero_of_small (x : BitVec 32) (hx : x.toNat < 256) : IntOp.cmpi .slt x 0#32 = 0#1 := by
  refine eq_zero_of_ne_one fun h => ?_
  have := (slt_iff_toNat (a := x) (b := 0#32) (by omega) (by decide)).mp h
  simp at this

/-- A word below 256 is at least zero, signed. -/
theorem sge_zero_of_small (x : BitVec 32) (hx : x.toNat < 256) : IntOp.cmpi .sge x 0#32 = 1#1 :=
  (sge_iff_toNat (a := x) (b := 0#32) (by omega) (by decide)).mpr (Nat.zero_le _)

/-- A word below 256 is at most 255, signed. -/
theorem sle_255_of_small (x : BitVec 32) (hx : x.toNat < 256) : IntOp.cmpi .sle x 255#32 = 1#1 :=
  (sle_iff_toNat (a := x) (b := 255#32) (by omega) (by decide)).mpr (by
    show x.toNat ≤ 255; omega)

/-- A fold by `and` from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x hx _

end Words

/-! ## The gather of rows along the token axis, read at an index -/

section Gather
open Idealize.ShloMosaic.StableHlo.Predicate

/-- The start-index position the gather reads for result position `(b, l, d)`: `(b, l, 0)`. -/
theorem gather_rows_siIdx (b : Fin 64) (l : Fin 256) (d : Fin 768)
    (c : Fin gather_S64x256x768_S64x256x1_S64x256x768_2_1_0_0_1_2_11768.startIndexMap.length) :
    gather_S64x256x768_S64x256x1_S64x256x768_2_1_0_0_1_2_11768.siIdx (ix3 b l d) c = ix3 b l 0 := by
  funext e
  match e with
  | ⟨0, _⟩ => rfl
  | ⟨1, _⟩ => rfl
  | ⟨2, _⟩ =>
    apply Fin.ext
    show c.val = 0
    have := c.isLt
    change c.val < 1 at this
    omega

/-- The gather at `(b, l, d)`, its start word below 256: the operand at `(b, word, d)`. Axis 0 is the batching axis (the
    result's coordinate `b`), axis 1 the collapsed one the start word names (its clamp to `[0, 255]` the identity), axis 2
    the offset axis (the result's coordinate `d`). -/
theorem gather_rows_apply {α : Type} (x : S64x256x768.Idx → α) (idx : IVec S64x256x1 32) (b : Fin 64) (l : Fin 256) (d : Fin 768)
    (hv : (idx (ix3 b l 0)).toNat < 256) :
    Host.gather gather_S64x256x768_S64x256x1_S64x256x768_2_1_0_0_1_2_11768 x idx (ix3 b l d)
      = x (ix3 b ⟨(idx (ix3 b l 0)).toNat, hv⟩ d) := by
  unfold Host.gather
  congr 1
  funext a
  apply Fin.ext
  match a with
  | ⟨0, _⟩ =>
    have h1 : gather_S64x256x768_S64x256x1_S64x256x768_2_1_0_0_1_2_11768.start (ix3 b l d) idx 0 = 0 := rfl
    have h2 : gather_S64x256x768_S64x256x1_S64x256x768_2_1_0_0_1_2_11768.batchCoord (ix3 b l d) 0 = b.val := rfl
    have h3 : gather_S64x256x768_S64x256x1_S64x256x768_2_1_0_0_1_2_11768.offCoord (ix3 b l d) 0 = 0 := rfl
    show gather_S64x256x768_S64x256x1_S64x256x768_2_1_0_0_1_2_11768.start (ix3 b l d) idx 0
      + gather_S64x256x768_S64x256x1_S64x256x768_2_1_0_0_1_2_11768.batchCoord (ix3 b l d) 0
      + gather_S64x256x768_S64x256x1_S64x256x768_2_1_0_0_1_2_11768.offCoord (ix3 b l d) 0 = b.val
    omega
  | ⟨1, _⟩ =>
    have h1 : gather_S64x256x768_S64x256x1_S64x256x768_2_1_0_0_1_2_11768.start (ix3 b l d) idx 1
        = min (idx (gather_S64x256x768_S64x256x1_S64x256x768_2_1_0_0_1_2_11768.siIdx (ix3 b l d) ⟨0, Nat.one_pos⟩)).toInt.toNat 255 := rfl
    have h2 : gather_S64x256x768_S64x256x1_S64x256x768_2_1_0_0_1_2_11768.batchCoord (ix3 b l d) 1 = 0 := rfl
    have h3 : gather_S64x256x768_S64x256x1_S64x256x768_2_1_0_0_1_2_11768.offCoord (ix3 b l d) 1 = 0 := rfl
    have h4 : (idx (ix3 b l 0)).toInt = ((idx (ix3 b l 0)).toNat : Int) := toInt_eq_toNat_of_lt (by omega)
    rw [gather_rows_siIdx, h4, Int.toNat_natCast] at h1
    show gather_S64x256x768_S64x256x1_S64x256x768_2_1_0_0_1_2_11768.start (ix3 b l d) idx 1
      + gather_S64x256x768_S64x256x1_S64x256x768_2_1_0_0_1_2_11768.batchCoord (ix3 b l d) 1
      + gather_S64x256x768_S64x256x1_S64x256x768_2_1_0_0_1_2_11768.offCoord (ix3 b l d) 1 = (idx (ix3 b l 0)).toNat
    omega
  | ⟨2, _⟩ =>
    have h1 : gather_S64x256x768_S64x256x1_S64x256x768_2_1_0_0_1_2_11768.start (ix3 b l d) idx 2 = 0 := rfl
    have h2 : gather_S64x256x768_S64x256x1_S64x256x768_2_1_0_0_1_2_11768.batchCoord (ix3 b l d) 2 = 0 := rfl
    have h3 : gather_S64x256x768_S64x256x1_S64x256x768_2_1_0_0_1_2_11768.offCoord (ix3 b l d) 2 = d.val := rfl
    show gather_S64x256x768_S64x256x1_S64x256x768_2_1_0_0_1_2_11768.start (ix3 b l d) idx 2
      + gather_S64x256x768_S64x256x1_S64x256x768_2_1_0_0_1_2_11768.batchCoord (ix3 b l d) 2
      + gather_S64x256x768_S64x256x1_S64x256x768_2_1_0_0_1_2_11768.offCoord (ix3 b l d) 2 = d.val
    omega

end Gather

/-! ## The host operations before the first kernel, as functions of the buffers they read -/

/-- The positions after the normalisation of negative ones: `p + 256` where `p` is negative, else `p`. -/
def normPos (p : S64x256x1.Idx → BitVec 32) : S64x256x1.Idx → BitVec 32 :=
  select (cmpi .slt p (broadcastInDim S64x256x1 ![] Facts₀.bcast_S_S64x256x1 (constantI S_ 32 0#32)))
    (addi p (broadcastInDim S64x256x1 ![] Facts₀.bcast_S_S64x256x1 (constantI S_ 32 256#32))) p

/-- The range test `0 ≤ n ≤ 255` of the normalised positions, reduced by `and` over the unit axis. -/
def inRange (n : S64x256x1.Idx → BitVec 32) : S64x256.Idx → BitVec 1 :=
  Host.reduce IntOp.andi
    (andi (cmpi .sge n (broadcastInDim S64x256x1 ![] Facts₀.bcast_S_S64x256x1 (constantI S_ 32 0#32)))
      (cmpi .sle n (broadcastInDim S64x256x1 ![0, 1, 2] Facts₀.bcast_S1x1x1_S64x256x1_0_1_2
        (broadcastInDim S1x1x1 ![2] Facts₀.bcast_S1_S1x1x1_2 (constantI S1 32 255#32)))))
    (constantI S_ 1 1#1) Facts₀.reducesTo_S64x256x1_S64x256_d2 Facts₀.h_S_

/-- The rows taken along the token axis: the gathered row where the range test passes, else the filler. -/
def takeRows (x : S64x256x768.Idx → EReal) (p : S64x256x1.Idx → BitVec 32) : S64x256x768.Idx → EReal :=
  select (broadcastInDim S64x256x768 ![0, 1] Facts₀.bcast_S64x256_S64x256x768_0_1 (inRange (normPos p)))
    (Host.gather gather_S64x256x768_S64x256x1_S64x256x768_2_1_0_0_1_2_11768 x (normPos p))
    (broadcastInDim S64x256x768 ![] Facts₀.bcast_S_S64x256x768 (constant (F := Ideal) S_ .f32 0x7FC00000#32))

section Folds
open Idealize.ShloMosaic.StableHlo

/-- The last stretch at the kernel's input: the reshape of the taken rows. -/
theorem after2_main_v4 (V : Valuation τ sig (Elt Ideal)) :
    (StableHlo.after (hostOps0_2 (F := Ideal)) V (Proc.devRef .tc main_v4) : S16384x768.Idx → EReal)
      = shapeCast S16384x768 (V (Proc.devRef .tc main_v3) : S64x256x768.Idx → EReal) Facts₀.shapeCasts_S64x256x768_S16384x768 := by
  after_results
  rfl

/-- The first stretch at the layer's buffer: layer 12 of the hidden states. -/
theorem after0_main_v1 (V : Valuation τ sig (Elt Ideal)) :
    (StableHlo.after (hostOps0 (F := Ideal)) V (Proc.devRef .tc main_v1) : S64x256x768.Idx → EReal)
      = shapeCast S64x256x768 (extractStridedSlice S1x64x256x768 ![12, 0, 0, 0] (V (Proc.devRef .tc main_arg0) : S13x64x256x768.Idx → EReal)
          Facts₀.slices_S13x64x256x768_S1x64x256x768_12_0_0_0) Facts₀.shapeCasts_S1x64x256x768_S64x256x768 := by
  after_results
  rfl

/-- The first stretch at the positions' buffer: the position words with a unit axis. -/
theorem after0_main_v2 (V : Valuation τ sig (Elt Ideal)) :
    (StableHlo.after (hostOps0 (F := Ideal)) V (Proc.devRef .tc main_v2) : S64x256x1.Idx → BitVec 32)
      = broadcastInDim S64x256x1 ![0, 1] Facts₀.bcast_S64x256_S64x256x1_0_1 (V (Proc.devRef .tc main_arg3) : S64x256.Idx → BitVec 32) := by
  after_results

set_option maxHeartbeats 2000000 in
/-- The middle stretch at its result: the rows taken from the layer at the positions. -/
theorem after1_main_v3 (V : Valuation τ sig (Elt Ideal)) :
    (StableHlo.after (hostOps0_1 (F := Ideal)) V (Proc.devRef .tc main_v3) : S64x256x768.Idx → EReal)
      = takeRows (V (Proc.devRef .tc main_v1) : S64x256x768.Idx → EReal) (V (Proc.devRef .tc main_v2) : S64x256x1.Idx → BitVec 32) := by
  after_results
  simp only [TRef.ofBuf, TRef.toBuf, cast_eq]
  rfl

end Folds

/-! ## The taken rows at an index -/

/-- Positions below 256 are left alone by the normalisation. -/
theorem normPos_apply (p : S64x256x1.Idx → BitVec 32) (hp : ∀ i, (p i).toNat < 256) (i : S64x256x1.Idx) : normPos p i = p i := by
  show Scalar.select (IntOp.cmpi .slt (p i) 0#32) (IntOp.addi (p i) 256#32) (p i) = p i
  rw [slt_zero_of_small _ (hp i), select_zero]

/-- Positions below 256 pass the range test everywhere. -/
theorem inRange_apply (n : S64x256x1.Idx → BitVec 32) (hn : ∀ i, (n i).toNat < 256) (j : S64x256.Idx) : inRange n j = 1#1 := by
  unfold inRange
  refine reduce_andi_one _ _ _ _ (fun i => ?_) rfl j
  show IntOp.andi (IntOp.cmpi .sge (n i) 0#32) (IntOp.cmpi .sle (n i) 255#32) = 1#1
  rw [sge_zero_of_small _ (hn i), sle_255_of_small _ (hn i)]
  decide

/-- The taken rows at `(b, l, d)`, every position below 256: the operand's row at the position of `(b, l)`. -/
theorem takeRows_apply (x : S64x256x768.Idx → EReal) (p : S64x256x1.Idx → BitVec 32) (hp : ∀ i, (p i).toNat < 256)
    (b : Fin 64) (l : Fin 256) (d : Fin 768) :
    takeRows x p (ix3 b l d) = x (ix3 b ⟨(p (ix3 b l 0)).toNat, hp _⟩ d) := by
  have hn : ∀ i, (normPos p i).toNat < 256 := fun i => by rw [normPos_apply p hp]; exact hp i
  have hone : broadcastInDim S64x256x768 ![0, 1] Facts₀.bcast_S64x256_S64x256x768_0_1 (inRange (normPos p)) (ix3 b l d) = 1#1 := by
    unfold broadcastInDim
    exact inRange_apply _ hn _
  unfold takeRows
  rw [select_apply, hone, select_one, gather_rows_apply x (normPos p) b l d (hn _)]
  refine congrArg x (funext fun a => ?_)
  match a with
  | ⟨0, _⟩ => rfl
  | ⟨1, _⟩ => exact Fin.ext (congrArg BitVec.toNat (normPos_apply p hp _))
  | ⟨2, _⟩ => rfl

/-- The first kernel's input array as the host operations leave it: the reshape of the rows taken from layer 12 at the
    position words. -/
theorem V3_main_v4 (c : Dev nD) :
    (V3 m ρ c main_v4 : S16384x768.Idx → EReal)
      = shapeCast S16384x768
          (takeRows
            (shapeCast S64x256x768 (extractStridedSlice S1x64x256x768 ![12, 0, 0, 0]
                (m ((c : Thread nD τ).loc main_arg0) : S13x64x256x768.Idx → EReal)
                Facts₀.slices_S13x64x256x768_S1x64x256x768_12_0_0_0) Facts₀.shapeCasts_S1x64x256x768_S64x256x768)
            (broadcastInDim S64x256x1 ![0, 1] Facts₀.bcast_S64x256_S64x256x1_0_1
              (m ((c : Thread nD τ).loc main_arg3) : S64x256.Idx → BitVec 32)))
          Facts₀.shapeCasts_S64x256x768_S16384x768 := by
  show StableHlo.after hostOps0_2 (StableHlo.after hostOps0_1 (StableHlo.after hostOps0 (W0 m ρ c))) (Proc.devRef .tc main_v4) = _
  rw [after2_main_v4, after1_main_v3, after0_main_v1, after0_main_v2]

end Tokens

open Tokens in
/-- The token rows the first kernel reads. -/
theorem tokens_apply (c : Dev nD)
    (hts : Cert.Spec.InRange (m ((c : Thread nD τ).loc main_arg3) : S64x256.Idx → BitVec 32))
    (b : Fin 64) (l : Fin 256) (d : Fin 768) :
    (V3 m ρ c main_v4 : S16384x768.Idx → EReal) (ix2 ⟨b.val * 256 + l.val, by omega⟩ d)
      = (m ((c : Thread nD τ).loc main_arg0) : S13x64x256x768.Idx → EReal)
          (ix4 12 b (Cert.Spec.tok (m ((c : Thread nD τ).loc main_arg3) : S64x256.Idx → BitVec 32) b l) d) := by
  rw [V3_main_v4]
  generalize (m ((c : Thread nD τ).loc main_arg0) : S13x64x256x768.Idx → EReal) = A
  generalize hT : (m ((c : Thread nD τ).loc main_arg3) : S64x256.Idx → BitVec 32) = ts at hts ⊢
  -- the reshape: row `256 b + l` is `(b, l)`
  rw [shapeCast_apply _ _ _ (ix3 b l d) (by
    rw [Shape.rowMajor_val_three, Shape.rowMajor_val_two]
    rfl)]
  -- the position words with their unit axis are below 256
  have hp : ∀ i, (broadcastInDim S64x256x1 ![0, 1] Facts₀.bcast_S64x256_S64x256x1_0_1 ts i).toNat < 256 := fun i => by
    unfold broadcastInDim
    exact hts _
  rw [takeRows_apply _ _ hp, shapeCast_1abc_abc_apply]
  -- the slice of layer 12
  refine (extractStridedSlice_apply _ A _ _ (ix4 12 b (Cert.Spec.tok ts b l) d) fun a => ?_)
  have hw : broadcastInDim S64x256x1 ![0, 1] Facts₀.bcast_S64x256_S64x256x1_0_1 ts (ix3 b l 0) = ts (ix2 b l) :=
    broadcastInDim_apply _ _ ts _ (ix2 b l) fun a => by
      match a with
      | ⟨0, _⟩ => rfl
      | ⟨1, _⟩ => rfl
  match a with
  | ⟨0, _⟩ => rfl
  | ⟨1, _⟩ => show b.val = 0 + b.val; omega
  | ⟨2, _⟩ =>
    show (ts (ix2 b l)).toNat % 256 = 0 + (broadcastInDim S64x256x1 ![0, 1] Facts₀.bcast_S64x256_S64x256x1_0_1 ts (ix3 b l 0)).toNat
    rw [hw, Nat.zero_add, Nat.mod_eq_of_lt (hts _)]
  | ⟨3, _⟩ => show d.val = 0 + d.val; omega

end Cert.KernelIdeal.HostVal

end
-- ==== Proof.KValue.lean ====
/-
  The kernel program's result array as one function of its arguments: the second kernel's array over the first
  kernel's array over the token rows the host operations prepare, each stage read entry by entry, is `Spec.logits`.
-/
import proofs.«401989_j53884659695997_1_alg».proof.Proof.KReg0
import proofs.«401989_j53884659695997_1_alg».proof.Proof.KReg1
import proofs.«401989_j53884659695997_1_alg».proof.Proof.KHost
import proofs.«401989_j53884659695997_1_alg».proof.Proof.KTokens

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The features the second kernel reads at `(b, l, h)` are `Spec.feat` of the arguments. -/
theorem features_eq (c : Dev nD)
    (hts : Cert.Spec.InRange (m ((c : Thread nD τ).loc main_arg3) : S64x256.Idx → BitVec 32))
    (b : Fin 64) (l : Fin 256) (h : Fin 600) :
    (V5 m ρ c main_v10 : S64x256x600.Idx → EReal) (ix3 b l h)
      = Cert.Spec.feat (m ((c : Thread nD τ).loc main_arg0) : S13x64x256x768.Idx → EReal)
          (m ((c : Thread nD τ).loc main_arg3) : S64x256.Idx → BitVec 32)
          (m ((c : Thread nD τ).loc main_arg6) : S4x768x600.Idx → EReal)
          (m ((c : Thread nD τ).loc main_arg7) : S4x600.Idx → EReal)
          (m ((c : Thread nD τ).loc main_arg11) : S600.Idx → EReal)
          (m ((c : Thread nD τ).loc main_arg12) : S600.Idx → EReal) b l h := by
  rw [HostVal.features_apply m ρ c b l h, Reg.region0_array (V3 m ρ) c]
  unfold Cert.Spec.feat
  show Cert.Spec.featRow _ _ _ _ _ h = _
  have e0 : (fun d : Fin 768 => (V3 m ρ c main_v4 : S16384x768.Idx → EReal) (ix2 ⟨b.val * 256 + l.val, by omega⟩ d))
      = fun d => (m ((c : Thread nD τ).loc main_arg0) : S13x64x256x768.Idx → EReal)
          (ix4 12 b (Cert.Spec.tok (m ((c : Thread nD τ).loc main_arg3) : S64x256.Idx → BitVec 32) b l) d) :=
    funext fun d => HostVal.tokens_apply m ρ c hts b l d
  have e1 : (fun (d : Fin 768) (h : Fin 600) => (V3 m ρ c main_v6 : S768x600.Idx → EReal) (ix2 d h))
      = fun d h => (m ((c : Thread nD τ).loc main_arg6) : S4x768x600.Idx → EReal) (ix3 3 d h) :=
    funext fun d => funext fun h => HostVal.weights_apply m ρ c d h
  have e2 : (fun h : Fin 600 => (V3 m ρ c main_v8 : S600.Idx → EReal) (ix1 h))
      = fun h => (m ((c : Thread nD τ).loc main_arg7) : S4x600.Idx → EReal) (ix2 3 h) :=
    funext fun h => HostVal.bias_apply m ρ c h
  exact (congrArg (fun x => Cert.Spec.featRow x _ _ _ _ h) e0).trans
    ((congrArg (fun W => Cert.Spec.featRow _ W _ _ _ h) e1).trans
      ((congrArg (fun bb => Cert.Spec.featRow _ _ bb _ _ h) e2).trans
        (by rw [HostVal.gain_eq m ρ c, HostVal.offset_eq m ρ c])))

/-- The result array after the run. -/
theorem kernel_value (c : Dev nD)
    (hts : Cert.Spec.InRange (m ((c : Thread nD τ).loc main_arg3) : S64x256.Idx → BitVec 32)) :
    (W6 m ρ c (Proc.devRef .tc main_v11) : S64x3.Idx → EReal)
      = Cert.Spec.logits (m ((c : Thread nD τ).loc main_arg0) : S13x64x256x768.Idx → EReal)
          (m ((c : Thread nD τ).loc main_arg3) : S64x256.Idx → BitVec 32)
          (m ((c : Thread nD τ).loc main_arg5) : S64x256.Idx → EReal)
          (m ((c : Thread nD τ).loc main_arg6) : S4x768x600.Idx → EReal)
          (m ((c : Thread nD τ).loc main_arg7) : S4x600.Idx → EReal)
          (m ((c : Thread nD τ).loc main_arg11) : S600.Idx → EReal)
          (m ((c : Thread nD τ).loc main_arg12) : S600.Idx → EReal)
          (m ((c : Thread nD τ).loc main_arg13) : S600x3.Idx → EReal)
          (m ((c : Thread nD τ).loc main_arg14) : S3.Idx → EReal) := by
  have e : W6 m ρ c (Proc.devRef .tc main_v11) = (dat1 (F := Ideal) (V5 m ρ) c).arrAt 4 cfg1.N := W6_arr m ρ c 4
  rw [e, Reg.region1_array (V5 m ρ) c]
  funext i
  unfold Cert.Spec.logits
  have ef : (fun (l : Fin 256) (h : Fin 600) => (V5 m ρ c main_v10 : S64x256x600.Idx → EReal) (ix3 (i 0) l h))
      = fun l h => Cert.Spec.feat (m ((c : Thread nD τ).loc main_arg0) : S13x64x256x768.Idx → EReal)
          (m ((c : Thread nD τ).loc main_arg3) : S64x256.Idx → BitVec 32)
          (m ((c : Thread nD τ).loc main_arg6) : S4x768x600.Idx → EReal)
          (m ((c : Thread nD τ).loc main_arg7) : S4x600.Idx → EReal)
          (m ((c : Thread nD τ).loc main_arg11) : S600.Idx → EReal)
          (m ((c : Thread nD τ).loc main_arg12) : S600.Idx → EReal) (i 0) l h :=
    funext fun l => funext fun h => features_eq m ρ c hts (i 0) l h
  rw [HostVal.mask_eq m ρ c, HostVal.clsW_eq m ρ c, HostVal.clsb_eq m ρ c]
  exact congrArg (fun f => Cert.Spec.logit (Cert.Spec.pooled f _) _ _ (i 1)) ef

end Cert.KernelIdeal.KVal

end
-- ==== Proof.RGather.lean ====
/-
  The reference's token rows: entry `(b, l)` of its layer-12 array is layer 12's row of batch entry `b` at the token
  position `tok b l`. The position word is below 256, so the normalisation of negative positions leaves it alone and
  the clamped read of the gather is the plain one; the two transposes around the gather swap the layer and batch axes
  forth and back.
-/
import proofs.«401989_j53884659695997_1_alg».proof.Proof.RefRead
import proofs.«401989_j53884659695997_1_alg».proof.Proof.Spec
import Idealize.ShloMosaic.Lib.StableHlo.Predicate
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefVal

open Cert.ReferenceIdeal Cert.ReferenceIdeal.Gen Cert.ReferenceIdeal.ReadP Idealize.ShloMosaic Idealize.ShloMosaic.ValueIdx

namespace Gather

/-! ## Words below 256 -/

/-- A word below 256 is not negative: the signed comparison with zero answers the bit `0`. -/
theorem word_slt_zero (x : BitVec 32) (hx : x.toNat < 256) : IntOp.cmpi .slt x 0#32 = 0#1 := by
  apply eq_zero_of_ne_one
  intro h
  have h' := (StableHlo.Predicate.slt_iff_toNat (a := x) (b := 0#32) (by omega) (by decide)).mp h
  simp at h'

/-- So the normalisation `if x < 0 then x + 256 else x` leaves it alone. -/
theorem word_normalise (x : BitVec 32) (hx : x.toNat < 256) :
    Scalar.select (IntOp.cmpi .slt x 0#32) (IntOp.addi x 256#32) x = x := by
  rw [word_slt_zero x hx, select_zero]

/-- Read signed and clamped into `[0, 255]`, it is its own value. -/
theorem word_clamp (x : BitVec 32) (hx : x.toNat < 256) : min x.toInt.toNat (256 - 1) = x.toNat := by
  rw [StableHlo.Predicate.toInt_eq_toNat_of_lt (a := x) (by omega)]
  simp only [Int.toNat_natCast]
  omega

/-! ## The position words the gather reads -/

theorem idx_v5 (b : Fin 64) (l : Fin 256) : idx_main_v5 (ix3 b l (0 : Fin 1)) = ix2 b l :=
  funext fun a => Fin.ext (by match a with | ⟨0, _⟩ => rfl | ⟨1, _⟩ => rfl)

/-- The normalised positions at `(b, l)`: the position word itself when it is below 256. -/
theorem v4_apply (x3 : (⟨S64x256, .i32⟩ : BufTy).Contents (Elt Ideal)) (b : Fin 64) (l : Fin 256)
    (hx : (x3 (ix2 b l)).toNat < 256) :
    val_main_v4 (F := Ideal) x3 (ix2 b l) = x3 (ix2 b l) := by
  rw [val_main_v4_apply, val_main_v1_apply, val_main_v3_apply, val_main_v0_apply, val_main_v2_apply,
    val_main_c_apply, val_main_c_0_apply]
  exact word_normalise _ hx

/-- The start indices at `(b, l, 0)`. -/
theorem v5_apply (x3 : (⟨S64x256, .i32⟩ : BufTy).Contents (Elt Ideal)) (b : Fin 64) (l : Fin 256)
    (hx : (x3 (ix2 b l)).toNat < 256) :
    val_main_v5 (F := Ideal) x3 (ix3 b l (0 : Fin 1)) = x3 (ix2 b l) := by
  rw [val_main_v5_apply, idx_v5, v4_apply x3 b l hx]

/-! ## The gather read at an index -/

section Read
variable {α : Type}

/-- The start-indices index at which result index `(b, a, l, d)` reads its start index: `(b, l, 0)`. -/
theorem gather_siIdx (b : Fin 64) (a : Fin 13) (l : Fin 256) (d : Fin 768)
    (c : Fin gather_S64x13x256x768_S64x256x1_S64x13x256x768_13_2_0_0_2_2_1131768.startIndexMap.length) :
    gather_S64x13x256x768_S64x256x1_S64x13x256x768_13_2_0_0_2_2_1131768.siIdx (ix4 b a l d) c = ix3 b l (0 : Fin 1) := by
  funext e
  refine Fin.ext ?_
  match e with
  | ⟨0, _⟩ => rfl
  | ⟨1, _⟩ => rfl
  | ⟨2, _⟩ =>
    have hc : c.val < 1 := c.isLt
    show c.val = 0
    omega

/-- THE GATHER READ AT `(b, a, l, d)`: the batch axis 0 keeps `b`, the offset axes 1 and 3 keep `a` and `d`, and the
    collapsed axis 2 reads the start index at `(b, l, 0)`, which when it is below 256 is neither negative nor clamped. -/
theorem gather_apply (x : S64x13x256x768.Idx → α) (idx : IVec S64x256x1 32)
    (b : Fin 64) (a : Fin 13) (l : Fin 256) (d : Fin 768) (hv : (idx (ix3 b l (0 : Fin 1))).toNat < 256) :
    Host.gather gather_S64x13x256x768_S64x256x1_S64x13x256x768_13_2_0_0_2_2_1131768 x idx (ix4 b a l d)
      = x (ix4 b a (⟨(idx (ix3 b l (0 : Fin 1))).toNat, hv⟩ : Fin 256) d) := by
  unfold Host.gather
  congr 1
  funext e
  refine Fin.ext ?_
  match e with
  | ⟨0, _⟩ =>
    show GatherDims.start _ _ idx (⟨0, by decide⟩ : Fin S64x13x256x768.rank) + GatherDims.batchCoord _ _ (⟨0, by decide⟩ : Fin S64x13x256x768.rank)
      + GatherDims.offCoord _ _ (⟨0, by decide⟩ : Fin S64x13x256x768.rank) = b.val
    rw [GatherDims.start_batching _ _ _ _ (by decide), GatherDims.offCoord_eq_zero _ _ _ (by decide)]
    simp only [Nat.zero_add, Nat.add_zero]
    rfl
  | ⟨1, _⟩ =>
    show GatherDims.start _ _ idx (⟨1, by decide⟩ : Fin S64x13x256x768.rank) + GatherDims.batchCoord _ _ (⟨1, by decide⟩ : Fin S64x13x256x768.rank)
      + GatherDims.offCoord _ _ (⟨1, by decide⟩ : Fin S64x13x256x768.rank) = a.val
    rw [GatherDims.batchCoord_eq_zero _ _ _ (by decide)]
    unfold GatherDims.start
    rw [dif_neg (by decide)]
    simp only [Nat.zero_add, Nat.add_zero]
    rfl
  | ⟨2, _⟩ =>
    show GatherDims.start _ _ idx (⟨2, by decide⟩ : Fin S64x13x256x768.rank) + GatherDims.batchCoord _ _ (⟨2, by decide⟩ : Fin S64x13x256x768.rank)
      + GatherDims.offCoord _ _ (⟨2, by decide⟩ : Fin S64x13x256x768.rank) = (idx (ix3 b l (0 : Fin 1))).toNat
    rw [GatherDims.batchCoord_eq_zero _ _ _ (by decide), GatherDims.offCoord_eq_zero _ _ _ (by decide)]
    simp only [Nat.add_zero]
    unfold GatherDims.start
    rw [dif_pos (by decide), gather_siIdx]
    exact word_clamp _ hv
  | ⟨3, _⟩ =>
    show GatherDims.start _ _ idx (⟨3, by decide⟩ : Fin S64x13x256x768.rank) + GatherDims.batchCoord _ _ (⟨3, by decide⟩ : Fin S64x13x256x768.rank)
      + GatherDims.offCoord _ _ (⟨3, by decide⟩ : Fin S64x13x256x768.rank) = d.val
    rw [GatherDims.batchCoord_eq_zero _ _ _ (by decide)]
    unfold GatherDims.start
    rw [dif_neg (by decide)]
    simp only [Nat.zero_add, Nat.add_zero]
    rfl

end Read

/-! ## The layout operations around the gather, at explicit coordinates -/

theorem idx_v6 (b : Fin 64) (a : Fin 13) (t : Fin 256) (d : Fin 768) : idx_main_v6 (ix4 b a t d) = ix4 a b t d :=
  funext fun e => Fin.ext (by match e with | ⟨0, _⟩ => rfl | ⟨1, _⟩ => rfl | ⟨2, _⟩ => rfl | ⟨3, _⟩ => rfl)

theorem idx_v8 (a : Fin 13) (b : Fin 64) (l : Fin 256) (d : Fin 768) : idx_main_v8 (ix4 a b l d) = ix4 b a l d :=
  funext fun e => Fin.ext (by match e with | ⟨0, _⟩ => rfl | ⟨1, _⟩ => rfl | ⟨2, _⟩ => rfl | ⟨3, _⟩ => rfl)

theorem idx_v246 (b : Fin 64) (l : Fin 256) (d : Fin 768) :
    idx_main_v246 (ix4 (0 : Fin 1) b l d) = ix4 (12 : Fin 13) b l d :=
  funext fun e => Fin.ext (by match e with | ⟨0, _⟩ => rfl | ⟨1, _⟩ => rfl | ⟨2, _⟩ => rfl | ⟨3, _⟩ => rfl)

theorem idx_v247 (b : Fin 64) (l : Fin 256) (d : Fin 768) :
    idx_main_v247 (ix3 b l d) = ix4 (0 : Fin 1) b l d := by
  have hb : b.val < 64 := b.isLt
  have hl : l.val < 256 := l.isLt
  have hd : d.val < 768 := d.isLt
  funext e
  refine Fin.ext ?_
  match e with
  | ⟨0, _⟩ => rfl
  | ⟨1, _⟩ => show ((b.val * 256 + l.val) * 768 + d.val) / 196608 % 64 = b.val; omega
  | ⟨2, _⟩ => show ((b.val * 256 + l.val) * 768 + d.val) / 768 % 256 = l.val; omega
  | ⟨3, _⟩ => show ((b.val * 256 + l.val) * 768 + d.val) % 768 = d.val; omega

/-- The hidden states with the batch axis first, at `(b, a, t, d)`: layer `a` of batch entry `b`. -/
theorem v6_apply (x0 : (⟨S13x64x256x768, .f32⟩ : BufTy).Contents (Elt Ideal)) (b : Fin 64) (a : Fin 13) (t : Fin 256) (d : Fin 768) :
    val_main_v6 (F := Ideal) x0 (ix4 b a t d) = x0 (ix4 a b t d) := by
  rw [val_main_v6_apply, idx_v6]

/-- The gathered rows at `(b, a, l, d)`: layer `a` of batch entry `b` at the position the word at `(b, l)` names. -/
theorem v7_apply (x0 : (⟨S13x64x256x768, .f32⟩ : BufTy).Contents (Elt Ideal)) (x3 : (⟨S64x256, .i32⟩ : BufTy).Contents (Elt Ideal))
    (b : Fin 64) (a : Fin 13) (l : Fin 256) (d : Fin 768) (hx : (x3 (ix2 b l)).toNat < 256) :
    val_main_v7 (F := Ideal) x0 x3 (ix4 b a l d) = x0 (ix4 a b (⟨(x3 (ix2 b l)).toNat, hx⟩ : Fin 256) d) := by
  have h5 := v5_apply x3 b l hx
  have hv : (val_main_v5 (F := Ideal) x3 (ix3 b l (0 : Fin 1))).toNat < 256 := by rw [h5]; exact hx
  unfold val_main_v7
  rw [gather_apply (val_main_v6 (F := Ideal) x0) (val_main_v5 (F := Ideal) x3) b a l d hv, v6_apply]
  congr 2
  exact Fin.ext (congrArg BitVec.toNat h5)

/-- The gathered rows with the layer axis first again. -/
theorem v8_apply (x0 : (⟨S13x64x256x768, .f32⟩ : BufTy).Contents (Elt Ideal)) (x3 : (⟨S64x256, .i32⟩ : BufTy).Contents (Elt Ideal))
    (a : Fin 13) (b : Fin 64) (l : Fin 256) (d : Fin 768) (hx : (x3 (ix2 b l)).toNat < 256) :
    val_main_v8 (F := Ideal) x0 x3 (ix4 a b l d) = x0 (ix4 a b (⟨(x3 (ix2 b l)).toNat, hx⟩ : Fin 256) d) := by
  rw [val_main_v8_apply, idx_v8, v7_apply x0 x3 b a l d hx]

/-- Layer 12's slice of them. -/
theorem v246_apply (x0 : (⟨S13x64x256x768, .f32⟩ : BufTy).Contents (Elt Ideal)) (x3 : (⟨S64x256, .i32⟩ : BufTy).Contents (Elt Ideal))
    (b : Fin 64) (l : Fin 256) (d : Fin 768) (hx : (x3 (ix2 b l)).toNat < 256) :
    val_main_v246 (F := Ideal) x0 x3 (ix4 (0 : Fin 1) b l d) = x0 (ix4 (12 : Fin 13) b (⟨(x3 (ix2 b l)).toNat, hx⟩ : Fin 256) d) := by
  rw [val_main_v246_apply, idx_v246, v8_apply x0 x3 12 b l d hx]

/-! ## The token rows -/

/-- A position word below 256 names itself. -/
theorem tok_eq (x3 : (⟨S64x256, .i32⟩ : BufTy).Contents (Elt Ideal)) (b : Fin 64) (l : Fin 256) (hx : (x3 (ix2 b l)).toNat < 256) :
    Cert.Spec.tok x3 b l = (⟨(x3 (ix2 b l)).toNat, hx⟩ : Fin 256) :=
  Fin.ext (Nat.mod_eq_of_lt hx)

end Gather

/-! ## The reference's layer-12 array at an index -/

theorem gathered_apply (x0 : (⟨S13x64x256x768, .f32⟩ : BufTy).Contents (Elt Ideal)) (x3 : (⟨S64x256, .i32⟩ : BufTy).Contents (Elt Ideal))
    (hts : Cert.Spec.InRange x3) (b : Fin 64) (l : Fin 256) (d : Fin 768) :
    val_main_v247 (F := Ideal) x0 x3 (ix3 b l d) = x0 (ix4 12 b (Cert.Spec.tok x3 b l) d) := by
  have hx : (x3 (ix2 b l)).toNat < 256 := hts (ix2 b l)
  rw [val_main_v247_apply, Gather.idx_v247, Gather.v246_apply x0 x3 b l d hx, Gather.tok_eq x3 b l hx]

end Cert.ReferenceIdeal.RefVal

end
-- ==== Proof.RFeat.lean ====
/-
  The reference's feature array: entry `(b, l, h)` is the linear layer, rectifier and layer normalisation
  (`Spec.featRow`) of its token row `(b, l)`, with slot 3 of the linear layer's parameters. Its two sums over the
  600 features start from the zero word, which adds nothing.
-/
import proofs.«401989_j53884659695997_1_alg».proof.Proof.RefRead
import proofs.«401989_j53884659695997_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefVal

open Cert.ReferenceIdeal Cert.ReferenceIdeal.Gen Cert.ReferenceIdeal.ReadP Idealize.ShloMosaic Idealize.ShloMosaic.ValueIdx

namespace Feat

section Stages

variable (x0 : (⟨S13x64x256x768, .f32⟩ : BufTy).Contents (Elt Ideal)) (x3 : (⟨S64x256, .i32⟩ : BufTy).Contents (Elt Ideal))
  (x6 : (⟨S4x768x600, .f32⟩ : BufTy).Contents (Elt Ideal)) (x7 : (⟨S4x600, .f32⟩ : BufTy).Contents (Elt Ideal))
  (x11 x12 : (⟨S600, .f32⟩ : BufTy).Contents (Elt Ideal))

/-- Slot 3 of the weights, as a 768 × 600 matrix. -/
theorem weight_at (d : Fin 768) (h : Fin 600) :
    val_main_v249 (F := Ideal) x6 (ix2 d h) = x6 (ix3 3 d h) := by
  rw [val_main_v249_apply, val_main_v248_apply]
  refine congrArg x6 (funext fun a => Fin.ext ?_)
  have hd : d.val < 768 := d.isLt
  have hh : h.val < 600 := h.isLt
  match a with
  | ⟨0, _⟩ => rfl
  | ⟨1, _⟩ => show (d.val * 600 + h.val) / 600 % 768 = d.val; omega
  | ⟨2, _⟩ => show (d.val * 600 + h.val) % 600 = h.val; omega

/-- Slot 3 of the biases, spread over every token row. -/
theorem bias_at (b : Fin 64) (l : Fin 256) (h : Fin 600) :
    val_main_v254 (F := Ideal) x7 (ix3 b l h) = x7 (ix2 3 h) := by
  rw [val_main_v254_apply, val_main_v253_apply, val_main_v252_apply, val_main_v251_apply]
  refine congrArg x7 (funext fun a => Fin.ext ?_)
  have hh : h.val < 600 := h.isLt
  match a with
  | ⟨0, _⟩ => rfl
  | ⟨1, _⟩ => show h.val % 600 = h.val; omega

/-- The linear layer: row `(b, l)` against column `h` of slot 3. -/
theorem linear_at (b : Fin 64) (l : Fin 256) (h : Fin 600) :
    val_main_v250 (F := Ideal) x0 x3 x6 (ix3 b l h)
      = ∑ d : Fin 768, val_main_v247 (F := Ideal) x0 x3 (ix3 b l d) * x6 (ix3 3 d h) := by
  rw [val_main_v250_apply]
  refine Finset.sum_congr rfl fun d _ => ?_
  have el : lidx_main_v250 (ix3 b l h) d = ix3 b l d :=
    funext fun a => Fin.ext (by match a with | ⟨0, _⟩ => rfl | ⟨1, _⟩ => rfl | ⟨2, _⟩ => rfl)
  have er : ridx_main_v250 (ix3 b l h) d = ix2 d h :=
    funext fun a => Fin.ext (by match a with | ⟨0, _⟩ => rfl | ⟨1, _⟩ => rfl)
  rw [el, er, weight_at]

/-- The rectified linear layer is `Spec.act` of the row. -/
theorem act_at (b : Fin 64) (l : Fin 256) (h : Fin 600) :
    val_main_v256 (F := Ideal) x0 x3 x6 x7 (ix3 b l h)
      = Cert.Spec.act (fun d => val_main_v247 (F := Ideal) x0 x3 (ix3 b l d)) (fun d h => x6 (ix3 3 d h))
          (fun h => x7 (ix2 3 h)) h := by
  rw [val_main_v256_apply, val_main_v255_apply, linear_at, bias_at, val_main_call7_v0_apply, val_main_call7_cst_apply]
  simp only [Ideal.maximumf_def, Ideal.addf_def, Ideal.ofBits_def]
  rfl

end Stages

section Norm

variable (x0 : (⟨S13x64x256x768, .f32⟩ : BufTy).Contents (Elt Ideal)) (x3 : (⟨S64x256, .i32⟩ : BufTy).Contents (Elt Ideal))
  (x6 : (⟨S4x768x600, .f32⟩ : BufTy).Contents (Elt Ideal)) (x7 : (⟨S4x600, .f32⟩ : BufTy).Contents (Elt Ideal))
  (x11 x12 : (⟨S600, .f32⟩ : BufTy).Contents (Elt Ideal))

/-- The rectified row `(b, l)`, as a function of the feature. -/
abbrev actRow (b : Fin 64) (l : Fin 256) : Fin 600 → EReal :=
  Cert.Spec.act (fun d => val_main_v247 (F := Ideal) x0 x3 (ix3 b l d)) (fun d h => x6 (ix3 3 d h))
    (fun h => x7 (ix2 3 h))

/-- The row's sum: the zero word it starts from adds nothing. -/
theorem rowSum_at (b : Fin 64) (l : Fin 256) :
    val_main_v257 (F := Ideal) x0 x3 x6 x7 (ix2 b l) = ∑ h : Fin 600, actRow x0 x3 x6 x7 b l h := by
  rw [val_main_v257_apply, val_main_cst_39_apply, Ideal.ofBits_def, Ideal.ofBits_zero_f32, zero_add]
  refine Finset.sum_congr rfl fun h _ => ?_
  have e : idx_main_v257 (ix2 b l) h = ix3 b l h :=
    funext fun a => Fin.ext (by match a with | ⟨0, _⟩ => rfl | ⟨1, _⟩ => rfl | ⟨2, _⟩ => rfl)
  rw [e, act_at]

/-- The row's mean. -/
theorem mean_at (b : Fin 64) (l : Fin 256) (z : Fin 1) :
    val_main_v260 (F := Ideal) x0 x3 x6 x7 (ix3 b l z) = Cert.Spec.mean (actRow x0 x3 x6 x7 b l) := by
  rw [val_main_v260_apply, val_main_v258_apply, val_main_v259_apply, val_main_cst_40_apply]
  have e : idx_main_v258 (ix3 b l z) = ix2 b l :=
    funext fun a => Fin.ext (by match a with | ⟨0, _⟩ => rfl | ⟨1, _⟩ => rfl)
  rw [e, rowSum_at]
  simp only [Ideal.hostDivf_def, Ideal.ofBits_def]
  rfl

/-- The deviation from the mean, first copy (the one that is squared). -/
theorem dev_at (b : Fin 64) (l : Fin 256) (h : Fin 600) :
    val_main_v262 (F := Ideal) x0 x3 x6 x7 (ix3 b l h)
      = actRow x0 x3 x6 x7 b l h - Cert.Spec.mean (actRow x0 x3 x6 x7 b l) := by
  rw [val_main_v262_apply, val_main_v261_apply, act_at]
  have e : idx_main_v261 (ix3 b l h) = ix3 b l (0 : Fin 1) :=
    funext fun a => Fin.ext (by match a with | ⟨0, _⟩ => rfl | ⟨1, _⟩ => rfl | ⟨2, _⟩ => rfl)
  rw [e, mean_at]
  simp only [Ideal.subf_def]

/-- The sum of the squared deviations. -/
theorem sqSum_at (b : Fin 64) (l : Fin 256) :
    val_main_v264 (F := Ideal) x0 x3 x6 x7 (ix2 b l)
      = ∑ h : Fin 600, (actRow x0 x3 x6 x7 b l h - Cert.Spec.mean (actRow x0 x3 x6 x7 b l))
          * (actRow x0 x3 x6 x7 b l h - Cert.Spec.mean (actRow x0 x3 x6 x7 b l)) := by
  rw [val_main_v264_apply, val_main_cst_41_apply, Ideal.ofBits_def, Ideal.ofBits_zero_f32, zero_add]
  refine Finset.sum_congr rfl fun h _ => ?_
  have e : idx_main_v264 (ix2 b l) h = ix3 b l h :=
    funext fun a => Fin.ext (by match a with | ⟨0, _⟩ => rfl | ⟨1, _⟩ => rfl | ⟨2, _⟩ => rfl)
  rw [e, val_main_v263_apply, dev_at]
  simp only [Ideal.mulf_def]

/-- The row's mean squared deviation. -/
theorem var_at (b : Fin 64) (l : Fin 256) (z : Fin 1) :
    val_main_v267 (F := Ideal) x0 x3 x6 x7 (ix3 b l z) = Cert.Spec.var (actRow x0 x3 x6 x7 b l) := by
  rw [val_main_v267_apply, val_main_v265_apply, val_main_v266_apply, val_main_cst_42_apply]
  have e : idx_main_v265 (ix3 b l z) = ix2 b l :=
    funext fun a => Fin.ext (by match a with | ⟨0, _⟩ => rfl | ⟨1, _⟩ => rfl)
  rw [e, sqSum_at]
  simp only [Ideal.hostDivf_def, Ideal.ofBits_def]
  rfl

/-- The deviation from the mean, second copy (the one that is scaled). -/
theorem dev2_at (b : Fin 64) (l : Fin 256) (h : Fin 600) :
    val_main_v269 (F := Ideal) x0 x3 x6 x7 (ix3 b l h)
      = actRow x0 x3 x6 x7 b l h - Cert.Spec.mean (actRow x0 x3 x6 x7 b l) := by
  rw [val_main_v269_apply, val_main_v268_apply, act_at]
  have e : idx_main_v268 (ix3 b l h) = ix3 b l (0 : Fin 1) :=
    funext fun a => Fin.ext (by match a with | ⟨0, _⟩ => rfl | ⟨1, _⟩ => rfl | ⟨2, _⟩ => rfl)
  rw [e, mean_at]
  simp only [Ideal.subf_def]

/-- The reciprocal square root of the variance plus epsilon. -/
theorem scale_at (b : Fin 64) (l : Fin 256) (z : Fin 1) :
    val_main_v272 (F := Ideal) x0 x3 x6 x7 (ix3 b l z)
      = Ideal.rsqrt (Cert.Spec.var (actRow x0 x3 x6 x7 b l) + Cert.Spec.epsW) := by
  rw [val_main_v272_apply, val_main_v271_apply, var_at, val_main_v270_apply, val_main_cst_43_apply]
  simp only [Ideal.hostUnary_rsqrt_def, Ideal.addf_def, Ideal.ofBits_def]

/-- The normalised entry before gain and offset. -/
theorem scaled_at (b : Fin 64) (l : Fin 256) (h : Fin 600) :
    val_main_v274 (F := Ideal) x0 x3 x6 x7 (ix3 b l h)
      = (actRow x0 x3 x6 x7 b l h - Cert.Spec.mean (actRow x0 x3 x6 x7 b l))
          * Ideal.rsqrt (Cert.Spec.var (actRow x0 x3 x6 x7 b l) + Cert.Spec.epsW) := by
  rw [val_main_v274_apply, dev2_at, val_main_v273_apply]
  have e : idx_main_v273 (ix3 b l h) = ix3 b l (0 : Fin 1) :=
    funext fun a => Fin.ext (by match a with | ⟨0, _⟩ => rfl | ⟨1, _⟩ => rfl | ⟨2, _⟩ => rfl)
  rw [e, scale_at]
  simp only [Ideal.mulf_def]

/-- The gain, spread over every token row. -/
theorem gain_at (b : Fin 64) (l : Fin 256) (h : Fin 600) :
    val_main_v276 (F := Ideal) x11 (ix3 b l h) = x11 (ix1 h) := by
  rw [val_main_v276_apply, val_main_v275_apply]
  exact congrArg x11 (funext fun a => Fin.ext (by match a with | ⟨0, _⟩ => rfl))

/-- The offset, spread over every token row. -/
theorem offset_at (b : Fin 64) (l : Fin 256) (h : Fin 600) :
    val_main_v279 (F := Ideal) x12 (ix3 b l h) = x12 (ix1 h) := by
  rw [val_main_v279_apply, val_main_v278_apply]
  exact congrArg x12 (funext fun a => Fin.ext (by match a with | ⟨0, _⟩ => rfl))

end Norm

end Feat

theorem feature_apply (x0 : (⟨S13x64x256x768, .f32⟩ : BufTy).Contents (Elt Ideal)) (x3 : (⟨S64x256, .i32⟩ : BufTy).Contents (Elt Ideal))
    (x6 : (⟨S4x768x600, .f32⟩ : BufTy).Contents (Elt Ideal)) (x7 : (⟨S4x600, .f32⟩ : BufTy).Contents (Elt Ideal)) (x11 x12 : (⟨S600, .f32⟩ : BufTy).Contents (Elt Ideal))
    (b : Fin 64) (l : Fin 256) (h : Fin 600) :
    val_main_v280 (F := Ideal) x0 x3 x6 x7 x11 x12 (ix3 b l h)
      = Cert.Spec.featRow (fun d => val_main_v247 (F := Ideal) x0 x3 (ix3 b l d)) (fun d h => x6 (ix3 3 d h))
          (fun h => x7 (ix2 3 h)) (fun h => x11 (ix1 h)) (fun h => x12 (ix1 h)) h := by
  rw [val_main_v280_apply, val_main_v277_apply, Feat.scaled_at, Feat.gain_at, Feat.offset_at]
  simp only [Ideal.mulf_def, Ideal.addf_def]
  rfl

end Cert.ReferenceIdeal.RefVal

end
-- ==== Proof.RLogit.lean ====
/-
  The reference's result: entry `(b, k)` is the classifier (`Spec.logit`) of the weighted average (`Spec.pooled`) of
  batch entry `b`'s 256 feature rows. Its sums start from the zero word, which adds nothing.
-/
import proofs.«401989_j53884659695997_1_alg».proof.Proof.RefRead
import proofs.«401989_j53884659695997_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefVal

open Cert.ReferenceIdeal Cert.ReferenceIdeal.Gen Cert.ReferenceIdeal.ReadP Idealize.ShloMosaic Idealize.ShloMosaic.ValueIdx

/-- The weight of token `l`, repeated along the 600 features. -/
theorem weight_at (x5 : (⟨S64x256, .f32⟩ : BufTy).Contents (Elt Ideal)) (b : Fin 64) (l : Fin 256) (h : Fin 600) :
    val_main_v282 (F := Ideal) x5 (ix3 b l h) = x5 (ix2 b l) := by
  rw [val_main_v282_apply, val_main_v281_apply]
  exact congrArg x5 (funext fun a => Fin.ext (by match a with | ⟨0, _⟩ => rfl | ⟨1, _⟩ => rfl))

/-- The sum of the weights of batch entry `b`, repeated along the 600 features. -/
theorem weightSum_at (x5 : (⟨S64x256, .f32⟩ : BufTy).Contents (Elt Ideal)) (b : Fin 64) (h : Fin 600) :
    val_main_v287 (F := Ideal) x5 (ix2 b h) = ∑ l : Fin 256, x5 (ix2 b l) := by
  rw [val_main_v287_apply, val_main_v286_apply, val_main_v285_apply, val_main_cst_45_apply, Ideal.ofBits_def,
    Ideal.ofBits_zero_f32, zero_add]
  refine Finset.sum_congr rfl fun l _ => ?_
  exact congrArg x5 (funext fun a => Fin.ext (by match a with | ⟨0, _⟩ => rfl | ⟨1, _⟩ => rfl))

/-- The weighted sum of the 256 feature rows of batch entry `b`, at feature `h`. -/
theorem weightedSum_at (x0 : (⟨S13x64x256x768, .f32⟩ : BufTy).Contents (Elt Ideal)) (x3 : (⟨S64x256, .i32⟩ : BufTy).Contents (Elt Ideal)) (x5 : (⟨S64x256, .f32⟩ : BufTy).Contents (Elt Ideal))
    (x6 : (⟨S4x768x600, .f32⟩ : BufTy).Contents (Elt Ideal)) (x7 : (⟨S4x600, .f32⟩ : BufTy).Contents (Elt Ideal)) (x11 x12 : (⟨S600, .f32⟩ : BufTy).Contents (Elt Ideal)) (b : Fin 64) (h : Fin 600) :
    val_main_v284 (F := Ideal) x0 x3 x5 x6 x7 x11 x12 (ix2 b h)
      = ∑ l : Fin 256, val_main_v280 (F := Ideal) x0 x3 x6 x7 x11 x12 (ix3 b l h) * x5 (ix2 b l) := by
  rw [val_main_v284_apply, val_main_cst_44_apply, Ideal.ofBits_def, Ideal.ofBits_zero_f32, zero_add]
  refine Finset.sum_congr rfl fun l _ => ?_
  have e : idx_main_v284 (ix2 b h) l = ix3 b l h :=
    funext fun a => Fin.ext (by match a with | ⟨0, _⟩ => rfl | ⟨1, _⟩ => rfl | ⟨2, _⟩ => rfl)
  rw [e, val_main_v283_apply, weight_at, Ideal.mulf_def]

/-- The weighted average of the 256 feature rows of batch entry `b`, at feature `h`. -/
theorem pooled_at (x0 : (⟨S13x64x256x768, .f32⟩ : BufTy).Contents (Elt Ideal)) (x3 : (⟨S64x256, .i32⟩ : BufTy).Contents (Elt Ideal)) (x5 : (⟨S64x256, .f32⟩ : BufTy).Contents (Elt Ideal))
    (x6 : (⟨S4x768x600, .f32⟩ : BufTy).Contents (Elt Ideal)) (x7 : (⟨S4x600, .f32⟩ : BufTy).Contents (Elt Ideal)) (x11 x12 : (⟨S600, .f32⟩ : BufTy).Contents (Elt Ideal)) (b : Fin 64) (h : Fin 600) :
    val_main_v288 (F := Ideal) x0 x3 x5 x6 x7 x11 x12 (ix2 b h)
      = Cert.Spec.pooled (fun l h => val_main_v280 (F := Ideal) x0 x3 x6 x7 x11 x12 (ix3 b l h)) (fun l => x5 (ix2 b l)) h := by
  rw [val_main_v288_apply, weightedSum_at, weightSum_at, Ideal.hostDivf_def]
  rfl

/-- The classifier's offset, repeated along the 64 batch entries. -/
theorem offset_at (x14 : (⟨S3, .f32⟩ : BufTy).Contents (Elt Ideal)) (b : Fin 64) (k : Fin 3) :
    val_main_v291 (F := Ideal) x14 (ix2 b k) = x14 (ix1 k) := by
  rw [val_main_v291_apply, val_main_v290_apply]
  exact congrArg x14 (funext fun a => Fin.ext (by match a with | ⟨0, _⟩ => rfl))

/-- Entry `(b, k)` of the reference's result. -/
theorem logits_apply (x0 : (⟨S13x64x256x768, .f32⟩ : BufTy).Contents (Elt Ideal)) (x3 : (⟨S64x256, .i32⟩ : BufTy).Contents (Elt Ideal)) (x5 : (⟨S64x256, .f32⟩ : BufTy).Contents (Elt Ideal))
    (x6 : (⟨S4x768x600, .f32⟩ : BufTy).Contents (Elt Ideal)) (x7 : (⟨S4x600, .f32⟩ : BufTy).Contents (Elt Ideal)) (x11 x12 : (⟨S600, .f32⟩ : BufTy).Contents (Elt Ideal))
    (x13 : (⟨S600x3, .f32⟩ : BufTy).Contents (Elt Ideal)) (x14 : (⟨S3, .f32⟩ : BufTy).Contents (Elt Ideal)) (b : Fin 64) (k : Fin 3) :
    val_main_v292 (F := Ideal) x0 x3 x5 x6 x7 x11 x12 x13 x14 (ix2 b k)
      = Cert.Spec.logit
          (Cert.Spec.pooled (fun l h => val_main_v280 (F := Ideal) x0 x3 x6 x7 x11 x12 (ix3 b l h)) (fun l => x5 (ix2 b l)))
          (fun h k => x13 (ix2 h k)) (fun k => x14 (ix1 k)) k := by
  rw [val_main_v292_apply, val_main_v289_apply, offset_at, Ideal.addf_def]
  unfold Cert.Spec.logit
  refine congrArg (· + x14 (ix1 k)) (Finset.sum_congr rfl fun h _ => ?_)
  have el : lidx_main_v289 (ix2 b k) h = ix2 b h :=
    funext fun a => Fin.ext (by match a with | ⟨0, _⟩ => rfl | ⟨1, _⟩ => rfl)
  have er : ridx_main_v289 (ix2 b k) h = ix2 h k :=
    funext fun a => Fin.ext (by match a with | ⟨0, _⟩ => rfl | ⟨1, _⟩ => rfl)
  rw [el, er, pooled_at]

end Cert.ReferenceIdeal.RefVal

end
-- ==== Proof.RValue.lean ====
/-
  The reference's result as one function of its arguments: its classifier stage over its feature stage over its
  token rows, each read entry by entry, is `Spec.logits`.
-/
import proofs.«401989_j53884659695997_1_alg».proof.Proof.RGather
import proofs.«401989_j53884659695997_1_alg».proof.Proof.RFeat
import proofs.«401989_j53884659695997_1_alg».proof.Proof.RLogit

noncomputable section

namespace Cert.ReferenceIdeal.RefVal

open Cert.ReferenceIdeal Cert.ReferenceIdeal.Gen Cert.ReferenceIdeal.ReadP Idealize.ShloMosaic Idealize.ShloMosaic.ValueIdx

theorem ref_value (x0 : (⟨S13x64x256x768, .f32⟩ : BufTy).Contents (Elt Ideal)) (x3 : (⟨S64x256, .i32⟩ : BufTy).Contents (Elt Ideal)) (x5 : (⟨S64x256, .f32⟩ : BufTy).Contents (Elt Ideal))
    (x6 : (⟨S4x768x600, .f32⟩ : BufTy).Contents (Elt Ideal)) (x7 : (⟨S4x600, .f32⟩ : BufTy).Contents (Elt Ideal)) (x11 x12 : (⟨S600, .f32⟩ : BufTy).Contents (Elt Ideal))
    (x13 : (⟨S600x3, .f32⟩ : BufTy).Contents (Elt Ideal)) (x14 : (⟨S3, .f32⟩ : BufTy).Contents (Elt Ideal)) (hts : Cert.Spec.InRange x3) :
    val_main_v292 (F := Ideal) x0 x3 x5 x6 x7 x11 x12 x13 x14
      = Cert.Spec.logits x0 x3 x5 x6 x7 x11 x12 x13 x14 := by
  funext i
  obtain ⟨b, k, rfl⟩ : ∃ (b : Fin 64) (k : Fin 3), i = ix2 b k := ⟨i 0, i 1, eq_ix2 i⟩
  rw [logits_apply]
  have ef : (fun (l : Fin 256) (h : Fin 600) => val_main_v280 (F := Ideal) x0 x3 x6 x7 x11 x12 (ix3 b l h))
      = fun l h => Cert.Spec.feat x0 x3 x6 x7 x11 x12 b l h := by
    funext l h
    rw [feature_apply]
    unfold Cert.Spec.feat
    exact congrArg (fun x => Cert.Spec.featRow x _ _ _ _ h) (funext fun d => gathered_apply x0 x3 hts b l d)
  rw [ef]
  rfl

end Cert.ReferenceIdeal.RefVal

end
-- ==== Proof.PreRange.lean ====
/-
  The precondition's last two conjuncts say that every token position is at least 0 and below 256 as a signed
  32-bit integer; so each position word, read as a natural number, is below 256.
-/
import proofs.«401989_j53884659695997_1_alg».proof.Pre_finite_inputs
import proofs.«401989_j53884659695997_1_alg».proof.Proof.Spec
import Idealize.ShloMosaic.Lib.ReduceAll
import Idealize.ShloMosaic.Lib.Affine
import Idealize.ShloMosaic.Lib.ValueIdx
import Idealize.ShloMosaic.Lib.StableHlo.Predicate

noncomputable section

namespace Cert.PreRange

open Idealize.ShloMosaic Cert.Pre_finite_inputs

instance : Subsingleton S_.Idx := ⟨fun _ _ => funext fun d => d.elim0⟩

/-- A word that is at least 0 and below 256 as a signed integer is below 256 as a natural number. -/
theorem word_lt (x : BitVec 32) (hge : IntOp.cmpi .sge x 0#32 = 1#1) (hlt : IntOp.cmpi .slt x 256#32 = 1#1) :
    x.toNat < 256 := by
  unfold IntOp.cmpi at hge hlt
  have h1 : (0#32).sle x = true := (StableHlo.Predicate.ofBool_eq_one_iff _).1 hge
  have h2 : x.slt 256#32 = true := (StableHlo.Predicate.ofBool_eq_one_iff _).1 hlt
  simp only [BitVec.sle, BitVec.slt, decide_eq_true_eq] at h1 h2
  have e0 : (0#32).toInt = 0 := by decide
  have e256 : (256#32).toInt = 256 := by decide
  rw [e0] at h1; rw [e256] at h2
  rw [BitVec.toInt_eq_toNat_cond] at h1 h2
  have hx := x.isLt
  split at h1 <;> omega

variable {F : FTy → Type} [FloatOps F] [hP : Cert.Pre_finite_inputs.Facts]

/-- The precondition gives the range of every token position. -/
theorem inRange (a0 : FVec F S13x64x256x768 .f32) (a1 : FVec F S12x64x256x256 .f32) (a2 : FVec F S64x256x256 .f32)
    (a3 : IVec S64x256 32) (a4 a5 : FVec F S64x256 .f32) (a6 : FVec F S4x768x600 .f32) (a7 : FVec F S4x600 .f32)
    (a8 : FVec F S4x600x600 .f32) (a9 : FVec F S4x600 .f32) (a10 : FVec F S7x600 .f32) (a11 a12 : FVec F S600 .f32)
    (a13 : FVec F S600x3 .f32) (a14 : FVec F S3 .f32)
    (h : Cert.Pre_finite_inputs.fn (F := F) a0 a1 a2 a3 a4 a5 a6 a7 a8 a9 a10 a11 a12 a13 a14 = fun _ => 1#1) :
    Cert.Spec.InRange a3 := by
  intro i
  have h0 := congrFun h ValueIdx.ix0
  dsimp only [Cert.Pre_finite_inputs.fn, fn_part1, fn_part2, fn_part3, fn_part4] at h0
  obtain ⟨h1, h75⟩ := IntOp.andi_eq_one.1 h0
  obtain ⟨_, h71⟩ := IntOp.andi_eq_one.1 h1
  have ge := Host.reduce_andi_all _ _ _ _ _ h71 i
  have lt := Host.reduce_andi_all _ _ _ _ _ h75 i
  exact word_lt (a3 i) ge lt

end Cert.PreRange

end
-- ==== Proof.lean ====
/-
  The certificate's claim. The two programs compute, for each of 64 batch entries, three logits: token rows of
  layer 12 of the hidden states, taken at the token positions, go through a linear layer, a rectifier and a layer
  normalisation; the 256 feature rows of an entry are averaged with the aspect mask as weights; a classifier layer
  gives the logits (`Spec.logits`). The kernel program does this in two pipelined kernels over row blocks, the
  reference as one chain of whole-array operations (whose earlier layers never reach the result). The two agree
  where every token position indexes the 256 tokens, which the precondition states: outside that range the kernel's
  row gather fills the row with a filler while the reference's clamps the position.
  The frames of the two kernel programs are the generated ones; the reference's frame is its run with the result
  dropped; the idealization rewrote nothing.
-/
import proofs.«401989_j53884659695997_1_alg».proof.Defs
import proofs.«401989_j53884659695997_1_alg».proof.Proof.Gen.Kernel
import proofs.«401989_j53884659695997_1_alg».proof.Proof.Gen.Kernel.Skeleton
import proofs.«401989_j53884659695997_1_alg».proof.Proof.Gen.Kernel.Launch
import proofs.«401989_j53884659695997_1_alg».proof.Proof.Gen.Kernel.Points
import proofs.«401989_j53884659695997_1_alg».proof.Proof.Gen.Kernel.Frame
import proofs.«401989_j53884659695997_1_alg».proof.Proof.Gen.KernelIdeal
import proofs.«401989_j53884659695997_1_alg».proof.Proof.Gen.KernelIdeal.Skeleton
import proofs.«401989_j53884659695997_1_alg».proof.Proof.Gen.KernelIdeal.Launch
import proofs.«401989_j53884659695997_1_alg».proof.Proof.Gen.KernelIdeal.Points
import proofs.«401989_j53884659695997_1_alg».proof.Proof.Gen.KernelIdeal.Frame
import proofs.«401989_j53884659695997_1_alg».proof.Proof.Gen.ReferenceIdeal
import proofs.«401989_j53884659695997_1_alg».proof.Proof.Gen.Pre_finite_inputs
import proofs.«401989_j53884659695997_1_alg».proof.Proof.KernelRun
import proofs.«401989_j53884659695997_1_alg».proof.Proof.KValue
import proofs.«401989_j53884659695997_1_alg».proof.Proof.RefRun
import proofs.«401989_j53884659695997_1_alg».proof.Proof.RValue
import proofs.«401989_j53884659695997_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

/-- The reference run's result term is its last stage, applied to the arguments. -/
theorem ref_result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v292 m c
      = Cert.ReferenceIdeal.ReadP.val_main_v292 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14)) := by
  unfold Cert.ReferenceIdeal.ValueP.res_main_v292; rfl

variable [hKernelIdeal : Cert.KernelIdeal.Facts] [hReferenceIdeal : Cert.ReferenceIdeal.Facts]
  [hPre_finite_inputs : Cert.Pre_finite_inputs.Facts]

/-- Both idealized programs end with `Spec.logits` of the arguments. -/
theorem algebraic : Cert.algebraic_KernelIdeal_ReferenceIdeal := by
  intro m ρ m' ρ' hpre hagree
  have hts : ∀ c : Dev Cert.KernelIdeal.nD, Cert.Spec.InRange
      (m ((c.tc : Thread Cert.KernelIdeal.nD Cert.KernelIdeal.τ).loc Cert.KernelIdeal.main_arg3)) :=
    fun c => Cert.PreRange.inRange _ _ _ _ _ _ _ _ _ _ _ _ _ _ _ (hpre c)
  refine ⟨fun c => Cert.Spec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KVal.kernel_value m ρ c (hts c)), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10, a11, a12, a13, a14⟩ := hagree c
    rw [ref_result_eq m' c, a0, a3, a5, a6, a7, a11, a12, a13, a14]
    exact Cert.ReferenceIdeal.RefVal.ref_value _ _ _ _ _ _ _ _ _ (hts c)

end Cert.Proof

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
